-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S_ : Shape := ⟨0, ![]⟩
abbrev S64x1 : Shape := ⟨2, ![64, 1]⟩
abbrev S1 : Shape := ⟨1, ![1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v66 : IVec S_ 1) (main_v67 : FVec F S64x1 .f32) : IVec S_ 1 :=
  let main_cst_26 : FVec F S_ .f32 := constant S_ .f32 0x7F800000#32
  let main_v68 : FVec F S64x1 .f32 := broadcastInDim S64x1 ![] bcast_S_S64x1 main_cst_26
  let main_v69 : IVec S64x1 1 := cmpf .olt main_v67 main_v68
  let main_c_27 : IVec S_ 1 := constantI S_ 1 1#1
  let main_v70 : IVec S_ 1 := (fun x v => Host.reduce IntOp.andi x v reducesTo_S64x1_S_d0_1 h_S_) main_v69 main_c_27
  let main_v71 : IVec S_ 1 := andi main_v66 main_v70
  let main_v72 : FVec F S1 .f32 := Host.absf main_arg17
  let main_cst_28 : FVec F S_ .f32 := constant S_ .f32 0x7F800000#32
  let main_v73 : FVec F S1 .f32 := broadcastInDim S1 ![] bcast_S_S1 main_cst_28
  let main_v74 : IVec S1 1 := cmpf .olt main_v72 main_v73
  let main_c_29 : IVec S_ 1 := constantI S_ 1 1#1
  let main_v75 : IVec S_ 1 := (fun x v => Host.reduce IntOp.andi x v reducesTo_S1_S_d0 h_S_) main_v74 main_c_29
  let main_v76 : IVec S_ 1 := andi main_v71 main_v75
  main_v76

def fn_part3 {F : FTy → Type} [FloatOps F] (main_arg13 : FVec F S_ .f32) (main_arg14 : FVec F S64x64 .f32) (main_arg15 : FVec F S64 .f32) (main_arg16 : FVec F S64x1 .f32) (main_arg17 : FVec F S1 .f32) (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  let main_v53 : FVec F S_ .f32 := Host.absf main_arg13
  let main_cst_20 : FVec F S_ .f32 := constant S_ .f32 0x7F800000#32
  let main_v54 : IVec S_ 1 := cmpf .olt main_v53 main_cst_20
  let main_c_21 : IVec S_ 1 := constantI S_ 1 1#1
  let main_v55 : IVec S_ 1 := (fun x v => Host.reduce IntOp.andi x v reducesTo_S_S_d h_S_) main_v54 main_c_21
  let main_v56 : IVec S_ 1 := andi main_v52 main_v55
  let main_v57 : FVec F S64x64 .f32 := Host.absf main_arg14
  let main_cst_22 : FVec F S_ .f32 := constant S_ .f32 0x7F800000#32
  let main_v58 : FVec F S64x64 .f32 := broadcastInDim S64x64 ![] bcast_S_S64x64 main_cst_22
  let main_v59 : IVec S64x64 1 := cmpf .olt main_v57 main_v58
  let main_c_23 : IVec S_ 1 := constantI S_ 1 1#1
  let main_v60 : IVec S_ 1 := (fun x v => Host.reduce IntOp.andi x v reducesTo_S64x64_S_d0_1 h_S_) main_v59 main_c_23
  let main_v61 : IVec S_ 1 := andi main_v56 main_v60
  let main_v62 : FVec F S64 .f32 := Host.absf main_arg15
  let main_cst_24 : FVec F S_ .f32 := constant S_ .f32 0x7F800000#32
  let main_v63 : FVec F S64 .f32 := broadcastInDim S64 ![] bcast_S_S64 main_cst_24
  let main_v64 : IVec S64 1 := cmpf .olt main_v62 main_v63
  let main_c_25 : IVec S_ 1 := constantI S_ 1 1#1
  let main_v65 : IVec S_ 1 := (fun x v => Host.reduce IntOp.andi x v reducesTo_S64_S_d0 h_S_) main_v64 main_c_25
  let main_v66 : IVec S_ 1 := andi main_v61 main_v65
  let main_v67 : FVec F S64x1 .f32 := Host.absf main_arg16
  fn_part4 (F := F) main_arg17 main_v66 main_v67

def fn_part2 {F : FTy → Type} [FloatOps F] (main_arg9 : FVec F S64x64 .f32) (main_arg10 : FVec F S64 .f32) (main_arg11 : FVec F S64x64 .f32) (main_arg12 : FVec F S_ .f32) (main_arg13 : FVec F S_ .f32) (main_arg14 : FVec F S64x64 .f32) (main_arg15 : FVec F S64 .f32) (main_arg16 : FVec F S64x1 .f32) (main_arg17 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S_ .f32 := Host.absf main_arg12
  let main_cst_18 : FVec F S_ .f32 := constant S_ .f32 0x7F800000#32
  let main_v50 : IVec S_ 1 := cmpf .olt main_v49 main_cst_18
  fn_part3 (F := F) main_arg13 main_arg14 main_arg15 main_arg16 main_arg17 main_v48 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S_ .f32) (main_arg13 : FVec F S_ .f32) (main_arg14 : FVec F S64x64 .f32) (main_arg15 : FVec F S64 .f32) (main_arg16 : FVec F S64x1 .f32) (main_arg17 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S_ .f32) (main_arg13 : FVec F S_ .f32) (main_arg14 : FVec F S64x64 .f32) (main_arg15 : FVec F S64 .f32) (main_arg16 : FVec F S64x1 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S_ : Shape := ⟨0, ![]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1x64 : Shape := ⟨2, ![1, 64]⟩
abbrev S1x1 : Shape := ⟨2, ![1, 1]⟩
abbrev S10000x64 : Shape := ⟨2, ![10000, 64]⟩
abbrev S100000x1 : Shape := ⟨2, ![100000, 1]⟩
abbrev S10000x1 : Shape := ⟨2, ![10000, 1]⟩

abbrev nBuf : Space → Nat
  | .hbm => 75
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S_, .f32⟩
  | .hbm, ⟨13, _⟩ => ⟨S_, .f32⟩
  | .hbm, ⟨14, _⟩ => ⟨S64x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S1x1000000, .i32⟩
  | .hbm, ⟨19, _⟩ => ⟨S1000000, .i32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S1x64, .f32⟩
  | .hbm, ⟨36, _⟩ => ⟨S1x1, .f32⟩
  | .hbm, ⟨37, _⟩ => ⟨S100000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S_, .f32⟩
  | .hbm, ⟨48, _⟩ => ⟨S100000x64, .f32⟩
  | .hbm, ⟨49, _⟩ => ⟨S1000000x1, .i32⟩
  | .hbm, ⟨50, _⟩ => ⟨S100000x64, .f32⟩
  | .hbm, ⟨51, _⟩ => ⟨S1x64, .f32⟩
  | .hbm, ⟨52, _⟩ => ⟨S1x1, .f32⟩
  | .hbm, ⟨53, _⟩ => ⟨S100000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S1x64, .f32⟩
  | .hbm, ⟨68, _⟩ => ⟨S_, .f32⟩
  | .hbm, ⟨69, _⟩ => ⟨S1x1, .f32⟩
  | .hbm, ⟨70, _⟩ => ⟨S100000x64, .f32⟩
  | .hbm, ⟨71, _⟩ => ⟨S100000x1, .i32⟩
  | .hbm, ⟨72, _⟩ => ⟨S1x64, .f32⟩
  | .hbm, ⟨73, _⟩ => ⟨S1x1, .f32⟩
  | .hbm, ⟨74, _⟩ => ⟨S64x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x1, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S1x1, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x1, .i32⟩
  | .local _ .vmem, ⟨33, _⟩ => ⟨S10000x1, .i32⟩
  | .local _ .vmem, ⟨34, _⟩ => ⟨S64x64, .f32⟩
  | .local _ .vmem, ⟨35, _⟩ => ⟨S1x64, .f32⟩
  | .local _ .vmem, ⟨36, _⟩ => ⟨S64x1, .f32⟩
  | .local _ .vmem, ⟨37, _⟩ => ⟨S1x1, .f32⟩
  | .local _ .vmem, ⟨38, _⟩ => ⟨S64x1, .f32⟩
  | .local _ .vmem, ⟨39, _⟩ => ⟨S64x64, .f32⟩
  | .local _ .vmem, ⟨40, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_scratch0 : Ref sig .tc := ⟨.vmem, 39, rfl⟩
abbrev cc3_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_13 : BitVec 32 := 0#32
  let v32 : BitVec 1 := Scalar.cmpi .ne v31 c0_i32_13
  v32

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  shapeCasts_S_S1x1 : S_.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S100000_S100000x1 : S100000.ShapeCasts S100000x1
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x64_d1_w32 : S1x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  reduces_S10000x64_S64 : S10000x64.Reduces [0] S64
  shapeCasts_S64_S64x1 : S64.ShapeCasts S64x1
  broadcasts_S64x1_S64x64 : S64x1.Broadcasts S64x64
  broadcasts_S1x64_S64x64 : S1x64.Broadcasts S64x64
  shapeCasts_S1x1_S1x1 : S1x1.ShapeCasts S1x1
  broadcasts_S1x1_S64x1 : S1x1.Broadcasts S64x1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S64x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S_ : Shape := ⟨0, ![]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S_, .f32⟩
  | .hbm, ⟨13, _⟩ => ⟨S_, .f32⟩
  | .hbm, ⟨14, _⟩ => ⟨S64x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S1x1000000, .i32⟩
  | .hbm, ⟨19, _⟩ => ⟨S1000000, .i32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .i1⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .f32⟩
  | .hbm, ⟨56, _⟩ => ⟨S_, .f32⟩
  | .hbm, ⟨57, _⟩ => ⟨S100000x64, .f32⟩
  | .hbm, ⟨58, _⟩ => ⟨S1000000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .i1⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1000000x64, .f32⟩
  | .hbm, ⟨81, _⟩ => ⟨S_, .f32⟩
  | .hbm, ⟨82, _⟩ => ⟨S100000x64, .f32⟩
  | .hbm, ⟨83, _⟩ => ⟨S1000000x1, .i32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S64x64, .f32⟩
  | .hbm, ⟨93, _⟩ => ⟨S100000x1, .i32⟩
  | .hbm, ⟨94, _⟩ => ⟨S64x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S64, .f32⟩
  | .hbm, ⟨99, _⟩ => ⟨S100000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S64x64, .f32⟩
  | .hbm, ⟨108, _⟩ => ⟨S1x64, .f32⟩
  | .hbm, ⟨109, _⟩ => ⟨S64x64, .f32⟩
  | .hbm, ⟨110, _⟩ => ⟨S64x64, .f32⟩
  | .hbm, ⟨111, _⟩ => ⟨S64x1, .f32⟩
  | .hbm, ⟨112, _⟩ => ⟨S1x1, .f32⟩
  | .hbm, ⟨113, _⟩ => ⟨S64x1, .f32⟩
  | .hbm, ⟨114, _⟩ => ⟨S64x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_6 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KI.Reg0.lean ====
/-
  Region 0 of the program: one graph-convolution combine step over a block of 10000 nodes.
  At a grid point the body reads the block's rows of the aggregated neighbour features and of the node features,
  the two 64×64 weight matrices, the bias row and the slope, and leaves in the output block
  agg·Wr + x·Wo + b, passed through the leaky rectifier with that slope.
  Stated here, for any contents V of the core's arrays when the region is entered: what each window's staging
  buffer holds before and after the body at every point, and that the body runs from the one to the other.
-/
import proofs.«412716_j76287209112018_2_alg».proof.Proof.Gen.KernelIdeal.Launch
import proofs.«412716_j76287209112018_2_alg».proof.Proof.Gen.KernelIdeal.Skeleton
import proofs.«412716_j76287209112018_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block of its array at grid point t, the array read as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the array's block at the point, whether the pipeline fetched it there or
    kept it from the point before (its block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds the array's block at the point, whether the pipeline fetched it there or
    kept it from the point before (its block index has not moved then). -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds the array's block at the point, whether the pipeline fetched it there or
    kept it from the point before (its block index has not moved then). -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds the array's block at the point, whether the pipeline fetched it there or
    kept it from the point before (its block index has not moved then). -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds the array's block at the point, whether the pipeline fetched it there or
    kept it from the point before (its block index has not moved then). -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's staging buffer holds the array's block at the point, whether the pipeline fetched it there or
    kept it from the point before (its block index has not moved then). -/
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The output block after the body: its one whole-block store, whose value is the body's arithmetic on the six loaded blocks. -/
def outBlock0 (x0 : Vec F S10000x64 .f32) (x1 : Vec F S10000x64 .f32) (x2 : Vec F S64x64 .f32) (x3 : Vec F S64x64 .f32) (x4 : Vec F S1x64 .f32) (x5 : Vec F S1x1 .f32) : Vec F S10000x64 .f32 :=
  View.canon [⟨(Rect.unit (s := S10000x64) ![0, 0] S10000x64.size inb_S10000x64_S10000x64_0_0), k0_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0)) (View.ld x5 (Rect.unit (s := S1x1) ![0, 0] S1x1.size inb_S1x1_S1x1_0_0))⟩]

/-- The one store covers the output block. -/
theorem outCover0 (p : Vec F S10000x64 .f32) (y : S10000x64.Idx) :
    ∃ pc ∈ ([⟨(Rect.unit (s := S10000x64) ![0, 0] S10000x64.size inb_S10000x64_S10000x64_0_0), p⟩] : List (View.Piece (Elt F) S10000x64 .f32)), y ∈ pc.1.set :=
  View.cover_of_tiled [⟨(Rect.unit (s := S10000x64) ![0, 0] S10000x64.size inb_S10000x64_S10000x64_0_0), p⟩] S10000x64.size (by rfl) y

set_option maxHeartbeats 4000000 in
/-- The body on whole staging buffers: the six inputs held at known contents and the output at anything, it runs to
    the inputs unchanged and the output at outBlock0 of them. -/
theorem body0 (c : Dev nD) (E : Set ℕ) (i : grid0.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S1x1 .f32) (h6 : a6.IsWhole) (a7 : Memref sig .tc .vmem S10000x64 .f32) (h7 : a7.IsWhole)
    (x0 : Vec F S10000x64 .f32) (x1 : Vec F S10000x64 .f32) (x2 : Vec F S64x64 .f32) (x3 : Vec F S64x64 .f32) (x4 : Vec F S1x64 .f32) (x5 : Vec F S1x1 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare (outBlock0 x0 x1 x2 x3 x4 x5)) -∗ K ⟨⟩))
      ⊢ wp frame (wpE (defs₀ (F := F)) Variants.none c none) E (cc0__combine_kernel i a1 h1 a2 h2 a3 h3 a4 h4 a5 h5 a6 h6 a7 h7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover0 _)

/-- The region's proof data on core c: the arrays as entered; after the body at point t every input buffer still at its
    block and the output buffer at outBlock0 of the blocks; the invariant is the scoped rest and the generator register,
    untouched; nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => outBlock0 (blk0 V c 0 t) (blk0 V c 1 t) (blk0 V c 2 t) (blk0 V c 3 t) (blk0 V c 4 t) (blk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = outBlock0 (blk0 V c 0 t) (blk0 V c 1 t) (blk0 V c 2 t) (blk0 V c 3 t) (blk0 V c 4 t) (blk0 V c 5 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-- The invariant is the same before the first point and after the last: the scoped rest and the generator register. -/
theorem phi0_in (c : Dev nD) : Pipeline.ΦA spec0 c ⊢ (dat0 V c).Φ 0 := .rfl
theorem phi0_out (c : Dev nD) : (dat0 V c).Φ (Fin.last cfg0.N) ⊢ Pipeline.ΦA spec0 c := .rfl

/-- What the body is handed at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body0 c Set.univ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem obligation0 (c : Dev nD) : BodyObligation (dat0 (F := F) V c) (defs₀ (F := F)) Variants.none () Set.univ := fun t => by
  rw [bigSep_W0, bigSep_W0]
  exact step0 V c t

end Cert.KernelIdeal.Hand

end
-- ==== Proof.KI.Reg3.lean ====
/-
  Region 3 of the program: the pooling head over blocks of 10000 nodes.
  At every grid point the body adds, into a 64×64 accumulator, the product of the block's one-hot graph-membership
  matrix (transposed) with the block's node features, and into a 64×1 accumulator the block's per-graph node counts;
  both accumulators are zeroed at the first point before the first addition.  At the last point it reads both back,
  divides each pooled row by the larger of its count and one, applies the two affine maps and stores the resulting
  column into the output block.  The output block is touched at no other point.
  Stated here, for any contents V of the core's arrays when the region is entered: the two accumulators after every
  point, what each window's staging buffer holds before and after the body at every point, and that the body runs
  from the one to the other while the invariant carries the accumulators from point to point.
-/
import proofs.«412716_j76287209112018_2_alg».proof.Proof.Gen.KernelIdeal.Launch
import proofs.«412716_j76287209112018_2_alg».proof.Proof.Gen.KernelIdeal.Skeleton
import proofs.«412716_j76287209112018_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block of its array at grid point t, the array read as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the array's block at the point, whether the pipeline fetched it there or
    kept it from the point before (its block index has not moved then). -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's staging buffer holds the array's block at the point, whether the pipeline fetched it there or
    kept it from the point before (its block index has not moved then). -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's staging buffer holds the array's block at the point, whether the pipeline fetched it there or
    kept it from the point before (its block index has not moved then). -/
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Input window 3's staging buffer holds the array's block at the point, whether the pipeline fetched it there or
    kept it from the point before (its block index has not moved then). -/
theorem before3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Input window 4's staging buffer holds the array's block at the point, whether the pipeline fetched it there or
    kept it from the point before (its block index has not moved then). -/
theorem before3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- Input window 5's staging buffer holds the array's block at the point, whether the pipeline fetched it there or
    kept it from the point before (its block index has not moved then). -/
theorem before3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-! ## The accumulators -/

/-- The two accumulators after point n: after the first point the block's contribution added to zeros, after each
    later point the block's contribution added to what the point before left. -/
def acc3 (c : Dev nD) : ℕ → Vec F S64x64 .f32 × Vec F S64x1 .f32
  | 0 => (k3_pay4 (blk3 V c 1 t3_0) (blk3 V c 0 t3_0) k3_pay1, k3_pay5 (blk3 V c 1 t3_0) k3_pay2)
  | n + 1 =>
    if h : n + 1 < cfg3.N then
      (k3_pay4 (blk3 V c 1 ⟨n + 1, h⟩) (blk3 V c 0 ⟨n + 1, h⟩) (acc3 c n).1, k3_pay5 (blk3 V c 1 ⟨n + 1, h⟩) (acc3 c n).2)
    else acc3 c n

/-- What the last point's one store leaves in the output block: the head applied to the two accumulators and the
    four parameter blocks. -/
def headBlock3 (s : Vec F S64x64 .f32) (n : Vec F S64x1 .f32) (w0 : Vec F S64x64 .f32) (b0 : Vec F S1x64 .f32) (w1 : Vec F S64x1 .f32) (b1 : Vec F S1x1 .f32) : Vec F S64x1 .f32 :=
  k3_pay6 s n w0 b0 w1 b1

theorem acc3_zero (c : Dev nD) : acc3 V c 0 = (k3_pay4 (blk3 V c 1 t3_0) (blk3 V c 0 t3_0) k3_pay1, k3_pay5 (blk3 V c 1 t3_0) k3_pay2) := rfl

theorem acc3_succ (c : Dev nD) (n : ℕ) (h : n + 1 < cfg3.N) :
    acc3 V c (n + 1) = (k3_pay4 (blk3 V c 1 ⟨n + 1, h⟩) (blk3 V c 0 ⟨n + 1, h⟩) (acc3 V c n).1, k3_pay5 (blk3 V c 1 ⟨n + 1, h⟩) (acc3 V c n).2) :=
  dif_pos h

/-- The accumulators after the first point, at the point itself. -/
theorem acc3_first (c : Dev nD) (t : Fin cfg3.N) (hz : t.val = 0) :
    acc3 V c t.val = (k3_pay4 (blk3 V c 1 t) (blk3 V c 0 t) k3_pay1, k3_pay5 (blk3 V c 1 t) k3_pay2) := by
  obtain ⟨n, hn⟩ := t
  cases n with
  | zero => rfl
  | succ n => exact absurd hz (Nat.succ_ne_zero n)

/-- The accumulators after a later point, at the point itself. -/
theorem acc3_pos (c : Dev nD) (t : Fin cfg3.N) (hz : t.val ≠ 0) :
    acc3 V c t.val = (k3_pay4 (blk3 V c 1 t) (blk3 V c 0 t) (acc3 V c (t.val - 1)).1, k3_pay5 (blk3 V c 1 t) (acc3 V c (t.val - 1)).2) := by
  obtain ⟨n, hn⟩ := t
  cases n with
  | zero => exact absurd rfl hz
  | succ n => exact dif_pos hn

/-! ## The body's two conditions and the output window's idle points, over the grid -/

/-- The reset runs at the first point only. -/
theorem hcond3_1 : ∀ t : Fin cfg3.N, (Scalar.cmpi .ne (Scalar.extui (Scalar.cmpi .eq (BitVec.ofNat 32 ((grid3.coords t) 0).val) 0#32)) 0#32) = 1#1 ↔ t.val = 0 :=
  (by decide +kernel : ∀ t : Fin grid3.N, (Scalar.cmpi .ne (Scalar.extui (Scalar.cmpi .eq (BitVec.ofNat 32 ((grid3.coords t) 0).val) 0#32)) 0#32) = 1#1 ↔ t.val = 0)
/-- The head runs at the last point only. -/
theorem hcond3_2 : ∀ t : Fin cfg3.N, k3_cond2 (grid3.coords t) = 1#1 ↔ t.val = 9 :=
  (by decide +kernel : ∀ t : Fin grid3.N, k3_cond2 (grid3.coords t) = 1#1 ↔ t.val = 9)
/-- The output window is idle at every point but the last, -/
theorem idleAt3_6 : ∀ t : Fin cfg3.N, t.val ≠ 9 → cfg3.idle 6 (grid3.coords t) = true :=
  (by decide +kernel : ∀ t : Fin grid3.N, t.val ≠ 9 → cfg3.idle 6 (grid3.coords t) = true)
/-- is not written back there, -/
theorem noFlush3_6 : ∀ t : Fin cfg3.N, t.val ≠ 9 → (cfg3.win 6).flush t = false :=
  (by decide +kernel : ∀ t : Fin grid3.N, t.val ≠ 9 → win3_6.flush t = false)
/-- and is live at the last. -/
theorem liveAt3_6 : ∀ t : Fin cfg3.N, t.val = 9 → cfg3.idle 6 (grid3.coords t) = false :=
  (by decide +kernel : ∀ t : Fin grid3.N, t.val = 9 → cfg3.idle 6 (grid3.coords t) = false)

/-! ## Reading back whole-block stores -/

theorem hz2 : (![0, 0] : Fin 2 → ℕ) = fun _ => 0 := by funext a; fin_cases a <;> rfl

/-- After stores of which the last fills the whole block, the block reads as that store's value. -/
theorem read_last_store {S : Shape} {e : EltTy} (v : View sig .tc .vmem S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero hz inb y⟩)).trans
    (View.canon_cons_unit_zero hz inb w L)

/-! ## The body on whole staging buffers, case by case -/

set_option maxHeartbeats 4000000 in
/-- At the first point: both accumulators at anything, the body zeroes them and adds the block's contribution. -/
theorem bodyFirst (c : Dev nD) (E : Set ℕ) (i : grid3.Coords) (a1 : Memref sig .tc .vmem S10000x64 .f32) (h1 : a1.IsWhole) (a2 : Memref sig .tc .vmem S10000x1 .i32) (h2 : a2.IsWhole) (a3 : Memref sig .tc .vmem S64x64 .f32) (h3 : a3.IsWhole) (a4 : Memref sig .tc .vmem S1x64 .f32) (h4 : a4.IsWhole) (a5 : Memref sig .tc .vmem S64x1 .f32) (h5 : a5.IsWhole) (a6 : Memref sig .tc .vmem S1x1 .f32) (h6 : a6.IsWhole) (a7 : Memref sig .tc .vmem S64x1 .f32) (h7 : a7.IsWhole) (a8 : Memref sig .tc .vmem S64x64 .f32) (h8 : a8.IsWhole) (a9 : Memref sig .tc .vmem S64x1 .f32) (h9 : a9.IsWhole)
    (hc1 : (Scalar.cmpi .ne (Scalar.extui (Scalar.cmpi .eq (BitVec.ofNat 32 (i 0).val) 0#32)) 0#32) = 1#1) (hc2 : ¬ k3_cond2 i = 1#1)
    (x0 : Vec F S10000x64 .f32) (x1 : Vec F S10000x1 .i32) (K : PUnit → sProp 𝕄) :
    iprop(owns (c : Thread nD τ) a1 fullShare x0 ∗ owns (c : Thread nD τ) a2 fullShare x1 ∗ (∃ d, owns (c : Thread nD τ) a8 fullShare d) ∗ (∃ d, owns (c : Thread nD τ) a9 fullShare d)
        ∗ (iprop(owns (c : Thread nD τ) a1 fullShare x0 ∗ owns (c : Thread nD τ) a2 fullShare x1 ∗ owns (c : Thread nD τ) a8 fullShare (k3_pay4 x1 x0 k3_pay1) ∗ owns (c : Thread nD τ) a9 fullShare (k3_pay5 x1 k3_pay2)) -∗ K ⟨⟩))
      ⊢ wp frame (wpE (defs₀ (F := F)) Variants.none c none) E (cc3__pool_head_kernel i a1 h1 a2 h2 a3 h3 a4 h4 a5 h5 a6 h6 a7 h7 a8 h8 a9 h9) K := by
  simp only [cc3__pool_head_kernel_eq_skeleton]; unfold cc3__pool_head_kernel_skel
  unfold owns
  iintro ⟨⟨%f0, %hf0, H0⟩, ⟨%f1, %hf1, H1⟩, ⟨%d8, %g0, -, S0⟩, ⟨%d9, %g1, -, S1⟩, Hk⟩
  subst hf0 hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    refine (read_last_store _ _ hz2 _ _ _).trans ?_
    sl_unfold_words
    simp only [View.readAt_eq_ld, View.ld_unit_zero (S := S10000x1) hz2, View.ld_unit_zero (S := S10000x64) hz2, View.readCov_unit_zero (S := S64x64) _ hz2]
  iexists _; isplitr
  swap; · iexact S1
  ipureintro
  refine (read_last_store _ _ hz2 _ _ _).trans ?_
  sl_unfold_words
  simp only [View.readAt_eq_ld, View.ld_unit_zero (S := S10000x1) hz2, View.readCov_unit_zero (S := S64x1) _ hz2]

set_option maxHeartbeats 4000000 in
/-- At a point neither first nor last: both accumulators at known contents, the body adds the block's contribution. -/
theorem bodyMid (c : Dev nD) (E : Set ℕ) (i : grid3.Coords) (a1 : Memref sig .tc .vmem S10000x64 .f32) (h1 : a1.IsWhole) (a2 : Memref sig .tc .vmem S10000x1 .i32) (h2 : a2.IsWhole) (a3 : Memref sig .tc .vmem S64x64 .f32) (h3 : a3.IsWhole) (a4 : Memref sig .tc .vmem S1x64 .f32) (h4 : a4.IsWhole) (a5 : Memref sig .tc .vmem S64x1 .f32) (h5 : a5.IsWhole) (a6 : Memref sig .tc .vmem S1x1 .f32) (h6 : a6.IsWhole) (a7 : Memref sig .tc .vmem S64x1 .f32) (h7 : a7.IsWhole) (a8 : Memref sig .tc .vmem S64x64 .f32) (h8 : a8.IsWhole) (a9 : Memref sig .tc .vmem S64x1 .f32) (h9 : a9.IsWhole)
    (hc1 : ¬ (Scalar.cmpi .ne (Scalar.extui (Scalar.cmpi .eq (BitVec.ofNat 32 (i 0).val) 0#32)) 0#32) = 1#1) (hc2 : ¬ k3_cond2 i = 1#1)
    (x0 : Vec F S10000x64 .f32) (x1 : Vec F S10000x1 .i32) (s0 : Vec F S64x64 .f32) (s1 : Vec F S64x1 .f32) (K : PUnit → sProp 𝕄) :
    iprop(owns (c : Thread nD τ) a1 fullShare x0 ∗ owns (c : Thread nD τ) a2 fullShare x1 ∗ owns (c : Thread nD τ) a8 fullShare s0 ∗ owns (c : Thread nD τ) a9 fullShare s1
        ∗ (iprop(owns (c : Thread nD τ) a1 fullShare x0 ∗ owns (c : Thread nD τ) a2 fullShare x1 ∗ owns (c : Thread nD τ) a8 fullShare (k3_pay4 x1 x0 s0) ∗ owns (c : Thread nD τ) a9 fullShare (k3_pay5 x1 s1)) -∗ K ⟨⟩))
      ⊢ wp frame (wpE (defs₀ (F := F)) Variants.none c none) E (cc3__pool_head_kernel i a1 h1 a2 h2 a3 h3 a4 h4 a5 h5 a6 h6 a7 h7 a8 h8 a9 h9) K := by
  simp only [cc3__pool_head_kernel_eq_skeleton]; unfold cc3__pool_head_kernel_skel
  unfold owns
  iintro ⟨⟨%f0, %hf0, H0⟩, ⟨%f1, %hf1, H1⟩, ⟨%g0, %hg0, S0⟩, ⟨%g1, %hg1, S1⟩, Hk⟩
  subst hf0 hf1 hg0 hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    refine (read_last_store _ _ hz2 _ _ _).trans ?_
    simp only [View.readAt_eq_ld, View.ld_unit_zero (S := S10000x1) hz2, View.ld_unit_zero (S := S10000x64) hz2, View.ld_unit_zero (S := S64x64) hz2]
  iexists _; isplitr
  swap; · iexact S1
  ipureintro
  refine (read_last_store _ _ hz2 _ _ _).trans ?_
  simp only [View.readAt_eq_ld, View.ld_unit_zero (S := S10000x1) hz2, View.ld_unit_zero (S := S64x1) hz2]

set_option maxHeartbeats 4000000 in
/-- At the last point: the body adds the block's contribution, reads both accumulators back and stores the head's
    column into the output block. -/
theorem bodyLast (c : Dev nD) (E : Set ℕ) (i : grid3.Coords) (a1 : Memref sig .tc .vmem S10000x64 .f32) (h1 : a1.IsWhole) (a2 : Memref sig .tc .vmem S10000x1 .i32) (h2 : a2.IsWhole) (a3 : Memref sig .tc .vmem S64x64 .f32) (h3 : a3.IsWhole) (a4 : Memref sig .tc .vmem S1x64 .f32) (h4 : a4.IsWhole) (a5 : Memref sig .tc .vmem S64x1 .f32) (h5 : a5.IsWhole) (a6 : Memref sig .tc .vmem S1x1 .f32) (h6 : a6.IsWhole) (a7 : Memref sig .tc .vmem S64x1 .f32) (h7 : a7.IsWhole) (a8 : Memref sig .tc .vmem S64x64 .f32) (h8 : a8.IsWhole) (a9 : Memref sig .tc .vmem S64x1 .f32) (h9 : a9.IsWhole)
    (hc1 : ¬ (Scalar.cmpi .ne (Scalar.extui (Scalar.cmpi .eq (BitVec.ofNat 32 (i 0).val) 0#32)) 0#32) = 1#1) (hc2 : k3_cond2 i = 1#1)
    (x0 : Vec F S10000x64 .f32) (x1 : Vec F S10000x1 .i32) (x2 : Vec F S64x64 .f32) (x3 : Vec F S1x64 .f32) (x4 : Vec F S64x1 .f32) (x5 : Vec F S1x1 .f32) (s0 : Vec F S64x64 .f32) (s1 : Vec F S64x1 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ (∃ d, owns (c : Thread nD τ) a7 fullShare d) ∗ owns (c : Thread nD τ) a8 fullShare s0 ∗ owns (c : Thread nD τ) a9 fullShare s1
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare (headBlock3 (k3_pay4 x1 x0 s0) (k3_pay5 x1 s1) x2 x3 x4 x5) ∗ owns (c : Thread nD τ) a8 fullShare (k3_pay4 x1 x0 s0) ∗ owns (c : Thread nD τ) a9 fullShare (k3_pay5 x1 s1)) -∗ K ⟨⟩))
      ⊢ wp frame (wpE (defs₀ (F := F)) Variants.none c none) E (cc3__pool_head_kernel i a1 h1 a2 h2 a3 h3 a4 h4 a5 h5 a6 h6 a7 h7 a8 h8 a9 h9) K := by
  simp only [cc3__pool_head_kernel_eq_skeleton]; unfold cc3__pool_head_kernel_skel
  unfold owns headBlock3
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%g0, %hg0, S0⟩, ⟨%g1, %hg1, S1⟩, Hk⟩
  subst hf0 hf1 hf2 hf3 hf4 hf5 hg0 hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (read_last_store _ _ hz2 _ _ _).trans ?_
    sl_unfold_words
    simp only [View.readAt_eq_ld, View.ld_unit_zero (S := S10000x1) hz2, View.ld_unit_zero (S := S10000x64) hz2, View.ld_unit_zero (S := S64x64) hz2, View.ld_unit_zero (S := S64x1) hz2, View.ld_unit_zero (S := S1x64) hz2, View.ld_unit_zero (S := S1x1) hz2, View.readCov_unit_zero (S := S64x64) _ hz2, View.readCov_unit_zero (S := S64x1) _ hz2]
  isplitl [S0]
  · iexists _; isplitr
    swap; · iexact S0
    ipureintro
    sl_unfold_words
    refine (read_last_store _ _ hz2 _ _ _).trans ?_
    simp only [View.readAt_eq_ld, View.ld_unit_zero (S := S10000x1) hz2, View.ld_unit_zero (S := S10000x64) hz2, View.ld_unit_zero (S := S64x64) hz2]
  iexists _; isplitr
  swap; · iexact S1
  ipureintro
  sl_unfold_words
  refine (read_last_store _ _ hz2 _ _ _).trans ?_
  simp only [View.readAt_eq_ld, View.ld_unit_zero (S := S10000x1) hz2, View.ld_unit_zero (S := S64x1) hz2]

/-! ## The invariant: the accumulators carried from point to point -/

/-- The two scratch operands the body keeps its accumulators in. -/
abbrev sc3_0 : Memref sig .tc .vmem S64x64 .f32 := Memref.whole cc3_scratch0
abbrev sc3_1 : Memref sig .tc .vmem S64x1 .f32 := Memref.whole cc3_scratch1

/-- The class invariant with the two scratch operands named: each at some contents, the rest of the scoped
    buffers, and the generator register. -/
theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d)) ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [sc3_0, sc3_1, owns_whole]; try rfl

/-- The invariant before position n: before the first point the class invariant (the accumulators at anything);
    afterwards the two accumulators at what the point before left, the rest of the scoped buffers and the
    generator register. -/
def Phi3 (c : Dev nD) : ℕ → sProp 𝕄
  | 0 => Pipeline.ΦA spec3 c
  | n + 1 => iprop(iprop(iprop(owns (c : Thread nD τ) sc3_0 fullShare (acc3 V c n).1 ∗ owns (c : Thread nD τ) sc3_1 fullShare (acc3 V c n).2) ∗ Pipeline.scopedRestBut (Ix := Unit) (Name := ℕ) (U := UR sig nD τ) (Lvl := ℕ) (Val := Elt F) spec3 c [cc3_scratch0, cc3_scratch1]) ∗ (∃ r, prngReg c r))

theorem Phi3_succ (c : Dev nD) (n : ℕ) :
    Phi3 V c (n + 1) = iprop(iprop(iprop(owns (c : Thread nD τ) sc3_0 fullShare (acc3 V c n).1 ∗ owns (c : Thread nD τ) sc3_1 fullShare (acc3 V c n).2) ∗ Pipeline.scopedRestBut (Ix := Unit) (Name := ℕ) (U := UR sig nD τ) (Lvl := ℕ) (Val := Elt F) spec3 c [cc3_scratch0, cc3_scratch1]) ∗ (∃ r, prngReg c r)) := rfl

theorem Phi3_pos (c : Dev nD) (n : ℕ) (hz : n ≠ 0) :
    Phi3 V c n = iprop(iprop(iprop(owns (c : Thread nD τ) sc3_0 fullShare (acc3 V c (n - 1)).1 ∗ owns (c : Thread nD τ) sc3_1 fullShare (acc3 V c (n - 1)).2) ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The region's proof data -/

/-- The region's proof data on core c: the arrays as entered; after the body at point t every input buffer still at
    its block and the output buffer (read at the last point only) at the head of the accumulators after the point;
    the invariant carries the accumulators; nothing is owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => headBlock3 (acc3 V c t.val).1 (acc3 V c t.val).2 (blk3 V c 2 t) (blk3 V c 3 t) (blk3 V c 4 t) (blk3 V c 5 t)
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = headBlock3 (acc3 V c t.val).1 (acc3 V c t.val).2 (blk3 V c 2 t) (blk3 V c 3 t) (blk3 V c 4 t) (blk3 V c 5 t) := by dsimp only [dat3]

/-- The output block after the last point: the head of the accumulators after all ten points. -/
theorem after3_6_last (c : Dev nD) : (dat3 V c).after 6 t3_9 = headBlock3 (acc3 V c 9).1 (acc3 V c 9).2 (blk3 V c 2 t3_9) (blk3 V c 3 t3_9) (blk3 V c 4 t3_9) (blk3 V c 5 t3_9) :=
  after3_6 V c t3_9

theorem Phi3_castSucc (c : Dev nD) (t : Fin cfg3.N) : (dat3 V c).Φ t.castSucc = Phi3 V c t.val := by
  dsimp only [dat3]; simp only [Fin.coe_castSucc]

theorem Phi3_at_succ (c : Dev nD) (t : Fin cfg3.N) : (dat3 V c).Φ t.succ = Phi3 V c (t.val + 1) := rfl

theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d
theorem before3_2 (c : Dev nD) (t : Fin cfg3.N) (d) : (dat3 V c).before 2 t d = blk3 V c 2 t :=
  before3_2_of V (dat3 V c) (A_eq3 V c 2) (after3_2 V c) t d
theorem before3_3 (c : Dev nD) (t : Fin cfg3.N) (d) : (dat3 V c).before 3 t d = blk3 V c 3 t :=
  before3_3_of V (dat3 V c) (A_eq3 V c 3) (after3_3 V c) t d
theorem before3_4 (c : Dev nD) (t : Fin cfg3.N) (d) : (dat3 V c).before 4 t d = blk3 V c 4 t :=
  before3_4_of V (dat3 V c) (A_eq3 V c 4) (after3_4 V c) t d
theorem before3_5 (c : Dev nD) (t : Fin cfg3.N) (d) : (dat3 V c).before 5 t d = blk3 V c 5 t :=
  before3_5_of V (dat3 V c) (A_eq3 V c 5) (after3_5 V c) t d

/-- What the launch hands the region is the invariant before the first point. -/
theorem phi3_in (c : Dev nD) : Pipeline.ΦA spec3 c ⊢ (dat3 V c).Φ 0 := by
  rw [show (dat3 V c).Φ 0 = Phi3 V c 0 from rfl, show Phi3 V c 0 = Pipeline.ΦA spec3 c from rfl]
  try exact Idealize.SL.BI.Entails.refl _

/-- After the last point the invariant gives the class invariant back: the accumulators' contents are forgotten. -/
theorem phi3_out (c : Dev nD) : (dat3 V c).Φ (Fin.last cfg3.N) ⊢ Pipeline.ΦA spec3 c := by
  rw [show (dat3 V c).Φ (Fin.last cfg3.N) = Phi3 V c (9 + 1) from rfl, Phi3_succ, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-! ## The body obligation -/

/-- What the body is handed at point t, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back: the inputs' buffers as they were, the output's buffer untouched at the points where the
    window is idle and at the head's column at the last. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

set_option maxHeartbeats 4000000 in
theorem step3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3, before3_4, before3_5]
  rw [show (dat3 V c).owesAt () t.succ = (dat3 V c).owesAt () t.castSucc from rfl,
    Phi3_castSucc, Phi3_at_succ, Phi3_succ, after3_0, after3_1, after3_2, after3_3, after3_4, after3_5]
  by_cases hz : t.val = 0
  · have h9 : t.val ≠ 9 := by omega
    rw [Dat.leavesExact_idle (dat3 V c) 6 t (idleAt3_6 t h9) (noFlush3_6 t h9)]
    rw [show Phi3 V c t.val = Pipeline.ΦA spec3 c from by rw [hz]; rfl, acc3_first V c t hz, PhiA3_eq]
    dsimp only
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (bodyFirst c Set.univ _ _ _ _ _ _ _ _ _ _ _ _ _ _ _ _ _ _ _ ((hcond3_1 t).mpr hz) (fun h => h9 ((hcond3_2 t).mp h)) (blk3 V c 0 t) (blk3 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h9 : t.val = 9
    · rw [show (dat3 V c).leavesExact 6 t = owns (c : Thread nD τ) (st3_6 t) fullShare ((dat3 V c).after 6 t) from by
        unfold Dat.leavesExact; rw [liveAt3_6 t h9], after3_6]
      rw [Phi3_pos V c _ hz, acc3_pos V c t hz]
      dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (bodyLast c Set.univ _ _ _ _ _ _ _ _ _ _ _ _ _ _ _ _ _ _ _ (fun h => hz ((hcond3_1 t).mp h)) ((hcond3_2 t).mpr h9) (blk3 V c 0 t) (blk3 V c 1 t) (blk3 V c 2 t) (blk3 V c 3 t) (blk3 V c 4 t) (blk3 V c 5 t) (acc3 V c (t.val - 1)).1 (acc3 V c (t.val - 1)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat3 V c) 6 t (idleAt3_6 t h9) (noFlush3_6 t h9)]
      rw [Phi3_pos V c _ hz, acc3_pos V c t hz]
      dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (bodyMid c Set.univ _ _ _ _ _ _ _ _ _ _ _ _ _ _ _ _ _ _ _ (fun h => hz ((hcond3_1 t).mp h)) (fun h => h9 ((hcond3_2 t).mp h)) (blk3 V c 0 t) (blk3 V c 1 t) (acc3 V c (t.val - 1)).1 (acc3 V c (t.val - 1)).2 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the region, at every point. -/
theorem obligation3 (c : Dev nD) : BodyObligation (dat3 (F := F) V c) (defs₀ (F := F)) Variants.none () Set.univ := fun t => by
  rw [bigSep_W3, bigSep_W3]
  exact step3 V c t

end Cert.KernelIdeal.Hand

end
-- ==== Proof.KI.Fold.lean ====
/-
  The contents of the core's buffers at each boundary between the eight items of the program — a stretch of host
  operations, then a kernel region, four times over —, as a fold from the launch memory: a host stretch applies its
  operations; a region leaves its input arrays as entered and its output array at what its write-backs leave, and
  touches no other buffer.  Then: every pipeline's proof data stated at its region's entry contents, and the fact
  that a buffer no host operation writes and no region outputs still holds its launch contents at the end.
-/
import proofs.«412716_j76287209112018_2_alg».proof.Proof.KI.Reg0
import proofs.«412716_j76287209112018_2_alg».proof.Proof.KI.Reg1
import proofs.«412716_j76287209112018_2_alg».proof.Proof.KI.Reg2
import proofs.«412716_j76287209112018_2_alg».proof.Proof.KI.Reg3
import proofs.«412716_j76287209112018_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev B0 : Dev nD → Valuation τ sig (Elt F) := fun c b => m ((c : Dev nD), b)

/-- After the host stretch before region 0: what region 0 is entered with. -/
abbrev B1 : Dev nD → Valuation τ sig (Elt F) := fun c => StableHlo.after hostOps0 (B0 m c)
/-- The same, read at the core's references. -/
abbrev E0 : (c : Dev nD) → (b : Ref sig .tc) → Buf (Elt F) ((c : Thread nD τ).loc b) := fun c b => B1 m c b
/-- After region 0: its arrays at what the pipeline leaves, every other buffer as entered. -/
def B2 (c : Dev nD) : Valuation τ sig (Elt F) :=
  Pipeline.withArrays spec0 c (B1 m c) fun w => (dat0 (E0 m) c).arrAt w cfg0.N
theorem B2_arr (c : Dev nD) (w : Fin cfg0.W) :
    B2 m c (Proc.devRef .tc (Pipeline.arrRef spec0 w)) = (dat0 (E0 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same, read at the core's references. -/
abbrev X0 : (c : Dev nD) → (b : Ref sig .tc) → Buf (Elt F) ((c : Thread nD τ).loc b) := fun c b => B2 m c b
theorem exitArr0 (c : Dev nD) (w : Fin cfg0.W) : (dat0 (E0 m) c).arrAt w cfg0.N = X0 m c (Pipeline.arrRef spec0 w) :=
  (B2_arr m c w).symm
theorem exitRest0 (c : Dev nD) : ∀ b, b ∉ Finset.univ.image (Pipeline.arrRef spec0) → X0 m c b = E0 m c b :=
  fun b hb => B2_other m c b fun w e => hb (Finset.mem_image.mpr ⟨w, Finset.mem_univ _, e⟩)
/-- Region 0 changes only its output array main_v16: an input array is never written back. -/
theorem B2_keep (c : Dev nD) (b : Ref sig .tc) (hb : b ≠ main_v16) : B2 m c (Proc.devRef .tc b) = B1 m c (Proc.devRef .tc b) := by
  by_cases h : ∃ w, Pipeline.arrRef spec0 w = b
  · obtain ⟨w, rfl⟩ := h
    rw [B2_arr]
    have hw : (cfg0.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact ((dat0 (E0 m) c).arrAt_in w hw _).trans (A_eq0 (E0 m) c w)
  · exact B2_other m c b fun w e => h ⟨w, e⟩

/-- After the host stretch before region 1: what region 1 is entered with. -/
abbrev B3 : Dev nD → Valuation τ sig (Elt F) := fun c => StableHlo.after hostOps1 (B2 m c)
/-- The same, read at the core's references. -/
abbrev E1 : (c : Dev nD) → (b : Ref sig .tc) → Buf (Elt F) ((c : Thread nD τ).loc b) := fun c b => B3 m c b
/-- After region 1: its arrays at what the pipeline leaves, every other buffer as entered. -/
def B4 (c : Dev nD) : Valuation τ sig (Elt F) :=
  Pipeline.withArrays spec1 c (B3 m c) fun w => (dat1 (E1 m) c).arrAt w cfg1.N
theorem B4_arr (c : Dev nD) (w : Fin cfg1.W) :
    B4 m c (Proc.devRef .tc (Pipeline.arrRef spec1 w)) = (dat1 (E1 m) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same, read at the core's references. -/
abbrev X1 : (c : Dev nD) → (b : Ref sig .tc) → Buf (Elt F) ((c : Thread nD τ).loc b) := fun c b => B4 m c b
theorem exitArr1 (c : Dev nD) (w : Fin cfg1.W) : (dat1 (E1 m) c).arrAt w cfg1.N = X1 m c (Pipeline.arrRef spec1 w) :=
  (B4_arr m c w).symm
theorem exitRest1 (c : Dev nD) : ∀ b, b ∉ Finset.univ.image (Pipeline.arrRef spec1) → X1 m c b = E1 m c b :=
  fun b hb => B4_other m c b fun w e => hb (Finset.mem_image.mpr ⟨w, Finset.mem_univ _, e⟩)
/-- Region 1 changes only its output array main_v29: an input array is never written back. -/
theorem B4_keep (c : Dev nD) (b : Ref sig .tc) (hb : b ≠ main_v29) : B4 m c (Proc.devRef .tc b) = B3 m c (Proc.devRef .tc b) := by
  by_cases h : ∃ w, Pipeline.arrRef spec1 w = b
  · obtain ⟨w, rfl⟩ := h
    rw [B4_arr]
    have hw : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact ((dat1 (E1 m) c).arrAt_in w hw _).trans (A_eq1 (E1 m) c w)
  · exact B4_other m c b fun w e => h ⟨w, e⟩

/-- After the host stretch before region 2: what region 2 is entered with. -/
abbrev B5 : Dev nD → Valuation τ sig (Elt F) := fun c => StableHlo.after hostOps2 (B4 m c)
/-- The same, read at the core's references. -/
abbrev E2 : (c : Dev nD) → (b : Ref sig .tc) → Buf (Elt F) ((c : Thread nD τ).loc b) := fun c b => B5 m c b
/-- After region 2: its arrays at what the pipeline leaves, every other buffer as entered. -/
def B6 (c : Dev nD) : Valuation τ sig (Elt F) :=
  Pipeline.withArrays spec2 c (B5 m c) fun w => (dat2 (E2 m) c).arrAt w cfg2.N
theorem B6_arr (c : Dev nD) (w : Fin cfg2.W) :
    B6 m c (Proc.devRef .tc (Pipeline.arrRef spec2 w)) = (dat2 (E2 m) c).arrAt w cfg2.N := by
  unfold B6; exact Pipeline.withArrays_arr spec2 launch2.win.arr_inj c _ _ w
theorem B6_other (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same, read at the core's references. -/
abbrev X2 : (c : Dev nD) → (b : Ref sig .tc) → Buf (Elt F) ((c : Thread nD τ).loc b) := fun c b => B6 m c b
theorem exitArr2 (c : Dev nD) (w : Fin cfg2.W) : (dat2 (E2 m) c).arrAt w cfg2.N = X2 m c (Pipeline.arrRef spec2 w) :=
  (B6_arr m c w).symm
theorem exitRest2 (c : Dev nD) : ∀ b, b ∉ Finset.univ.image (Pipeline.arrRef spec2) → X2 m c b = E2 m c b :=
  fun b hb => B6_other m c b fun w e => hb (Finset.mem_image.mpr ⟨w, Finset.mem_univ _, e⟩)
/-- Region 2 changes only its output array main_v42: an input array is never written back. -/
theorem B6_keep (c : Dev nD) (b : Ref sig .tc) (hb : b ≠ main_v42) : B6 m c (Proc.devRef .tc b) = B5 m c (Proc.devRef .tc b) := by
  by_cases h : ∃ w, Pipeline.arrRef spec2 w = b
  · obtain ⟨w, rfl⟩ := h
    rw [B6_arr]
    have hw : (cfg2.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact ((dat2 (E2 m) c).arrAt_in w hw _).trans (A_eq2 (E2 m) c w)
  · exact B6_other m c b fun w e => h ⟨w, e⟩

/-- After the host stretch before region 3: what region 3 is entered with. -/
abbrev B7 : Dev nD → Valuation τ sig (Elt F) := fun c => StableHlo.after hostOps3 (B6 m c)
/-- The same, read at the core's references. -/
abbrev E3 : (c : Dev nD) → (b : Ref sig .tc) → Buf (Elt F) ((c : Thread nD τ).loc b) := fun c b => B7 m c b
/-- After region 3: its arrays at what the pipeline leaves, every other buffer as entered. -/
def B8 (c : Dev nD) : Valuation τ sig (Elt F) :=
  Pipeline.withArrays spec3 c (B7 m c) fun w => (dat3 (E3 m) c).arrAt w cfg3.N
theorem B8_arr (c : Dev nD) (w : Fin cfg3.W) :
    B8 m c (Proc.devRef .tc (Pipeline.arrRef spec3 w)) = (dat3 (E3 m) c).arrAt w cfg3.N := by
  unfold B8; exact Pipeline.withArrays_arr spec3 launch3.win.arr_inj c _ _ w
theorem B8_other (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
/-- The same, read at the core's references. -/
abbrev X3 : (c : Dev nD) → (b : Ref sig .tc) → Buf (Elt F) ((c : Thread nD τ).loc b) := fun c b => B8 m c b
theorem exitArr3 (c : Dev nD) (w : Fin cfg3.W) : (dat3 (E3 m) c).arrAt w cfg3.N = X3 m c (Pipeline.arrRef spec3 w) :=
  (B8_arr m c w).symm
theorem exitRest3 (c : Dev nD) : ∀ b, b ∉ Finset.univ.image (Pipeline.arrRef spec3) → X3 m c b = E3 m c b :=
  fun b hb => B8_other m c b fun w e => hb (Finset.mem_image.mpr ⟨w, Finset.mem_univ _, e⟩)
/-- Region 3 changes only its output array main_v46: an input array is never written back. -/
theorem B8_keep (c : Dev nD) (b : Ref sig .tc) (hb : b ≠ main_v46) : B8 m c (Proc.devRef .tc b) = B7 m c (Proc.devRef .tc b) := by
  by_cases h : ∃ w, Pipeline.arrRef spec3 w = b
  · obtain ⟨w, rfl⟩ := h
    rw [B8_arr]
    have hw : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact ((dat3 (E3 m) c).arrAt_in w hw _).trans (A_eq3 (E3 m) c w)
  · exact B8_other m c b fun w e => h ⟨w, e⟩

/-- The contents region K is entered with and leaves, by the region's number. -/
abbrev entry0 : Dev nD → Valuation τ sig (Elt F) := B1 m
abbrev exit0 : Dev nD → Valuation τ sig (Elt F) := B2 m
abbrev entry1 : Dev nD → Valuation τ sig (Elt F) := B3 m
abbrev exit1 : Dev nD → Valuation τ sig (Elt F) := B4 m
abbrev entry2 : Dev nD → Valuation τ sig (Elt F) := B5 m
abbrev exit2 : Dev nD → Valuation τ sig (Elt F) := B6 m
abbrev entry3 : Dev nD → Valuation τ sig (Elt F) := B7 m
abbrev exit3 : Dev nD → Valuation τ sig (Elt F) := B8 m

/-- A buffer no host operation so far writes and no region so far outputs still holds its launch contents, boundary by boundary. -/
theorem B1_launch (c : Dev nD) (b : Ref sig .tc) (h0 : b ∉ hostOps0_W) : B1 m c (Proc.devRef .tc b) = m ((c : Thread nD τ).loc b) :=
  (StableHlo.after_of_writes_sub hostOps0 _ hostOps0_writes h0).trans rfl
theorem B2_launch (c : Dev nD) (b : Ref sig .tc) (h0 : b ∉ hostOps0_W) (o0 : b ≠ main_v16) : B2 m c (Proc.devRef .tc b) = m ((c : Thread nD τ).loc b) :=
  (B2_keep m c b o0).trans (B1_launch m c b h0)
theorem B3_launch (c : Dev nD) (b : Ref sig .tc) (h0 : b ∉ hostOps0_W) (h1 : b ∉ hostOps1_W) (o0 : b ≠ main_v16) : B3 m c (Proc.devRef .tc b) = m ((c : Thread nD τ).loc b) :=
  (StableHlo.after_of_writes_sub hostOps1 _ hostOps1_writes h1).trans (B2_launch m c b h0 o0)
theorem B4_launch (c : Dev nD) (b : Ref sig .tc) (h0 : b ∉ hostOps0_W) (h1 : b ∉ hostOps1_W) (o0 : b ≠ main_v16) (o1 : b ≠ main_v29) : B4 m c (Proc.devRef .tc b) = m ((c : Thread nD τ).loc b) :=
  (B4_keep m c b o1).trans (B3_launch m c b h0 h1 o0)
theorem B5_launch (c : Dev nD) (b : Ref sig .tc) (h0 : b ∉ hostOps0_W) (h1 : b ∉ hostOps1_W) (h2 : b ∉ hostOps2_W) (o0 : b ≠ main_v16) (o1 : b ≠ main_v29) : B5 m c (Proc.devRef .tc b) = m ((c : Thread nD τ).loc b) :=
  (StableHlo.after_of_writes_sub hostOps2 _ hostOps2_writes h2).trans (B4_launch m c b h0 h1 o0 o1)
theorem B6_launch (c : Dev nD) (b : Ref sig .tc) (h0 : b ∉ hostOps0_W) (h1 : b ∉ hostOps1_W) (h2 : b ∉ hostOps2_W) (o0 : b ≠ main_v16) (o1 : b ≠ main_v29) (o2 : b ≠ main_v42) : B6 m c (Proc.devRef .tc b) = m ((c : Thread nD τ).loc b) :=
  (B6_keep m c b o2).trans (B5_launch m c b h0 h1 h2 o0 o1)
theorem B7_launch (c : Dev nD) (b : Ref sig .tc) (h0 : b ∉ hostOps0_W) (h1 : b ∉ hostOps1_W) (h2 : b ∉ hostOps2_W) (h3 : b ∉ hostOps3_W) (o0 : b ≠ main_v16) (o1 : b ≠ main_v29) (o2 : b ≠ main_v42) : B7 m c (Proc.devRef .tc b) = m ((c : Thread nD τ).loc b) :=
  (StableHlo.after_of_writes_sub hostOps3 _ hostOps3_writes h3).trans (B6_launch m c b h0 h1 h2 o0 o1 o2)

/-- A buffer that no host operation writes and no region outputs holds its launch contents at the end. -/
theorem B8_launch (c : Dev nD) (b : Ref sig .tc) (h0 : b ∉ hostOps0_W) (h1 : b ∉ hostOps1_W) (h2 : b ∉ hostOps2_W) (h3 : b ∉ hostOps3_W)
    (ho : b ≠ main_v16 ∧ b ≠ main_v29 ∧ b ≠ main_v42 ∧ b ≠ main_v46) :
    B8 m c (Proc.devRef .tc b) = m ((c : Thread nD τ).loc b) :=
  calc B8 m c (Proc.devRef .tc b)
    _ = B7 m c (Proc.devRef .tc b) := B8_keep m c b ho.2.2.2
    _ = B6 m c (Proc.devRef .tc b) := StableHlo.after_of_writes_sub hostOps3 _ hostOps3_writes h3
    _ = B5 m c (Proc.devRef .tc b) := B6_keep m c b ho.2.2.1
    _ = B4 m c (Proc.devRef .tc b) := StableHlo.after_of_writes_sub hostOps2 _ hostOps2_writes h2
    _ = B3 m c (Proc.devRef .tc b) := B4_keep m c b ho.2.1
    _ = B2 m c (Proc.devRef .tc b) := StableHlo.after_of_writes_sub hostOps1 _ hostOps1_writes h1
    _ = B1 m c (Proc.devRef .tc b) := B2_keep m c b ho.1
    _ = B0 m c (Proc.devRef .tc b) := StableHlo.after_of_writes_sub hostOps0 _ hostOps0_writes h0
    _ = m ((c : Thread nD τ).loc b) := rfl

/-- No pipeline has a prefetched table. -/
abbrev noTables : (p : Fin 4) → (pcfgs (F := F) p).Adm := fun p => (cfgs p).toPCfg_adm

/-- Every pipeline's proof data, each at its region's entry contents. -/
def allDats : (p : Fin 4) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c
  | ⟨2, _⟩ => fun c => dat2 (E2 m) c
  | ⟨3, _⟩ => fun c => dat3 (E3 m) c

/-- No core owes another anything. -/
abbrev noLevels : GSem nD τ sig → Finset Unit := fun _ => ∅
abbrev level0 : GSem nD τ sig → Unit → ℕ := fun _ _ => 0

/-- What rides beside the buffers through every item: the generator register at some state and the core owing nothing. -/
abbrev Beside (c : Dev nD) : sProp 𝕄 := iprop((∃ r, prngReg c r) ∗ ∃ W, owes (c : Thread nD τ) (0 : CellTallies nD τ sig Unit) W)

/-- A host stretch as an item: its operations over the unscoped buffers from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

/-- An unscoped reference of the core is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/-
  Region 0 as an item of the program: entered from every unscoped buffer of the core at the contents the host
  stretch before it leaves, and left with them at the contents after the region.  At entry the region's seven arrays
  are split out of the unscoped buffers and the generator register goes into the kernel's invariant; at exit the arrays
  come back at what the write-backs left, the register comes back, and nothing is owed.
-/
import proofs.«412716_j76287209112018_2_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The generator register, beside anything, and the scoped rest make the class invariant; -/
theorem intoInv0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hreg, -, Hscoped⟩
  isplitl [Hscoped]; · iexact Hscoped
  iexact Hreg

/-- and the class invariant gives both back. -/
theorem outOfInv0 (c : Dev nD) :
    (Pipeline.ΦA spec0 c : sProp 𝕄) ⊢ iprop((∃ r, prngReg c r) ∗ BI.emp ∗ Pipeline.scopedRest spec0 c) := by
  unfold Pipeline.ΦA
  iintro ⟨Hscoped, Hreg⟩
  isplitl [Hreg]; · iexact Hreg
  isplitr; · iempintro
  iexact Hscoped

set_option backward.isDefEq.respectTransparency.types false in
/-- Region 0 over the thread state "every unscoped buffer at the boundary's contents, the generator register at
    some state, nothing owed". -/
def region0 : Pipeline.RegionSeg (pcfgs (F := F)) noTables (allDats m) () defs₀ Variants.none noLevels level0 (0 : Fin 4) where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ noLevels level0 (0 : Fin 4) fun _ _ => rfl
  pre c := iprop(StableHlo.held (c : Thread nD τ) (Pipeline.ucRefs τ sig) (entry0 m c) ∗ Beside c)
  post c := iprop(StableHlo.held (c : Thread nD τ) (Pipeline.ucRefs τ sig) (exit0 m c) ∗ Beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := (0 : Fin 4)) (pcfgs (F := F)) noTables (allDats m) launch0.win launch0.arr_whole c
      ((allDats m (0 : Fin 4) c).share_full fun _ => rfl) (E0 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := (intoInv0 c _).trans (phi0_in (E0 m) c)
  hout c := by
    rw [Pipeline.ownSems0_none]
    exact (phi0_out (E0 m) c).trans (outOfInv0 c)
  hexit c := by
    have hjoin := Pipeline.unscopedBufs_of_arrays (p := (0 : Fin 4)) (pcfgs (F := F)) noTables (Ix := Unit) (Name := ℕ) (U := UR sig nD τ) (Lvl := ℕ)
      launch0.win launch0.arr_whole c (allDats m) ((allDats m (0 : Fin 4) c).share_full fun _ => rfl)
      (E0 m c) (X0 m c) ((allDats m (0 : Fin 4) c).arrAt · cfg0.N) (exitArr0 m c) (exitRest0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand

end
-- ==== Proof.KI.Run.lean ====
/-
  The whole program as one run: its eight items — four stretches of host operations and the four kernel regions — in
  order, each entered from what the one before it left; the launch; and, read off the final memory, that every
  argument array ends as launched and the result array at what the last region's write-backs leave.
-/
import proofs.«412716_j76287209112018_2_alg».proof.Proof.KI.Seg0
import proofs.«412716_j76287209112018_2_alg».proof.Proof.KI.Seg1
import proofs.«412716_j76287209112018_2_alg».proof.Proof.KI.Seg2
import proofs.«412716_j76287209112018_2_alg».proof.Proof.KI.Seg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The program's eight items in order: a host item per stretch from its boundary's contents, a region per kernel call. -/
abbrev items : List (Pipeline.Seg (pcfgs (F := F)) noTables (allDats m) () defs₀ Variants.none noLevels level0) :=
  [ .host (hostItem hostOps0 hostOps0_sub hostOps0_fresh (B0 m)),
    .region (region0 m),
    .host (hostItem hostOps1 hostOps1_sub hostOps1_fresh (B2 m)),
    .region (region1 m),
    .host (hostItem hostOps2 hostOps2_sub hostOps2_fresh (B4 m)),
    .region (region2 m),
    .host (hostItem hostOps3 hostOps3_sub hostOps3_fresh (B6 m)),
    .region (region3 m) ]

/-- The program is the run of its items. -/
theorem main_items (c : Dev nD) : main (F := F) c = Pipeline.Seg.run (items m) := (main_chain c).trans (by chain_rfl)

/-- The last thread state without the debt: every unscoped buffer at the last boundary's contents, the generator register somewhere. -/
abbrev AtEnd (c : Dev nD) : sProp 𝕄 := iprop(StableHlo.held (c : Thread nD τ) (Pipeline.ucRefs τ sig) (B8 m c) ∗ ∃ r, prngReg c r)

theorem lastPost (c : Dev nD) :
    iprop(StableHlo.held (c : Thread nD τ) (Pipeline.ucRefs τ sig) (exit3 m c) ∗ Beside c)
      ⊢ (iprop(AtEnd m c ∗ ∃ W, owes (c : Thread nD τ) (0 : CellTallies nD τ sig Unit) W) : sProp 𝕄) := by
  iintro ⟨Hh, Hr, Ho⟩
  isplitl [Hh Hr]
  · isplitl [Hh]; · iexact Hh
    iexact Hr
  iexact Ho

set_option backward.isDefEq.respectTransparency.types false in
/-- From any memory with every counter at zero, every weakly fair execution of the program on the core terminates
    without a fault, and the final memory holds every unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = B8 m c b) :=
  Pipeline.θ_run_regions_kit (pcfgs (F := F)) noTables (allDats m) () cellOf_inj emb₁ defs₀ Variants.none noLevels level0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := AtEnd m)
    (hch := ⟨fun _ => .rfl, fun _ => .rfl, fun _ => .rfl, fun _ => .rfl, fun _ => .rfl, fun _ => .rfl, fun _ => .rfl, fun _ => .rfl, fun c => lastPost m c⟩)
    (hinit := by
      refine Pipeline.initEach noLevels level0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun s h c => h c)

/-- The frame: the program runs to the end without a fault and every argument array ends as launched (no host
    operation writes an argument and no region outputs one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_unscoped main_arg0 (by decide))).trans (B8_launch m c main_arg0 (by decide) (by decide) (by decide) (by decide) (by decide)),
     (h c _ (mem_unscoped main_arg1 (by decide))).trans (B8_launch m c main_arg1 (by decide) (by decide) (by decide) (by decide) (by decide)),
     (h c _ (mem_unscoped main_arg2 (by decide))).trans (B8_launch m c main_arg2 (by decide) (by decide) (by decide) (by decide) (by decide)),
     (h c _ (mem_unscoped main_arg3 (by decide))).trans (B8_launch m c main_arg3 (by decide) (by decide) (by decide) (by decide) (by decide)),
     (h c _ (mem_unscoped main_arg4 (by decide))).trans (B8_launch m c main_arg4 (by decide) (by decide) (by decide) (by decide) (by decide)),
     (h c _ (mem_unscoped main_arg5 (by decide))).trans (B8_launch m c main_arg5 (by decide) (by decide) (by decide) (by decide) (by decide)),
     (h c _ (mem_unscoped main_arg6 (by decide))).trans (B8_launch m c main_arg6 (by decide) (by decide) (by decide) (by decide) (by decide)),
     (h c _ (mem_unscoped main_arg7 (by decide))).trans (B8_launch m c main_arg7 (by decide) (by decide) (by decide) (by decide) (by decide)),
     (h c _ (mem_unscoped main_arg8 (by decide))).trans (B8_launch m c main_arg8 (by decide) (by decide) (by decide) (by decide) (by decide)),
     (h c _ (mem_unscoped main_arg9 (by decide))).trans (B8_launch m c main_arg9 (by decide) (by decide) (by decide) (by decide) (by decide)),
     (h c _ (mem_unscoped main_arg10 (by decide))).trans (B8_launch m c main_arg10 (by decide) (by decide) (by decide) (by decide) (by decide)),
     (h c _ (mem_unscoped main_arg11 (by decide))).trans (B8_launch m c main_arg11 (by decide) (by decide) (by decide) (by decide) (by decide)),
     (h c _ (mem_unscoped main_arg12 (by decide))).trans (B8_launch m c main_arg12 (by decide) (by decide) (by decide) (by decide) (by decide)),
     (h c _ (mem_unscoped main_arg13 (by decide))).trans (B8_launch m c main_arg13 (by decide) (by decide) (by decide) (by decide) (by decide)),
     (h c _ (mem_unscoped main_arg14 (by decide))).trans (B8_launch m c main_arg14 (by decide) (by decide) (by decide) (by decide) (by decide)),
     (h c _ (mem_unscoped main_arg15 (by decide))).trans (B8_launch m c main_arg15 (by decide) (by decide) (by decide) (by decide) (by decide)),
     (h c _ (mem_unscoped main_arg16 (by decide))).trans (B8_launch m c main_arg16 (by decide) (by decide) (by decide) (by decide) (by decide)),
     (h c _ (mem_unscoped main_arg17 (by decide))).trans (B8_launch m c main_arg17 (by decide) (by decide) (by decide) (by decide) (by decide))⟩)
    (run_all m ρ)

/-- The run with the result named: the result array ends at what region 3's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v46) = (dat3 (E3 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_unscoped main_v46 (by decide))).trans (B8_arr m c 6),
     (h c _ (mem_unscoped main_arg0 (by decide))).trans (B8_launch m c main_arg0 (by decide) (by decide) (by decide) (by decide) (by decide)),
     (h c _ (mem_unscoped main_arg1 (by decide))).trans (B8_launch m c main_arg1 (by decide) (by decide) (by decide) (by decide) (by decide)),
     (h c _ (mem_unscoped main_arg2 (by decide))).trans (B8_launch m c main_arg2 (by decide) (by decide) (by decide) (by decide) (by decide)),
     (h c _ (mem_unscoped main_arg3 (by decide))).trans (B8_launch m c main_arg3 (by decide) (by decide) (by decide) (by decide) (by decide)),
     (h c _ (mem_unscoped main_arg4 (by decide))).trans (B8_launch m c main_arg4 (by decide) (by decide) (by decide) (by decide) (by decide)),
     (h c _ (mem_unscoped main_arg5 (by decide))).trans (B8_launch m c main_arg5 (by decide) (by decide) (by decide) (by decide) (by decide)),
     (h c _ (mem_unscoped main_arg6 (by decide))).trans (B8_launch m c main_arg6 (by decide) (by decide) (by decide) (by decide) (by decide)),
     (h c _ (mem_unscoped main_arg7 (by decide))).trans (B8_launch m c main_arg7 (by decide) (by decide) (by decide) (by decide) (by decide)),
     (h c _ (mem_unscoped main_arg8 (by decide))).trans (B8_launch m c main_arg8 (by decide) (by decide) (by decide) (by decide) (by decide)),
     (h c _ (mem_unscoped main_arg9 (by decide))).trans (B8_launch m c main_arg9 (by decide) (by decide) (by decide) (by decide) (by decide)),
     (h c _ (mem_unscoped main_arg10 (by decide))).trans (B8_launch m c main_arg10 (by decide) (by decide) (by decide) (by decide) (by decide)),
     (h c _ (mem_unscoped main_arg11 (by decide))).trans (B8_launch m c main_arg11 (by decide) (by decide) (by decide) (by decide) (by decide)),
     (h c _ (mem_unscoped main_arg12 (by decide))).trans (B8_launch m c main_arg12 (by decide) (by decide) (by decide) (by decide) (by decide)),
     (h c _ (mem_unscoped main_arg13 (by decide))).trans (B8_launch m c main_arg13 (by decide) (by decide) (by decide) (by decide) (by decide)),
     (h c _ (mem_unscoped main_arg14 (by decide))).trans (B8_launch m c main_arg14 (by decide) (by decide) (by decide) (by decide) (by decide)),
     (h c _ (mem_unscoped main_arg15 (by decide))).trans (B8_launch m c main_arg15 (by decide) (by decide) (by decide) (by decide) (by decide)),
     (h c _ (mem_unscoped main_arg16 (by decide))).trans (B8_launch m c main_arg16 (by decide) (by decide) (by decide) (by decide) (by decide)),
     (h c _ (mem_unscoped main_arg17 (by decide))).trans (B8_launch m c main_arg17 (by decide) (by decide) (by decide) (by decide) (by decide))⟩)
    (run_all m ρ)

end Cert.KernelIdeal.Hand

end
-- ==== Proof.Spec.lean ====
/-
  The network both programs compute, index by index on the extended reals, over literal shapes and with no program
  in sight.  A combine layer takes the aggregated neighbour features A and the node features X of 100000 nodes with
  64 channels and gives, at node r and channel q,
      y = (∑ₖ A[r,k]·Wr[k,q]) + (∑ₖ X[r,k]·Wo[k,q]) + b[q],
  passed through the leaky rectifier (y where y ≥ 0, a·y elsewhere) in the first two layers.  The head pools the last
  layer's rows by graph id — graph g collects the rows whose id word is g, and ids that name no graph are dropped —,
  divides each pooled row by the larger of the graph's node count and one, and applies the two affine maps.
  The neighbour aggregation is the same host computation in both programs; here it is a function parameter.
-/
import Idealize.ShloMosaic.PureOps.Ideal
import Idealize.ShloMosaic.Lib.ValueIdx

noncomputable section

open scoped BigOperators

namespace Cert.Spec

open Idealize.ShloMosaic Idealize.ShloMosaic.ValueIdx

/-- Node features: 100000 nodes by 64 channels. -/
abbrev Nodes : Shape := ⟨2, ![100000, 64]⟩
/-- A square weight. -/
abbrev Sq : Shape := ⟨2, ![64, 64]⟩
/-- A bias row. -/
abbrev Row : Shape := ⟨2, ![1, 64]⟩
/-- A lone scalar kept as a 1×1 array. -/
abbrev One : Shape := ⟨2, ![1, 1]⟩
/-- A column of 64. -/
abbrev Col : Shape := ⟨2, ![64, 1]⟩

/-- The affine part of a combine layer at node r, channel q. -/
def lin (A X : Nodes.Idx → EReal) (Wr Wo : Sq.Idx → EReal) (b : Row.Idx → EReal) (r : Fin 100000) (q : Fin 64) : EReal :=
  ((∑ k : Fin 64, A (ix2 r k) * Wr (ix2 k q)) + (∑ k : Fin 64, X (ix2 r k) * Wo (ix2 k q))) + b (ix2 0 q)

/-- The leaky rectifier with slope a: y where the comparison y ≥ 0 holds, a·y elsewhere. -/
def leaky (a y : EReal) : EReal :=
  Scalar.select (FloatOps.cmpf (F := Ideal) (φ := .f32) .oge y (Ideal.ofBits .f32 0x00000000#32)) y (a * y)

/-- A combine layer without the rectifier, as an array. -/
def linear (A X : Nodes.Idx → EReal) (Wr Wo : Sq.Idx → EReal) (b : Row.Idx → EReal) : Nodes.Idx → EReal :=
  fun j => lin A X Wr Wo b (j 0) (j 1)

/-- A combine layer with the rectifier of slope a[0,0], as an array. -/
def rectified (A X : Nodes.Idx → EReal) (Wr Wo : Sq.Idx → EReal) (b : Row.Idx → EReal) (a : One.Idx → EReal) : Nodes.Idx → EReal :=
  fun j => leaky (a (ix2 0 0)) (lin A X Wr Wo b (j 0) (j 1))

/-- Row r belongs to graph g when its id word is g. -/
def inGraph (ids : Fin 100000 → BitVec 32) (r : Fin 100000) (g : Fin 64) : Prop := ids r = BitVec.ofNat 32 g.val

instance (ids : Fin 100000 → BitVec 32) (r : Fin 100000) (g : Fin 64) : Decidable (inGraph ids r g) := by
  unfold inGraph; infer_instance

/-- The sum of channel f over the rows of graph g. -/
def pooled (h : Nodes.Idx → EReal) (ids : Fin 100000 → BitVec 32) (g f : Fin 64) : EReal :=
  ∑ r : Fin 100000, if inGraph ids r g then h (ix2 r f) else 0

/-- The number of rows of graph g. -/
def count (ids : Fin 100000 → BitVec 32) (g : Fin 64) : EReal :=
  ∑ r : Fin 100000, if inGraph ids r g then (1 : EReal) else 0

/-- The head at graph g: the pooled row over max(count, 1), then the two affine maps. -/
def head (h : Nodes.Idx → EReal) (ids : Fin 100000 → BitVec 32) (W0 : Sq.Idx → EReal) (b0 : Row.Idx → EReal)
    (W1 : Col.Idx → EReal) (b1 : One.Idx → EReal) (g : Fin 64) : EReal :=
  (∑ j : Fin 64, ((∑ f : Fin 64, Ideal.div (pooled h ids g f) (max (count ids g) (Ideal.ofBits .f32 0x3F800000#32)) * W0 (ix2 f j))
      + b0 (ix2 0 j)) * W1 (ix2 j 0)) + b1 (ix2 0 0)

/-- A vector of 64 as a 1×64 row. -/
def rowOf (b : (⟨1, ![64]⟩ : Shape).Idx → EReal) : Row.Idx → EReal := fun j => b (ix1 (j 1))
/-- A rank-0 scalar as a 1×1 array. -/
def oneOf (a : (⟨0, ![]⟩ : Shape).Idx → EReal) : One.Idx → EReal := fun _ => a ix0
/-- A vector of one element as a 1×1 array. -/
def oneOf1 (a : (⟨1, ![1]⟩ : Shape).Idx → EReal) : One.Idx → EReal := fun _ => a (ix1 0)
/-- The id words of the batch vector, node by node. -/
def idsOf (b : (⟨1, ![100000]⟩ : Shape).Idx → BitVec 32) : Fin 100000 → BitVec 32 := fun r => b (ix1 r)

/-- The whole network, the aggregation agg a parameter: three combine layers, then the head; the result a column of 64. -/
def net (agg : (Nodes.Idx → EReal) → (Nodes.Idx → EReal)) (x : Nodes.Idx → EReal) (ids : Fin 100000 → BitVec 32)
    (W1r W1o : Sq.Idx → EReal) (b1 : Row.Idx → EReal) (a1 : One.Idx → EReal)
    (W2r W2o : Sq.Idx → EReal) (b2 : Row.Idx → EReal) (a2 : One.Idx → EReal)
    (W3r W3o : Sq.Idx → EReal) (b3 : Row.Idx → EReal)
    (W0 : Sq.Idx → EReal) (c0 : Row.Idx → EReal) (Wl : Col.Idx → EReal) (c1 : One.Idx → EReal) : Col.Idx → EReal :=
  let h1 := rectified (agg x) x W1r W1o b1 a1
  let h2 := rectified (agg h1) h1 W2r W2o b2 a2
  let h3 := linear (agg h2) h2 W3r W3o b3
  fun j => head h3 ids W0 c0 Wl c1 (j 0)

end Cert.Spec

end
-- ==== Proof.KI.Host.lean ====
/-
  What the host stretches of the kernel program compute, as functions of the buffers they read.  Each of the first
  three stretches recomputes the neighbour aggregation — normalise the source ids, gather the source rows, scatter-add
  them at the destination ids into zeros — of the features it is given: one function, aggOf, of the source ids, the
  destination ids and the features, never opened.  The other results are reshapes of argument arrays.
-/
import proofs.«412716_j76287209112018_2_alg».proof.Proof.Gen.KernelIdeal.Launch
import proofs.«412716_j76287209112018_2_alg».proof.Proof.Spec
import Idealize.ShloMosaic.Lib.StableHlo.Run
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-- The source ids of the edge list: its row 0. -/
def srcOf (ei : IVec S2x1000000 32) : IVec S1000000 32 :=
  shapeCast _ (extractStridedSlice S1x1000000 ![0, 0] ei slices_S2x1000000_S1x1000000_0_0) shapeCasts_S1x1000000_S1000000
/-- The destination ids of the edge list: its row 1. -/
def dstOf (ei : IVec S2x1000000 32) : IVec S1000000 32 :=
  shapeCast _ (extractStridedSlice S1x1000000 ![1, 0] ei slices_S2x1000000_S1x1000000_1_0) shapeCasts_S1x1000000_S1000000

/-- The neighbour aggregation of the features feat over the edges (src, dst): a negative source id counted from the
    end, the source rows gathered, and added at the destination ids into zeros. -/
def aggOf (src dst : IVec S1000000 32) (feat : FVec F S100000x64 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164 feat
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

variable (W : Valuation τ sig (Elt F))

/-! ## The first stretch -/

set_option maxHeartbeats 4000000 in
theorem host0_src : StableHlo.after hostOps0 W (Proc.devRef .tc main_v1) = srcOf (W (Proc.devRef .tc main_arg1)) := by
  after_results; rfl
set_option maxHeartbeats 4000000 in
theorem host0_dst : StableHlo.after hostOps0 W (Proc.devRef .tc main_v3) = dstOf (W (Proc.devRef .tc main_arg1)) := by
  after_results; rfl
set_option maxHeartbeats 4000000 in
theorem host0_agg : StableHlo.after hostOps0 W (Proc.devRef .tc main_v13)
    = aggOf (srcOf (W (Proc.devRef .tc main_arg1))) (dstOf (W (Proc.devRef .tc main_arg1))) (W (Proc.devRef .tc main_arg0)) := by
  after_results; rfl
set_option maxHeartbeats 4000000 in
theorem host0_bias : StableHlo.after hostOps0 W (Proc.devRef .tc main_v14) = shapeCast S1x64 (W (Proc.devRef .tc main_arg4)) shapeCasts_S64_S1x64 := by
  after_results; rfl
set_option maxHeartbeats 4000000 in
theorem host0_slope : StableHlo.after hostOps0 W (Proc.devRef .tc main_v15) = shapeCast S1x1 (W (Proc.devRef .tc main_arg12)) shapeCasts_S_S1x1 := by
  after_results; rfl

/-! ## The second stretch -/

theorem host1_agg : StableHlo.after hostOps1 W (Proc.devRef .tc main_v26)
    = aggOf (W (Proc.devRef .tc main_v1)) (W (Proc.devRef .tc main_v3)) (W (Proc.devRef .tc main_v16)) := by
  after_results; rfl
theorem host1_bias : StableHlo.after hostOps1 W (Proc.devRef .tc main_v27) = shapeCast S1x64 (W (Proc.devRef .tc main_arg7)) shapeCasts_S64_S1x64 := by
  after_results; rfl
theorem host1_slope : StableHlo.after hostOps1 W (Proc.devRef .tc main_v28) = shapeCast S1x1 (W (Proc.devRef .tc main_arg13)) shapeCasts_S_S1x1 := by
  after_results; rfl

/-! ## The third stretch -/

theorem host2_agg : StableHlo.after hostOps2 W (Proc.devRef .tc main_v39)
    = aggOf (W (Proc.devRef .tc main_v1)) (W (Proc.devRef .tc main_v3)) (W (Proc.devRef .tc main_v29)) := by
  after_results; rfl
theorem host2_bias : StableHlo.after hostOps2 W (Proc.devRef .tc main_v40) = shapeCast S1x64 (W (Proc.devRef .tc main_arg10)) shapeCasts_S64_S1x64 := by
  after_results; rfl

/-! ## The fourth stretch -/

theorem host3_ids : StableHlo.after hostOps3 W (Proc.devRef .tc main_v43) = shapeCast S100000x1 (W (Proc.devRef .tc main_arg2)) shapeCasts_S100000_S100000x1 := by
  after_results; rfl
theorem host3_bias0 : StableHlo.after hostOps3 W (Proc.devRef .tc main_v44) = shapeCast S1x64 (W (Proc.devRef .tc main_arg15)) shapeCasts_S64_S1x64 := by
  after_results; rfl
theorem host3_bias1 : StableHlo.after hostOps3 W (Proc.devRef .tc main_v45) = shapeCast S1x1 (W (Proc.devRef .tc main_arg17)) shapeCasts_S1_S1x1 := by
  after_results; rfl

end Cert.KernelIdeal.Hand

end
-- ==== Proof.KI.Entry.lean ====
/-
  What each kernel region is entered with, array by array, in terms of the launch memory: the argument arrays as
  launched, their reshapes, the previous layer's output, and the neighbour aggregation of that output over the
  edge ids the first host stretch extracted (which nothing writes again).
-/
import proofs.«412716_j76287209112018_2_alg».proof.Proof.KI.Fold
import proofs.«412716_j76287209112018_2_alg».proof.Proof.KI.Host

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the three combine regions leave in their output arrays. -/
def h1 (c : Dev nD) : Buf (Elt F) ((c : Thread nD τ).loc main_v16) := (dat0 (E0 m) c).arrAt 6 cfg0.N
def h2 (c : Dev nD) : Buf (Elt F) ((c : Thread nD τ).loc main_v29) := (dat1 (E1 m) c).arrAt 6 cfg1.N
def h3 (c : Dev nD) : Buf (Elt F) ((c : Thread nD τ).loc main_v42) := (dat2 (E2 m) c).arrAt 6 cfg2.N

/-! ## The edge ids, computed by the first stretch and never written again -/

theorem src1 (c : Dev nD) : B1 m c (Proc.devRef .tc main_v1) = srcOf (m ((c : Thread nD τ).loc main_arg1)) := host0_src (B0 m c)
theorem dst1 (c : Dev nD) : B1 m c (Proc.devRef .tc main_v3) = dstOf (m ((c : Thread nD τ).loc main_arg1)) := host0_dst (B0 m c)
theorem src2 (c : Dev nD) : B2 m c (Proc.devRef .tc main_v1) = srcOf (m ((c : Thread nD τ).loc main_arg1)) := (B2_keep m c main_v1 (by decide)).trans (src1 m c)
theorem dst2 (c : Dev nD) : B2 m c (Proc.devRef .tc main_v3) = dstOf (m ((c : Thread nD τ).loc main_arg1)) := (B2_keep m c main_v3 (by decide)).trans (dst1 m c)
theorem src4 (c : Dev nD) : B4 m c (Proc.devRef .tc main_v1) = srcOf (m ((c : Thread nD τ).loc main_arg1)) :=
  (B4_keep m c main_v1 (by decide)).trans ((StableHlo.after_of_writes_sub hostOps1 _ hostOps1_writes (by decide)).trans (src2 m c))
theorem dst4 (c : Dev nD) : B4 m c (Proc.devRef .tc main_v3) = dstOf (m ((c : Thread nD τ).loc main_arg1)) :=
  (B4_keep m c main_v3 (by decide)).trans ((StableHlo.after_of_writes_sub hostOps1 _ hostOps1_writes (by decide)).trans (dst2 m c))

/-! ## Region 0 is entered with -/

theorem e0_agg (c : Dev nD) : E0 m c main_v13 = aggOf (srcOf (m ((c : Thread nD τ).loc main_arg1))) (dstOf (m ((c : Thread nD τ).loc main_arg1))) (m ((c : Thread nD τ).loc main_arg0)) := host0_agg (B0 m c)
theorem e0_x (c : Dev nD) : E0 m c main_arg0 = m ((c : Thread nD τ).loc main_arg0) := B1_launch m c main_arg0 (by decide)
theorem e0_wr (c : Dev nD) : E0 m c main_arg3 = m ((c : Thread nD τ).loc main_arg3) := B1_launch m c main_arg3 (by decide)
theorem e0_wo (c : Dev nD) : E0 m c main_arg5 = m ((c : Thread nD τ).loc main_arg5) := B1_launch m c main_arg5 (by decide)
theorem e0_b (c : Dev nD) : E0 m c main_v14 = shapeCast S1x64 (m ((c : Thread nD τ).loc main_arg4)) shapeCasts_S64_S1x64 := host0_bias (B0 m c)
theorem e0_a (c : Dev nD) : E0 m c main_v15 = shapeCast S1x1 (m ((c : Thread nD τ).loc main_arg12)) shapeCasts_S_S1x1 := host0_slope (B0 m c)

/-! ## Region 1 is entered with -/

theorem e1_x (c : Dev nD) : E1 m c main_v16 = h1 m c :=
  (StableHlo.after_of_writes_sub hostOps1 _ hostOps1_writes (by decide)).trans (B2_arr m c 6)
theorem e1_agg (c : Dev nD) : E1 m c main_v26 = aggOf (srcOf (m ((c : Thread nD τ).loc main_arg1))) (dstOf (m ((c : Thread nD τ).loc main_arg1))) (h1 m c) := by
  refine (host1_agg (B2 m c)).trans ?_
  rw [src2, dst2]
  exact congrArg _ (B2_arr m c 6)
theorem e1_wr (c : Dev nD) : E1 m c main_arg6 = m ((c : Thread nD τ).loc main_arg6) := B3_launch m c main_arg6 (by decide) (by decide) (by decide)
theorem e1_wo (c : Dev nD) : E1 m c main_arg8 = m ((c : Thread nD τ).loc main_arg8) := B3_launch m c main_arg8 (by decide) (by decide) (by decide)
theorem e1_b (c : Dev nD) : E1 m c main_v27 = shapeCast S1x64 (m ((c : Thread nD τ).loc main_arg7)) shapeCasts_S64_S1x64 :=
  (host1_bias (B2 m c)).trans (congrArg (fun v => shapeCast S1x64 v shapeCasts_S64_S1x64) (B2_launch m c main_arg7 (by decide) (by decide)))
theorem e1_a (c : Dev nD) : E1 m c main_v28 = shapeCast S1x1 (m ((c : Thread nD τ).loc main_arg13)) shapeCasts_S_S1x1 :=
  (host1_slope (B2 m c)).trans (congrArg (fun v => shapeCast S1x1 v shapeCasts_S_S1x1) (B2_launch m c main_arg13 (by decide) (by decide)))

/-! ## Region 2 is entered with -/

theorem e2_x (c : Dev nD) : E2 m c main_v29 = h2 m c :=
  (StableHlo.after_of_writes_sub hostOps2 _ hostOps2_writes (by decide)).trans (B4_arr m c 6)
theorem e2_agg (c : Dev nD) : E2 m c main_v39 = aggOf (srcOf (m ((c : Thread nD τ).loc main_arg1))) (dstOf (m ((c : Thread nD τ).loc main_arg1))) (h2 m c) := by
  refine (host2_agg (B4 m c)).trans ?_
  rw [src4, dst4]
  exact congrArg _ (B4_arr m c 6)
theorem e2_wr (c : Dev nD) : E2 m c main_arg9 = m ((c : Thread nD τ).loc main_arg9) := B5_launch m c main_arg9 (by decide) (by decide) (by decide) (by decide) (by decide)
theorem e2_wo (c : Dev nD) : E2 m c main_arg11 = m ((c : Thread nD τ).loc main_arg11) := B5_launch m c main_arg11 (by decide) (by decide) (by decide) (by decide) (by decide)
theorem e2_b (c : Dev nD) : E2 m c main_v40 = shapeCast S1x64 (m ((c : Thread nD τ).loc main_arg10)) shapeCasts_S64_S1x64 :=
  (host2_bias (B4 m c)).trans (congrArg (fun v => shapeCast S1x64 v shapeCasts_S64_S1x64) (B4_launch m c main_arg10 (by decide) (by decide) (by decide) (by decide)))

/-! ## Region 3 is entered with -/

theorem e3_h (c : Dev nD) : E3 m c main_v42 = h3 m c :=
  (StableHlo.after_of_writes_sub hostOps3 _ hostOps3_writes (by decide)).trans (B6_arr m c 6)
theorem e3_ids (c : Dev nD) : E3 m c main_v43 = shapeCast S100000x1 (m ((c : Thread nD τ).loc main_arg2)) shapeCasts_S100000_S100000x1 :=
  (host3_ids (B6 m c)).trans (congrArg (fun v => shapeCast S100000x1 v shapeCasts_S100000_S100000x1) (B6_launch m c main_arg2 (by decide) (by decide) (by decide) (by decide) (by decide) (by decide)))
theorem e3_w0 (c : Dev nD) : E3 m c main_arg14 = m ((c : Thread nD τ).loc main_arg14) := B7_launch m c main_arg14 (by decide) (by decide) (by decide) (by decide) (by decide) (by decide) (by decide)
theorem e3_b0 (c : Dev nD) : E3 m c main_v44 = shapeCast S1x64 (m ((c : Thread nD τ).loc main_arg15)) shapeCasts_S64_S1x64 :=
  (host3_bias0 (B6 m c)).trans (congrArg (fun v => shapeCast S1x64 v shapeCasts_S64_S1x64) (B6_launch m c main_arg15 (by decide) (by decide) (by decide) (by decide) (by decide) (by decide)))
theorem e3_w1 (c : Dev nD) : E3 m c main_arg16 = m ((c : Thread nD τ).loc main_arg16) := B7_launch m c main_arg16 (by decide) (by decide) (by decide) (by decide) (by decide) (by decide) (by decide)
theorem e3_b1 (c : Dev nD) : E3 m c main_v45 = shapeCast S1x1 (m ((c : Thread nD τ).loc main_arg17)) shapeCasts_S1_S1x1 :=
  (host3_bias1 (B6 m c)).trans (congrArg (fun v => shapeCast S1x1 v shapeCasts_S1_S1x1) (B6_launch m c main_arg17 (by decide) (by decide) (by decide) (by decide) (by decide) (by decide)))

end Cert.KernelIdeal.Hand

end
-- ==== Proof.KI.Casts.lean ====
/-
  The host reshapes that hand the bias vectors, the slope scalars, the last bias and the batch ids to the kernels,
  read as the specification's conversions: a vector of 64 as a 1×64 row, a scalar or a one-element vector as a 1×1
  array, the vector of 100000 id words as a 100000×1 column read row by row.  A reshape keeps the row-major position,
  and in each of these shapes that position is the one coordinate that is not on a unit axis.
-/
import proofs.«412716_j76287209112018_2_alg».proof.Proof.Gen.KernelIdeal
import proofs.«412716_j76287209112018_2_alg».proof.Proof.Spec
import Idealize.ShloMosaic.Lib.Pipeline.Value
import Idealize.ShloMosaic.Lib.ValueLayout
import Idealize.ShloMosaic.Lib.ValueIdx

noncomputable section

namespace Cert.KernelIdeal.Hand

open Cert.KernelIdeal Idealize.ShloMosaic Idealize.ShloMosaic.ValueIdx
open Facts₀

/-- A vector of 64 reshaped to 1×64 reads, at (0, q), the vector at q. -/
theorem cast_row (b : FVec Ideal S64 .f32) : shapeCast S1x64 b shapeCasts_S64_S1x64 = Cert.Spec.rowOf b := by
  funext j
  have h0 : (j 0).val < 1 := (j 0).isLt
  refine (shapeCast_apply b shapeCasts_S64_S1x64 j (ix1 (j 1))
    (by rw [Shape.rowMajor_val_one, Shape.rowMajor_val_two]
        show (j 1).val = (j 0).val * 64 + (j 1).val
        omega)).trans ?_
  rfl

/-- A scalar reshaped to 1×1 reads the scalar. -/
theorem cast_scalar (a : FVec Ideal S_ .f32) : shapeCast S1x1 a shapeCasts_S_S1x1 = Cert.Spec.oneOf a := by
  funext j
  have h0 : (j 0).val < 1 := (j 0).isLt
  have h1 : (j 1).val < 1 := (j 1).isLt
  refine (shapeCast_apply a shapeCasts_S_S1x1 j ix0
    (by rw [Shape.rowMajor_val_two]
        show (Shape.rowMajorPi _ _).val = (j 0).val * 1 + (j 1).val
        rw [Shape.rowMajorPi_zero]
        omega)).trans ?_
  rfl

/-- A one-element vector reshaped to 1×1 reads its element. -/
theorem cast_single (a : FVec Ideal S1 .f32) : shapeCast S1x1 a shapeCasts_S1_S1x1 = Cert.Spec.oneOf1 a := by
  funext j
  have h0 : (j 0).val < 1 := (j 0).isLt
  have h1 : (j 1).val < 1 := (j 1).isLt
  refine (shapeCast_apply a shapeCasts_S1_S1x1 j (ix1 0)
    (by rw [Shape.rowMajor_val_one, Shape.rowMajor_val_two]
        show 0 = (j 0).val * 1 + (j 1).val
        omega)).trans ?_
  rfl

/-- The id vector reshaped to a column reads, at (r, 0), the vector at r. -/
theorem cast_ids (b : IVec S100000 32) : (fun r : Fin 100000 => shapeCast S100000x1 b shapeCasts_S100000_S100000x1 (ix2 r 0)) = Cert.Spec.idsOf b := by
  funext r
  refine (shapeCast_apply b shapeCasts_S100000_S100000x1 (ix2 r 0) (ix1 r)
    (by rw [Shape.rowMajor_val_one, Shape.rowMajor_val_two]
        show r.val = r.val * 1 + 0
        omega)).trans ?_
  rfl

end Cert.KernelIdeal.Hand

end
-- ==== Proof.KI.Val0Pay.lean ====
/-
  The arithmetic of region 0's body at one entry of its block.  The body multiplies the block of aggregated neighbour
  features and the block of node features, each of 10000 rows by 64 channels, by their 64×64 weights, adds the two
  products and the bias row, and passes the sum through the leaky rectifier whose slope is the lone entry of a 1×1 array.
  Read at row p and channel q of the block, on the extended reals (where narrowing an operand's format changes nothing):
      leaky slope ((∑ₖ A[p,k]·Wr[k,q]) + (∑ₖ X[p,k]·Wo[k,q]) + b[0,q]).
  Everything here is over vectors of literal shapes; no window of the pipeline is in sight.
-/
import proofs.«412716_j76287209112018_2_alg».proof.Proof.Gen.KernelIdeal.Skeleton
import proofs.«412716_j76287209112018_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe
open Idealize.ShloMosaic.ValueIdx
open Cert.KernelIdeal Cert.KernelIdeal.Gen

/-! ## The contraction's operand indices, axis by axis -/

/-- The contraction's left operand index at output index i and contraction index q: row i₀, -/
theorem lhsRow0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- column q; -/
theorem lhsCol0 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand's: row q, -/
theorem rhsRow0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- column i₁. -/
theorem rhsCol0 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of 10000 rows times a 64×64 matrix, accumulated into zero, at row p and column q: the sum over the
    64 contracted channels of the products. -/
theorem matmulAt0 {φa φb : FTy} (xa : FVec Ideal S10000x64 φa) (wa : FVec Ideal S64x64 φb) (p : Fin 10000) (q : Fin 64) :
    matmul dot_S10000x64_S64x64_S10000x64_1_0_0_1_n_n none xa wa (constant S10000x64 .f32 0x00000000#32) (ix2 p q)
      = ∑ k : Fin 64, xa (ix2 p k) * wa (ix2 k q) := by
  show FloatOps.matmul dot_S10000x64_S64x64_S10000x64_1_0_0_1_n_n none xa wa (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsRow0 _ _
    | ⟨1, _⟩ => exact (lhsCol0 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsRow0 _ _).trans hk
    | ⟨1, _⟩ => exact rhsCol0 _ _)
  rw [el, er]

/-! ## The layout operations at an index -/

/-- The bias row broadcast down the block's rows, at row p and channel q: the row's entry at channel q. -/
theorem rowAt0 (bb : Vec Ideal S1x64 .f32) (p : Fin 10000) (q : Fin 64) :
    broadcastTo S10000x64 bb broadcasts_S1x64_S10000x64 (ix2 p q) = bb (ix2 0 q) :=
  broadcastTo_apply bb broadcasts_S1x64_S10000x64 (ix2 p q) (ix2 0 q) fun a => by
    match a with
    | ⟨0, _⟩ => rfl
    | ⟨1, _⟩ => rfl

/-- The scalar extracted from the 1×1 array is its entry at (0, 0). -/
theorem slopeAt0 (sl : Vec Ideal S1x1 .f32) : extractAt ![0, 0] sl inpos_S1x1_p0_0 = sl (ix2 0 0) :=
  congrArg sl (funext fun a => by match a with | ⟨0, _⟩ => rfl | ⟨1, _⟩ => rfl)

/-! ## The payload at an index -/

/-- What the body stores, at row p and channel q of the block: the rectifier of the two contractions plus the bias. -/
theorem pay0_apply (xa xb : Vec Ideal S10000x64 .f32) (wa wb : Vec Ideal S64x64 .f32) (bb : Vec Ideal S1x64 .f32) (sl : Vec Ideal S1x1 .f32)
    (p : Fin 10000) (q : Fin 64) :
    k0_pay1 xa xb wa wb bb sl (ix2 p q)
      = Cert.Spec.leaky (sl (ix2 0 0)) (((∑ k : Fin 64, xa (ix2 p k) * wa (ix2 k q)) + (∑ k : Fin 64, xb (ix2 p k) * wb (ix2 k q))) + bb (ix2 0 q)) := by
  unfold k0_pay1
  simp only [shapeCast_self]
  rw [select_apply, cmpf_apply, mulf_apply, broadcast_apply, broadcast_apply, addf_apply, addf_apply, matmulAt0, matmulAt0, rowAt0, slopeAt0]
  rfl

end Cert.KernelIdeal.Hand

end
-- ==== Proof.KI.Val0.lean ====
/-
  The value of region 0: what the region leaves in its output array, as a function of the arrays it finds.
  At grid point t the body reads rows t·10000 … t·10000 + 9999 of the aggregated neighbour features and of the node
  features, and the whole of the two 64×64 weights, the bias row and the 1×1 slope; by the payload's arithmetic its
  stored block is, entry by entry, the rectified combine layer at the array's row t·10000 + p and channel q.  So every
  point writes back its block of ONE array, the layer of the six inputs; the ten blocks cover the 100000 rows
  (row r lies in the block of point r / 10000); hence the output array ends holding that layer.
-/
import proofs.«412716_j76287209112018_2_alg».proof.Proof.KI.Reg0
import proofs.«412716_j76287209112018_2_alg».proof.Proof.KI.Val0Pay
import proofs.«412716_j76287209112018_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-! ## One entry of a block, over literal shapes -/

theorem hz0 : (![0, 0] : Fin 2 → Nat) = fun _ => 0 := funext fun a => by fin_cases a <;> rfl

/-- If the two feature blocks are rows n·10000 … of the arrays A and X, and the weight, bias and slope blocks are the
    arrays themselves, the body's stored value at entry y of the block is the layer's value at the array entry i in
    row n·10000 + y₀ and channel y₁. -/
theorem point0 (xa xb : Vec Ideal S10000x64 .f32) (wa wb : Vec Ideal S64x64 .f32) (bb : Vec Ideal S1x64 .f32) (sl : Vec Ideal S1x1 .f32)
    (A X : Cert.Spec.Nodes.Idx → EReal) (Wr Wo : Cert.Spec.Sq.Idx → EReal) (b : Cert.Spec.Row.Idx → EReal) (a : Cert.Spec.One.Idx → EReal)
    (n : ℕ)
    (hA : ∀ (y : S10000x64.Idx) (i : Cert.Spec.Nodes.Idx), (i 0).val = n * 10000 + (y 0).val → (i 1).val = (y 1).val → xa y = A i)
    (hX : ∀ (y : S10000x64.Idx) (i : Cert.Spec.Nodes.Idx), (i 0).val = n * 10000 + (y 0).val → (i 1).val = (y 1).val → xb y = X i)
    (hWr : wa = Wr) (hWo : wb = Wo) (hb : bb = b) (ha : sl = a)
    (y : S10000x64.Idx) (i : Cert.Spec.Nodes.Idx) (hr : (i 0).val = n * 10000 + (y 0).val) (hq : (i 1).val = (y 1).val) :
    k0_pay1 xa xb wa wb bb sl y = Cert.Spec.rectified A X Wr Wo b a i := by
  subst hWr hWo hb ha
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  have hr' : r.val = n * 10000 + p.val := hr
  obtain rfl : s = q := Fin.ext hq
  have sA : ∑ k : Fin 64, xa (ix2 p k) * wa (ix2 k s) = ∑ k : Fin 64, A (ix2 r k) * wa (ix2 k s) :=
    Finset.sum_congr rfl fun k _ => by rw [hA (ix2 p k) (ix2 r k) hr' rfl]
  have sX : ∑ k : Fin 64, xb (ix2 p k) * wb (ix2 k s) = ∑ k : Fin 64, X (ix2 r k) * wb (ix2 k s) :=
    Finset.sum_congr rfl fun k _ => by rw [hX (ix2 p k) (ix2 r k) hr' rfl]
  rw [pay0_apply, sA, sX]
  rfl

/-! ## The blocks the body reads, as parts of the arrays -/

/-- The printed index maps over the grid: the three row-blocked windows sit at block row t, every other block index is 0. -/
theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry y of window 0's block at point t is the array's entry in row t·10000 + y₀, channel y₁. -/
theorem rows0_0 (c : Dev nD) (t : Fin cfg0.N) (y : S10000x64.Idx) (i : Cert.Spec.Nodes.Idx)
    (hr : (i 0).val = t.val * 10000 + (y 0).val) (hq : (i 1).val = (y 1).val) :
    (blk0 V c 0 t : Vec Ideal S10000x64 .f32) y = (V c (Pipeline.arrRef spec0 0) : Cert.Spec.Nodes.Idx → EReal) i := by
  obtain ⟨e, e', -⟩ := idx0_facts t
  show (V c (Pipeline.arrRef spec0 0) : Cert.Spec.Nodes.Idx → EReal) (((cfg0.win 0).blk t).view.emb y) = _
  refine congrArg _ (funext fun a => Fin.ext ?_)
  match a with
  | ⟨0, _⟩ => show win0_0.index t (0 : Fin 2) * 10000 + 1 * (y 0).val = (i 0).val; rw [e, hr]; omega
  | ⟨1, _⟩ => show win0_0.index t (1 : Fin 2) * 64 + 1 * (y 1).val = (i 1).val; rw [e', hq]; omega

/-- Entry y of window 1's block at point t is the array's entry in row t·10000 + y₀, channel y₁. -/
theorem rows0_1 (c : Dev nD) (t : Fin cfg0.N) (y : S10000x64.Idx) (i : Cert.Spec.Nodes.Idx)
    (hr : (i 0).val = t.val * 10000 + (y 0).val) (hq : (i 1).val = (y 1).val) :
    (blk0 V c 1 t : Vec Ideal S10000x64 .f32) y = (V c (Pipeline.arrRef spec0 1) : Cert.Spec.Nodes.Idx → EReal) i := by
  obtain ⟨-, -, e, e', -⟩ := idx0_facts t
  show (V c (Pipeline.arrRef spec0 1) : Cert.Spec.Nodes.Idx → EReal) (((cfg0.win 1).blk t).view.emb y) = _
  refine congrArg _ (funext fun a => Fin.ext ?_)
  match a with
  | ⟨0, _⟩ => show win0_1.index t (0 : Fin 2) * 10000 + 1 * (y 0).val = (i 0).val; rw [e, hr]; omega
  | ⟨1, _⟩ => show win0_1.index t (1 : Fin 2) * 64 + 1 * (y 1).val = (i 1).val; rw [e', hq]; omega

/-- Window 2's block is the whole weight array at every point. -/
theorem whole0_2 (c : Dev nD) (t : Fin cfg0.N) :
    (blk0 V c 2 t : Vec Ideal S64x64 .f32) = (V c (Pipeline.arrRef spec0 2) : Cert.Spec.Sq.Idx → EReal) := by
  obtain ⟨-, -, -, -, e, e', -⟩ := idx0_facts t
  funext y
  show (V c (Pipeline.arrRef spec0 2) : Cert.Spec.Sq.Idx → EReal) (((cfg0.win 2).blk t).view.emb y) = _
  refine congrArg _ (funext fun a => Fin.ext ?_)
  match a with
  | ⟨0, _⟩ => show win0_2.index t (0 : Fin 2) * 64 + 1 * (y 0).val = (y 0).val; rw [e]; omega
  | ⟨1, _⟩ => show win0_2.index t (1 : Fin 2) * 64 + 1 * (y 1).val = (y 1).val; rw [e']; omega

/-- Window 3's block is the whole weight array at every point. -/
theorem whole0_3 (c : Dev nD) (t : Fin cfg0.N) :
    (blk0 V c 3 t : Vec Ideal S64x64 .f32) = (V c (Pipeline.arrRef spec0 3) : Cert.Spec.Sq.Idx → EReal) := by
  obtain ⟨-, -, -, -, -, -, e, e', -⟩ := idx0_facts t
  funext y
  show (V c (Pipeline.arrRef spec0 3) : Cert.Spec.Sq.Idx → EReal) (((cfg0.win 3).blk t).view.emb y) = _
  refine congrArg _ (funext fun a => Fin.ext ?_)
  match a with
  | ⟨0, _⟩ => show win0_3.index t (0 : Fin 2) * 64 + 1 * (y 0).val = (y 0).val; rw [e]; omega
  | ⟨1, _⟩ => show win0_3.index t (1 : Fin 2) * 64 + 1 * (y 1).val = (y 1).val; rw [e']; omega

/-- Window 4's block is the whole bias row at every point. -/
theorem whole0_4 (c : Dev nD) (t : Fin cfg0.N) :
    (blk0 V c 4 t : Vec Ideal S1x64 .f32) = (V c (Pipeline.arrRef spec0 4) : Cert.Spec.Row.Idx → EReal) := by
  obtain ⟨-, -, -, -, -, -, -, -, e, e', -⟩ := idx0_facts t
  funext y
  show (V c (Pipeline.arrRef spec0 4) : Cert.Spec.Row.Idx → EReal) (((cfg0.win 4).blk t).view.emb y) = _
  refine congrArg _ (funext fun a => Fin.ext ?_)
  match a with
  | ⟨0, _⟩ => show win0_4.index t (0 : Fin 2) * 1 + 1 * (y 0).val = (y 0).val; rw [e]; omega
  | ⟨1, _⟩ => show win0_4.index t (1 : Fin 2) * 64 + 1 * (y 1).val = (y 1).val; rw [e']; omega

/-- Window 5's block is the whole 1×1 slope array at every point. -/
theorem whole0_5 (c : Dev nD) (t : Fin cfg0.N) :
    (blk0 V c 5 t : Vec Ideal S1x1 .f32) = (V c (Pipeline.arrRef spec0 5) : Cert.Spec.One.Idx → EReal) := by
  obtain ⟨-, -, -, -, -, -, -, -, -, -, e, e', -⟩ := idx0_facts t
  funext y
  show (V c (Pipeline.arrRef spec0 5) : Cert.Spec.One.Idx → EReal) (((cfg0.win 5).blk t).view.emb y) = _
  refine congrArg _ (funext fun a => Fin.ext ?_)
  match a with
  | ⟨0, _⟩ => show win0_5.index t (0 : Fin 2) * 1 + 1 * (y 0).val = (y 0).val; rw [e]; omega
  | ⟨1, _⟩ => show win0_5.index t (1 : Fin 2) * 1 + 1 * (y 1).val = (y 1).val; rw [e']; omega

/-! ## What a point writes back -/

/-- The array the region leaves: the rectified combine layer of the six arrays as the region finds them. -/
abbrev layer0 (c : Dev nD) : Cert.Spec.Nodes.Idx → EReal :=
  Cert.Spec.rectified (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))

/-- What point t writes back is block t of the layer's array. -/
theorem flushed0_eq (c : Dev nD) (t : Fin cfg0.N) :
    (dat0 (F := Ideal) V c).flushed 6 t = ((cfg0.win 6).blk t).view.read (Elt Ideal) (layer0 V c) := by
  show (cfg0.win 6).cut (cfg0.grid.coords t) ((dat0 V c).after 6 t) = _
  rw [after0_6]
  unfold outBlock0
  rw [View.canon_unit_zero hz0]
  simp only [View.ld_unit_zero (S := S10000x64) hz0, View.ld_unit_zero (S := S64x64) hz0, View.ld_unit_zero (S := S1x64) hz0, View.ld_unit_zero (S := S1x1) hz0]
  obtain ⟨-, -, -, -, -, -, -, -, -, -, -, -, e, e'⟩ := idx0_facts t
  funext j
  show k0_pay1 (blk0 V c 0 t) (blk0 V c 1 t) (blk0 V c 2 t) (blk0 V c 3 t) (blk0 V c 4 t) (blk0 V c 5 t) ((cfg0.win 6).xinj (cfg0.grid.coords t) j)
    = layer0 V c (((cfg0.win 6).blk t).view.emb j)
  refine point0 (blk0 V c 0 t) (blk0 V c 1 t) (blk0 V c 2 t) (blk0 V c 3 t) (blk0 V c 4 t) (blk0 V c 5 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    t.val (rows0_0 V c t) (rows0_1 V c t) (whole0_2 V c t) (whole0_3 V c t) (whole0_4 V c t) (whole0_5 V c t)
    ((cfg0.win 6).xinj (cfg0.grid.coords t) j) (((cfg0.win 6).blk t).view.emb j) ?_ ?_
  · show win0_6.index t (0 : Fin 2) * 10000 + 1 * (j 0).val = t.val * 10000 + (j 0).val
    rw [e]; omega
  · show win0_6.index t (1 : Fin 2) * 64 + 1 * (j 1).val = (j 1).val
    rw [e']; omega

/-! ## The blocks cover the array -/

/-- An index of the array is in point t's block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v16).slice (win0_6.rect t)).set ↔ _
  rw [View.set_slice_whole, Rect.mem_set_unit]
  exact Iff.rfl

/-- Row r of the array lies in the block of point r / 10000, and every point writes its block back. -/
theorem cover0 (i : S100000x64.Idx) : ∃ t : Fin cfg0.N, (cfg0.win 6).flush t = true ∧ i ∈ ((cfg0.win 6).blk t).view.set := by
  have hr : (i 0).val < 100000 := (i 0).isLt
  have hq : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, e, e'⟩ := idx0_facts t
  refine ⟨t, flush0_6 t, ?_⟩
  rw [mem_blk0]
  intro a
  match a with
  | ⟨0, _⟩ =>
    show win0_6.index t (0 : Fin 2) * 10000 ≤ (i 0).val ∧ (i 0).val < win0_6.index t (0 : Fin 2) * 10000 + 10000
    rw [e, ht]; omega
  | ⟨1, _⟩ =>
    show win0_6.index t (1 : Fin 2) * 64 ≤ (i 1).val ∧ (i 1).val < win0_6.index t (1 : Fin 2) * 64 + 64
    rw [e']; omega

/-! ## The region's value -/

/-- THE VALUE OF REGION 0: its output array ends holding the rectified combine layer of the six input arrays as the
    region finds them. -/
theorem value0 (c : Dev nD) :
    (dat0 (F := Ideal) V c).arrAt 6 cfg0.N
      = Cert.Spec.rectified (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 (F := Ideal) V c).arrAt_eq_of_cover 6 (layer0 V c) (fun t _ => flushed0_eq V c t) cover0

end Cert.KernelIdeal.Hand

end
-- ==== Proof.KI.Val1Pay.lean ====
/-
  The arithmetic of region 1's body at one entry of its block: as in the first combine layer, the two blocks of 10000 rows by
  64 channels times their 64×64 weights, added, plus the bias row, through the leaky rectifier whose slope is the lone entry
  of a 1×1 array.  Read at row p and channel q of the block, on the extended reals:
      leaky slope ((∑ₖ A[p,k]·Wr[k,q]) + (∑ₖ X[p,k]·Wo[k,q]) + b[0,q]).
  The contraction, the broadcast bias row and the extracted slope at an index are those of the first layer's module.
-/
import proofs.«412716_j76287209112018_2_alg».proof.Proof.Gen.KernelIdeal.Skeleton
import proofs.«412716_j76287209112018_2_alg».proof.Proof.Spec
import proofs.«412716_j76287209112018_2_alg».proof.Proof.KI.Val0Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe
open Idealize.ShloMosaic.ValueIdx
open Cert.KernelIdeal Cert.KernelIdeal.Gen

/-- What the body stores, at row p and channel q of the block: the rectifier of the two contractions plus the bias. -/
theorem pay1_apply (xa xb : Vec Ideal S10000x64 .f32) (wa wb : Vec Ideal S64x64 .f32) (bb : Vec Ideal S1x64 .f32) (sl : Vec Ideal S1x1 .f32)
    (p : Fin 10000) (q : Fin 64) :
    k1_pay1 xa xb wa wb bb sl (ix2 p q)
      = Cert.Spec.leaky (sl (ix2 0 0)) (((∑ k : Fin 64, xa (ix2 p k) * wa (ix2 k q)) + (∑ k : Fin 64, xb (ix2 p k) * wb (ix2 k q))) + bb (ix2 0 q)) := by
  unfold k1_pay1
  simp only [shapeCast_self]
  rw [select_apply, cmpf_apply, mulf_apply, broadcast_apply, broadcast_apply, addf_apply, addf_apply, matmulAt0, matmulAt0, rowAt0, slopeAt0]
  rfl

end Cert.KernelIdeal.Hand

end
-- ==== Proof.KI.Val1.lean ====
/-
  The value of region 1: what the region leaves in its output array, as a function of the arrays it finds.
  At grid point t the body reads rows t·10000 … t·10000 + 9999 of the aggregated neighbour features and of the node
  features, and the whole of the two 64×64 weights, the bias row and the 1×1 slope; by the payload's arithmetic its
  stored block is, entry by entry, the rectified combine layer at the array's row t·10000 + p and channel q.  So every
  point writes back its block of ONE array, the layer of the six inputs; the ten blocks cover the 100000 rows
  (row r lies in the block of point r / 10000); hence the output array ends holding that layer.
-/
import proofs.«412716_j76287209112018_2_alg».proof.Proof.KI.Reg1
import proofs.«412716_j76287209112018_2_alg».proof.Proof.KI.Val1Pay
import proofs.«412716_j76287209112018_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-! ## One entry of a block, over literal shapes -/

theorem hz1 : (![0, 0] : Fin 2 → Nat) = fun _ => 0 := funext fun a => by fin_cases a <;> rfl

/-- If the two feature blocks are rows n·10000 … of the arrays A and X, and the weight, bias and slope blocks are the
    arrays themselves, the body's stored value at entry y of the block is the layer's value at the array entry i in
    row n·10000 + y₀ and channel y₁. -/
theorem point1 (xa xb : Vec Ideal S10000x64 .f32) (wa wb : Vec Ideal S64x64 .f32) (bb : Vec Ideal S1x64 .f32) (sl : Vec Ideal S1x1 .f32)
    (A X : Cert.Spec.Nodes.Idx → EReal) (Wr Wo : Cert.Spec.Sq.Idx → EReal) (b : Cert.Spec.Row.Idx → EReal) (a : Cert.Spec.One.Idx → EReal)
    (n : ℕ)
    (hA : ∀ (y : S10000x64.Idx) (i : Cert.Spec.Nodes.Idx), (i 0).val = n * 10000 + (y 0).val → (i 1).val = (y 1).val → xa y = A i)
    (hX : ∀ (y : S10000x64.Idx) (i : Cert.Spec.Nodes.Idx), (i 0).val = n * 10000 + (y 0).val → (i 1).val = (y 1).val → xb y = X i)
    (hWr : wa = Wr) (hWo : wb = Wo) (hb : bb = b) (ha : sl = a)
    (y : S10000x64.Idx) (i : Cert.Spec.Nodes.Idx) (hr : (i 0).val = n * 10000 + (y 0).val) (hq : (i 1).val = (y 1).val) :
    k1_pay1 xa xb wa wb bb sl y = Cert.Spec.rectified A X Wr Wo b a i := by
  subst hWr hWo hb ha
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  have hr' : r.val = n * 10000 + p.val := hr
  obtain rfl : s = q := Fin.ext hq
  have sA : ∑ k : Fin 64, xa (ix2 p k) * wa (ix2 k s) = ∑ k : Fin 64, A (ix2 r k) * wa (ix2 k s) :=
    Finset.sum_congr rfl fun k _ => by rw [hA (ix2 p k) (ix2 r k) hr' rfl]
  have sX : ∑ k : Fin 64, xb (ix2 p k) * wb (ix2 k s) = ∑ k : Fin 64, X (ix2 r k) * wb (ix2 k s) :=
    Finset.sum_congr rfl fun k _ => by rw [hX (ix2 p k) (ix2 r k) hr' rfl]
  rw [pay1_apply, sA, sX]
  rfl

/-! ## The blocks the body reads, as parts of the arrays -/

/-- The printed index maps over the grid: the three row-blocked windows sit at block row t, every other block index is 0. -/
theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry y of window 0's block at point t is the array's entry in row t·10000 + y₀, channel y₁. -/
theorem rows1_0 (c : Dev nD) (t : Fin cfg1.N) (y : S10000x64.Idx) (i : Cert.Spec.Nodes.Idx)
    (hr : (i 0).val = t.val * 10000 + (y 0).val) (hq : (i 1).val = (y 1).val) :
    (blk1 V c 0 t : Vec Ideal S10000x64 .f32) y = (V c (Pipeline.arrRef spec1 0) : Cert.Spec.Nodes.Idx → EReal) i := by
  obtain ⟨e, e', -⟩ := idx1_facts t
  show (V c (Pipeline.arrRef spec1 0) : Cert.Spec.Nodes.Idx → EReal) (((cfg1.win 0).blk t).view.emb y) = _
  refine congrArg _ (funext fun a => Fin.ext ?_)
  match a with
  | ⟨0, _⟩ => show win1_0.index t (0 : Fin 2) * 10000 + 1 * (y 0).val = (i 0).val; rw [e, hr]; omega
  | ⟨1, _⟩ => show win1_0.index t (1 : Fin 2) * 64 + 1 * (y 1).val = (i 1).val; rw [e', hq]; omega

/-- Entry y of window 1's block at point t is the array's entry in row t·10000 + y₀, channel y₁. -/
theorem rows1_1 (c : Dev nD) (t : Fin cfg1.N) (y : S10000x64.Idx) (i : Cert.Spec.Nodes.Idx)
    (hr : (i 0).val = t.val * 10000 + (y 0).val) (hq : (i 1).val = (y 1).val) :
    (blk1 V c 1 t : Vec Ideal S10000x64 .f32) y = (V c (Pipeline.arrRef spec1 1) : Cert.Spec.Nodes.Idx → EReal) i := by
  obtain ⟨-, -, e, e', -⟩ := idx1_facts t
  show (V c (Pipeline.arrRef spec1 1) : Cert.Spec.Nodes.Idx → EReal) (((cfg1.win 1).blk t).view.emb y) = _
  refine congrArg _ (funext fun a => Fin.ext ?_)
  match a with
  | ⟨0, _⟩ => show win1_1.index t (0 : Fin 2) * 10000 + 1 * (y 0).val = (i 0).val; rw [e, hr]; omega
  | ⟨1, _⟩ => show win1_1.index t (1 : Fin 2) * 64 + 1 * (y 1).val = (i 1).val; rw [e', hq]; omega

/-- Window 2's block is the whole weight array at every point. -/
theorem whole1_2 (c : Dev nD) (t : Fin cfg1.N) :
    (blk1 V c 2 t : Vec Ideal S64x64 .f32) = (V c (Pipeline.arrRef spec1 2) : Cert.Spec.Sq.Idx → EReal) := by
  obtain ⟨-, -, -, -, e, e', -⟩ := idx1_facts t
  funext y
  show (V c (Pipeline.arrRef spec1 2) : Cert.Spec.Sq.Idx → EReal) (((cfg1.win 2).blk t).view.emb y) = _
  refine congrArg _ (funext fun a => Fin.ext ?_)
  match a with
  | ⟨0, _⟩ => show win1_2.index t (0 : Fin 2) * 64 + 1 * (y 0).val = (y 0).val; rw [e]; omega
  | ⟨1, _⟩ => show win1_2.index t (1 : Fin 2) * 64 + 1 * (y 1).val = (y 1).val; rw [e']; omega

/-- Window 3's block is the whole weight array at every point. -/
theorem whole1_3 (c : Dev nD) (t : Fin cfg1.N) :
    (blk1 V c 3 t : Vec Ideal S64x64 .f32) = (V c (Pipeline.arrRef spec1 3) : Cert.Spec.Sq.Idx → EReal) := by
  obtain ⟨-, -, -, -, -, -, e, e', -⟩ := idx1_facts t
  funext y
  show (V c (Pipeline.arrRef spec1 3) : Cert.Spec.Sq.Idx → EReal) (((cfg1.win 3).blk t).view.emb y) = _
  refine congrArg _ (funext fun a => Fin.ext ?_)
  match a with
  | ⟨0, _⟩ => show win1_3.index t (0 : Fin 2) * 64 + 1 * (y 0).val = (y 0).val; rw [e]; omega
  | ⟨1, _⟩ => show win1_3.index t (1 : Fin 2) * 64 + 1 * (y 1).val = (y 1).val; rw [e']; omega

/-- Window 4's block is the whole bias row at every point. -/
theorem whole1_4 (c : Dev nD) (t : Fin cfg1.N) :
    (blk1 V c 4 t : Vec Ideal S1x64 .f32) = (V c (Pipeline.arrRef spec1 4) : Cert.Spec.Row.Idx → EReal) := by
  obtain ⟨-, -, -, -, -, -, -, -, e, e', -⟩ := idx1_facts t
  funext y
  show (V c (Pipeline.arrRef spec1 4) : Cert.Spec.Row.Idx → EReal) (((cfg1.win 4).blk t).view.emb y) = _
  refine congrArg _ (funext fun a => Fin.ext ?_)
  match a with
  | ⟨0, _⟩ => show win1_4.index t (0 : Fin 2) * 1 + 1 * (y 0).val = (y 0).val; rw [e]; omega
  | ⟨1, _⟩ => show win1_4.index t (1 : Fin 2) * 64 + 1 * (y 1).val = (y 1).val; rw [e']; omega

/-- Window 5's block is the whole 1×1 slope array at every point. -/
theorem whole1_5 (c : Dev nD) (t : Fin cfg1.N) :
    (blk1 V c 5 t : Vec Ideal S1x1 .f32) = (V c (Pipeline.arrRef spec1 5) : Cert.Spec.One.Idx → EReal) := by
  obtain ⟨-, -, -, -, -, -, -, -, -, -, e, e', -⟩ := idx1_facts t
  funext y
  show (V c (Pipeline.arrRef spec1 5) : Cert.Spec.One.Idx → EReal) (((cfg1.win 5).blk t).view.emb y) = _
  refine congrArg _ (funext fun a => Fin.ext ?_)
  match a with
  | ⟨0, _⟩ => show win1_5.index t (0 : Fin 2) * 1 + 1 * (y 0).val = (y 0).val; rw [e]; omega
  | ⟨1, _⟩ => show win1_5.index t (1 : Fin 2) * 1 + 1 * (y 1).val = (y 1).val; rw [e']; omega

/-! ## What a point writes back -/

/-- The array the region leaves: the rectified combine layer of the six arrays as the region finds them. -/
abbrev layer1 (c : Dev nD) : Cert.Spec.Nodes.Idx → EReal :=
  Cert.Spec.rectified (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))

/-- What point t writes back is block t of the layer's array. -/
theorem flushed1_eq (c : Dev nD) (t : Fin cfg1.N) :
    (dat1 (F := Ideal) V c).flushed 6 t = ((cfg1.win 6).blk t).view.read (Elt Ideal) (layer1 V c) := by
  show (cfg1.win 6).cut (cfg1.grid.coords t) ((dat1 V c).after 6 t) = _
  rw [after1_6]
  unfold outBlock1
  rw [View.canon_unit_zero hz1]
  simp only [View.ld_unit_zero (S := S10000x64) hz1, View.ld_unit_zero (S := S64x64) hz1, View.ld_unit_zero (S := S1x64) hz1, View.ld_unit_zero (S := S1x1) hz1]
  obtain ⟨-, -, -, -, -, -, -, -, -, -, -, -, e, e'⟩ := idx1_facts t
  funext j
  show k1_pay1 (blk1 V c 0 t) (blk1 V c 1 t) (blk1 V c 2 t) (blk1 V c 3 t) (blk1 V c 4 t) (blk1 V c 5 t) ((cfg1.win 6).xinj (cfg1.grid.coords t) j)
    = layer1 V c (((cfg1.win 6).blk t).view.emb j)
  refine point1 (blk1 V c 0 t) (blk1 V c 1 t) (blk1 V c 2 t) (blk1 V c 3 t) (blk1 V c 4 t) (blk1 V c 5 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    t.val (rows1_0 V c t) (rows1_1 V c t) (whole1_2 V c t) (whole1_3 V c t) (whole1_4 V c t) (whole1_5 V c t)
    ((cfg1.win 6).xinj (cfg1.grid.coords t) j) (((cfg1.win 6).blk t).view.emb j) ?_ ?_
  · show win1_6.index t (0 : Fin 2) * 10000 + 1 * (j 0).val = t.val * 10000 + (j 0).val
    rw [e]; omega
  · show win1_6.index t (1 : Fin 2) * 64 + 1 * (j 1).val = (j 1).val
    rw [e']; omega

/-! ## The blocks cover the array -/

/-- An index of the array is in point t's block iff each coordinate is in the block's range on its axis. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v29).slice (win1_6.rect t)).set ↔ _
  rw [View.set_slice_whole, Rect.mem_set_unit]
  exact Iff.rfl

/-- Row r of the array lies in the block of point r / 10000, and every point writes its block back. -/
theorem cover1 (i : S100000x64.Idx) : ∃ t : Fin cfg1.N, (cfg1.win 6).flush t = true ∧ i ∈ ((cfg1.win 6).blk t).view.set := by
  have hr : (i 0).val < 100000 := (i 0).isLt
  have hq : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, -, -, -, -, e, e'⟩ := idx1_facts t
  refine ⟨t, flush1_6 t, ?_⟩
  rw [mem_blk1]
  intro a
  match a with
  | ⟨0, _⟩ =>
    show win1_6.index t (0 : Fin 2) * 10000 ≤ (i 0).val ∧ (i 0).val < win1_6.index t (0 : Fin 2) * 10000 + 10000
    rw [e, ht]; omega
  | ⟨1, _⟩ =>
    show win1_6.index t (1 : Fin 2) * 64 ≤ (i 1).val ∧ (i 1).val < win1_6.index t (1 : Fin 2) * 64 + 64
    rw [e']; omega

/-! ## The region's value -/

/-- THE VALUE OF REGION 1: its output array ends holding the rectified combine layer of the six input arrays as the
    region finds them. -/
theorem value1 (c : Dev nD) :
    (dat1 (F := Ideal) V c).arrAt 6 cfg1.N
      = Cert.Spec.rectified (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 (layer1 V c) (fun t _ => flushed1_eq V c t) cover1

end Cert.KernelIdeal.Hand

end
-- ==== Proof.KI.Val2Pay.lean ====
/-
  The arithmetic of region 2's body at one entry of its block: the two blocks of 10000 rows by 64 channels times their 64×64
  weights, added, plus the bias row; this last combine layer has no rectifier.  Read at row p and channel q of the block,
  on the extended reals:
      (∑ₖ A[p,k]·Wr[k,q]) + (∑ₖ X[p,k]·Wo[k,q]) + b[0,q].
  The contraction and the broadcast bias row at an index are those of the first layer's module.
-/
import proofs.«412716_j76287209112018_2_alg».proof.Proof.Gen.KernelIdeal.Skeleton
import proofs.«412716_j76287209112018_2_alg».proof.Proof.Spec
import proofs.«412716_j76287209112018_2_alg».proof.Proof.KI.Val0Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe
open Idealize.ShloMosaic.ValueIdx
open Cert.KernelIdeal Cert.KernelIdeal.Gen

/-- What the body stores, at row p and channel q of the block: the two contractions plus the bias. -/
theorem pay2_apply (xa xb : Vec Ideal S10000x64 .f32) (wa wb : Vec Ideal S64x64 .f32) (bb : Vec Ideal S1x64 .f32)
    (p : Fin 10000) (q : Fin 64) :
    k2_pay1 xa xb wa wb bb (ix2 p q)
      = ((∑ k : Fin 64, xa (ix2 p k) * wa (ix2 k q)) + (∑ k : Fin 64, xb (ix2 p k) * wb (ix2 k q))) + bb (ix2 0 q) := by
  unfold k2_pay1
  simp only [shapeCast_self]
  rw [addf_apply, addf_apply, matmulAt0, matmulAt0, rowAt0]
  rfl

end Cert.KernelIdeal.Hand

end
-- ==== Proof.KI.Val2.lean ====
/-
  The value of region 2: what the region leaves in its output array, as a function of the arrays it finds.
  At grid point t the body reads rows t·10000 … t·10000 + 9999 of the aggregated neighbour features and of the node
  features, and the whole of the two 64×64 weights and of the bias row; by the payload's arithmetic its stored block is,
  entry by entry, the combine layer (this last one has no rectifier) at the array's row t·10000 + p and channel q.  So
  every point writes back its block of ONE array, the layer of the five inputs; the ten blocks cover the 100000 rows
  (row r lies in the block of point r / 10000); hence the output array ends holding that layer.
-/
import proofs.«412716_j76287209112018_2_alg».proof.Proof.KI.Reg2
import proofs.«412716_j76287209112018_2_alg».proof.Proof.KI.Val2Pay
import proofs.«412716_j76287209112018_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-! ## One entry of a block, over literal shapes -/

theorem hzero2 : (![0, 0] : Fin 2 → Nat) = fun _ => 0 := funext fun a => by fin_cases a <;> rfl

/-- If the two feature blocks are rows n·10000 … of the arrays A and X, and the weight and bias blocks are the arrays
    themselves, the body's stored value at entry y of the block is the layer's value at the array entry i in
    row n·10000 + y₀ and channel y₁. -/
theorem point2 (xa xb : Vec Ideal S10000x64 .f32) (wa wb : Vec Ideal S64x64 .f32) (bb : Vec Ideal S1x64 .f32)
    (A X : Cert.Spec.Nodes.Idx → EReal) (Wr Wo : Cert.Spec.Sq.Idx → EReal) (b : Cert.Spec.Row.Idx → EReal)
    (n : ℕ)
    (hA : ∀ (y : S10000x64.Idx) (i : Cert.Spec.Nodes.Idx), (i 0).val = n * 10000 + (y 0).val → (i 1).val = (y 1).val → xa y = A i)
    (hX : ∀ (y : S10000x64.Idx) (i : Cert.Spec.Nodes.Idx), (i 0).val = n * 10000 + (y 0).val → (i 1).val = (y 1).val → xb y = X i)
    (hWr : wa = Wr) (hWo : wb = Wo) (hb : bb = b)
    (y : S10000x64.Idx) (i : Cert.Spec.Nodes.Idx) (hr : (i 0).val = n * 10000 + (y 0).val) (hq : (i 1).val = (y 1).val) :
    k2_pay1 xa xb wa wb bb y = Cert.Spec.linear A X Wr Wo b i := by
  subst hWr hWo hb
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  have hr' : r.val = n * 10000 + p.val := hr
  obtain rfl : s = q := Fin.ext hq
  have sA : ∑ k : Fin 64, xa (ix2 p k) * wa (ix2 k s) = ∑ k : Fin 64, A (ix2 r k) * wa (ix2 k s) :=
    Finset.sum_congr rfl fun k _ => by rw [hA (ix2 p k) (ix2 r k) hr' rfl]
  have sX : ∑ k : Fin 64, xb (ix2 p k) * wb (ix2 k s) = ∑ k : Fin 64, X (ix2 r k) * wb (ix2 k s) :=
    Finset.sum_congr rfl fun k _ => by rw [hX (ix2 p k) (ix2 r k) hr' rfl]
  rw [pay2_apply, sA, sX]
  rfl

/-! ## The blocks the body reads, as parts of the arrays -/

/-- The printed index maps over the grid: the three row-blocked windows sit at block row t, the weights' and the bias row's block indices are 0. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = t.val ∧ win2_6.index t (1 : Fin 2) = 0 :=
  (by decide +kernel : ∀ t : Fin grid2.N, _)

/-- Entry y of window 0's block at point t is the array's entry in row t·10000 + y₀, channel y₁. -/
theorem rows2_0 (c : Dev nD) (t : Fin cfg2.N) (y : S10000x64.Idx) (i : Cert.Spec.Nodes.Idx)
    (hr : (i 0).val = t.val * 10000 + (y 0).val) (hq : (i 1).val = (y 1).val) :
    (blk2 V c 0 t : Vec Ideal S10000x64 .f32) y = (V c (Pipeline.arrRef spec2 0) : Cert.Spec.Nodes.Idx → EReal) i := by
  obtain ⟨e, e', -⟩ := idx2_facts t
  show (V c (Pipeline.arrRef spec2 0) : Cert.Spec.Nodes.Idx → EReal) (((cfg2.win 0).blk t).view.emb y) = _
  refine congrArg _ (funext fun a => Fin.ext ?_)
  match a with
  | ⟨0, _⟩ => show win2_0.index t (0 : Fin 2) * 10000 + 1 * (y 0).val = (i 0).val; rw [e, hr]; omega
  | ⟨1, _⟩ => show win2_0.index t (1 : Fin 2) * 64 + 1 * (y 1).val = (i 1).val; rw [e', hq]; omega

/-- Entry y of window 1's block at point t is the array's entry in row t·10000 + y₀, channel y₁. -/
theorem rows2_1 (c : Dev nD) (t : Fin cfg2.N) (y : S10000x64.Idx) (i : Cert.Spec.Nodes.Idx)
    (hr : (i 0).val = t.val * 10000 + (y 0).val) (hq : (i 1).val = (y 1).val) :
    (blk2 V c 1 t : Vec Ideal S10000x64 .f32) y = (V c (Pipeline.arrRef spec2 1) : Cert.Spec.Nodes.Idx → EReal) i := by
  obtain ⟨-, -, e, e', -⟩ := idx2_facts t
  show (V c (Pipeline.arrRef spec2 1) : Cert.Spec.Nodes.Idx → EReal) (((cfg2.win 1).blk t).view.emb y) = _
  refine congrArg _ (funext fun a => Fin.ext ?_)
  match a with
  | ⟨0, _⟩ => show win2_1.index t (0 : Fin 2) * 10000 + 1 * (y 0).val = (i 0).val; rw [e, hr]; omega
  | ⟨1, _⟩ => show win2_1.index t (1 : Fin 2) * 64 + 1 * (y 1).val = (i 1).val; rw [e', hq]; omega

/-- Window 2's block is the whole weight array at every point. -/
theorem whole2_2 (c : Dev nD) (t : Fin cfg2.N) :
    (blk2 V c 2 t : Vec Ideal S64x64 .f32) = (V c (Pipeline.arrRef spec2 2) : Cert.Spec.Sq.Idx → EReal) := by
  obtain ⟨-, -, -, -, e, e', -⟩ := idx2_facts t
  funext y
  show (V c (Pipeline.arrRef spec2 2) : Cert.Spec.Sq.Idx → EReal) (((cfg2.win 2).blk t).view.emb y) = _
  refine congrArg _ (funext fun a => Fin.ext ?_)
  match a with
  | ⟨0, _⟩ => show win2_2.index t (0 : Fin 2) * 64 + 1 * (y 0).val = (y 0).val; rw [e]; omega
  | ⟨1, _⟩ => show win2_2.index t (1 : Fin 2) * 64 + 1 * (y 1).val = (y 1).val; rw [e']; omega

/-- Window 3's block is the whole weight array at every point. -/
theorem whole2_3 (c : Dev nD) (t : Fin cfg2.N) :
    (blk2 V c 3 t : Vec Ideal S64x64 .f32) = (V c (Pipeline.arrRef spec2 3) : Cert.Spec.Sq.Idx → EReal) := by
  obtain ⟨-, -, -, -, -, -, e, e', -⟩ := idx2_facts t
  funext y
  show (V c (Pipeline.arrRef spec2 3) : Cert.Spec.Sq.Idx → EReal) (((cfg2.win 3).blk t).view.emb y) = _
  refine congrArg _ (funext fun a => Fin.ext ?_)
  match a with
  | ⟨0, _⟩ => show win2_3.index t (0 : Fin 2) * 64 + 1 * (y 0).val = (y 0).val; rw [e]; omega
  | ⟨1, _⟩ => show win2_3.index t (1 : Fin 2) * 64 + 1 * (y 1).val = (y 1).val; rw [e']; omega

/-- Window 4's block is the whole bias row at every point. -/
theorem whole2_4 (c : Dev nD) (t : Fin cfg2.N) :
    (blk2 V c 4 t : Vec Ideal S1x64 .f32) = (V c (Pipeline.arrRef spec2 4) : Cert.Spec.Row.Idx → EReal) := by
  obtain ⟨-, -, -, -, -, -, -, -, e, e', -⟩ := idx2_facts t
  funext y
  show (V c (Pipeline.arrRef spec2 4) : Cert.Spec.Row.Idx → EReal) (((cfg2.win 4).blk t).view.emb y) = _
  refine congrArg _ (funext fun a => Fin.ext ?_)
  match a with
  | ⟨0, _⟩ => show win2_4.index t (0 : Fin 2) * 1 + 1 * (y 0).val = (y 0).val; rw [e]; omega
  | ⟨1, _⟩ => show win2_4.index t (1 : Fin 2) * 64 + 1 * (y 1).val = (y 1).val; rw [e']; omega

/-! ## What a point writes back -/

/-- The array the region leaves: the combine layer of the five arrays as the region finds them. -/
abbrev layer2 (c : Dev nD) : Cert.Spec.Nodes.Idx → EReal :=
  Cert.Spec.linear (V c (Pipeline.arrRef spec2 0)) (V c (Pipeline.arrRef spec2 1)) (V c (Pipeline.arrRef spec2 2)) (V c (Pipeline.arrRef spec2 3)) (V c (Pipeline.arrRef spec2 4))

/-- What point t writes back is block t of the layer's array. -/
theorem flushed2_eq (c : Dev nD) (t : Fin cfg2.N) :
    (dat2 (F := Ideal) V c).flushed 6 t = ((cfg2.win 6).blk t).view.read (Elt Ideal) (layer2 V c) := by
  show (cfg2.win 6).cut (cfg2.grid.coords t) ((dat2 V c).after 6 t) = _
  rw [after2_6]
  unfold outBlock2
  rw [View.canon_unit_zero hzero2]
  simp only [View.ld_unit_zero (S := S10000x64) hzero2, View.ld_unit_zero (S := S64x64) hzero2, View.ld_unit_zero (S := S1x64) hzero2]
  obtain ⟨-, -, -, -, -, -, -, -, -, -, e, e'⟩ := idx2_facts t
  funext j
  show k2_pay1 (blk2 V c 0 t) (blk2 V c 1 t) (blk2 V c 2 t) (blk2 V c 3 t) (blk2 V c 4 t) ((cfg2.win 6).xinj (cfg2.grid.coords t) j)
    = layer2 V c (((cfg2.win 6).blk t).view.emb j)
  refine point2 (blk2 V c 0 t) (blk2 V c 1 t) (blk2 V c 2 t) (blk2 V c 3 t) (blk2 V c 4 t)
    (V c (Pipeline.arrRef spec2 0)) (V c (Pipeline.arrRef spec2 1)) (V c (Pipeline.arrRef spec2 2)) (V c (Pipeline.arrRef spec2 3)) (V c (Pipeline.arrRef spec2 4))
    t.val (rows2_0 V c t) (rows2_1 V c t) (whole2_2 V c t) (whole2_3 V c t) (whole2_4 V c t)
    ((cfg2.win 6).xinj (cfg2.grid.coords t) j) (((cfg2.win 6).blk t).view.emb j) ?_ ?_
  · show win2_6.index t (0 : Fin 2) * 10000 + 1 * (j 0).val = t.val * 10000 + (j 0).val
    rw [e]; omega
  · show win2_6.index t (1 : Fin 2) * 64 + 1 * (j 1).val = (j 1).val
    rw [e']; omega

/-! ## The blocks cover the array -/

/-- An index of the array is in point t's block iff each coordinate is in the block's range on its axis. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v42).slice (win2_6.rect t)).set ↔ _
  rw [View.set_slice_whole, Rect.mem_set_unit]
  exact Iff.rfl

/-- Row r of the array lies in the block of point r / 10000, and every point writes its block back. -/
theorem cover2 (i : S100000x64.Idx) : ∃ t : Fin cfg2.N, (cfg2.win 6).flush t = true ∧ i ∈ ((cfg2.win 6).blk t).view.set := by
  have hr : (i 0).val < 100000 := (i 0).isLt
  have hq : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, e, e'⟩ := idx2_facts t
  refine ⟨t, flush2_6 t, ?_⟩
  rw [mem_blk2]
  intro a
  match a with
  | ⟨0, _⟩ =>
    show win2_6.index t (0 : Fin 2) * 10000 ≤ (i 0).val ∧ (i 0).val < win2_6.index t (0 : Fin 2) * 10000 + 10000
    rw [e, ht]; omega
  | ⟨1, _⟩ =>
    show win2_6.index t (1 : Fin 2) * 64 ≤ (i 1).val ∧ (i 1).val < win2_6.index t (1 : Fin 2) * 64 + 64
    rw [e']; omega

/-! ## The region's value -/

/-- THE VALUE OF REGION 2: its output array ends holding the combine layer, without rectifier, of the five input arrays
    as the region finds them. -/
theorem value2 (c : Dev nD) :
    (dat2 (F := Ideal) V c).arrAt 6 cfg2.N
      = Cert.Spec.linear (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 6 (layer2 V c) (fun t _ => flushed2_eq V c t) cover2

end Cert.KernelIdeal.Hand

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.KI.Val3Pay.lean ====
/-
  The pooling head's arithmetic, one element at a time, at the extended reals.
  A block of 10000 rows carries an id word per row and 64 channels per row. The membership mask is set at (p, g)
  exactly when row p's id word is g; its one-hot value is 1 there and 0 elsewhere. Contracting the one-hot block
  against the feature block over the rows adds, to entry (g, f) of the 64×64 accumulator, the sum of channel f over the
  block's rows of graph g; summing the one-hot block over the rows adds, to entry g of the count column, the number of
  those rows. The finishing step divides each pooled row by the larger of its count and one and applies two affine maps.
  Last, a sum over 100000 rows is the sum over ten consecutive blocks of 10000 rows, and the sum over the first n + 1
  blocks is the sum over the first n plus block n's.
-/
import proofs.«412716_j76287209112018_2_alg».proof.Proof.Gen.KernelIdeal.Skeleton
import proofs.«412716_j76287209112018_2_alg».proof.Proof.Spec
import proofs.«412716_j76287209112018_2_alg».proof.Proof.LibSums
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe
open Idealize.ShloMosaic.ValueIdx
open Cert.KernelIdeal Cert.KernelIdeal.Gen

/-! ## Layout operations on a column, read at an index -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to a column `[a, 1]` reads its one entry everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end Layout

/-! ## The two zero blocks -/

/-- The 64×64 block the first grid point stores is zero everywhere. -/
theorem pool_pay1_apply (g f : Fin 64) : (k3_pay1 (F := Ideal)) (ix2 g f) = 0 := by
  unfold k3_pay1
  rw [shapeCast_self]
  exact Ideal.ofBits_zero_f32

/-- The 64×1 column the first grid point stores is zero everywhere. -/
theorem pool_pay2_apply (g : Fin 64) (u : Fin 1) : (k3_pay2 (F := Ideal)) (ix2 g u) = 0 := by
  unfold k3_pay2
  rw [shapeCast_self]
  exact Ideal.ofBits_zero_f32

/-! ## The membership mask and its one-hot value -/

/-- The word comparison for equality is the bit of the equation. -/
theorem cmpi_eq_ite (x y : BitVec 32) : IntOp.cmpi .eq x y = if x = y then 1#1 else 0#1 := by
  show BitVec.ofBool (x == y) = _
  by_cases h : x = y
  · rw [if_pos h, h, beq_self_eq_true]; rfl
  · rw [if_neg h, beq_eq_false_iff_ne.2 h]; rfl

/-- The mask at row `p`, graph `g`: set exactly when the row's id word is `g`. -/
theorem pool_pay3_apply (b : Vec Ideal S10000x1 .i32) (p : Fin 10000) (g : Fin 64) :
    k3_pay3 (F := Ideal) b (ix2 p g) = if b (ix2 p (0 : Fin 1)) = BitVec.ofNat 32 g.val then 1#1 else 0#1 := by
  unfold k3_pay3
  rw [shapeCast_self]
  show IntOp.cmpi .eq (broadcastTo S10000x64 b broadcasts_S10000x1_S10000x64 (ix2 p g))
      (broadcastTo S10000x64 (iota .tc S1x64 32 [1] iota_S1x64_d1_w32) broadcasts_S1x64_S10000x64 (ix2 p g)) = _
  rw [broadcastTo_a1_ab_apply, broadcastTo_1b_ab_apply, iota_single_apply]
  exact cmpi_eq_ite _ _

/-- A set mask bit, widened to a word and converted, is one. -/
theorem onehot_one : (FloatOps.sitofp (F := Ideal) .f32 ((1#1 : BitVec 1).setWidth 32) : EReal) = 1 := by
  show (((((1#1 : BitVec 1).setWidth 32).toInt : ℤ) : ℝ) : EReal) = 1
  have h : ((1#1 : BitVec 1).setWidth 32).toInt = 1 := by decide
  rw [h]; norm_cast

/-- A clear mask bit, widened to a word and converted, is zero. -/
theorem onehot_zero : (FloatOps.sitofp (F := Ideal) .f32 ((0#1 : BitVec 1).setWidth 32) : EReal) = 0 := by
  show (((((0#1 : BitVec 1).setWidth 32).toInt : ℤ) : ℝ) : EReal) = 0
  have h : ((0#1 : BitVec 1).setWidth 32).toInt = 0 := by decide
  rw [h]; norm_cast

/-- The one-hot value at row `p`, graph `g`: one when the row's id word is `g`, zero otherwise. -/
theorem onehot_apply (b : Vec Ideal S10000x1 .i32) (p : Fin 10000) (g : Fin 64) :
    (sitofp .f32 (extui 32 (k3_pay3 (F := Ideal) b) natLt_1_32) : FVec Ideal S10000x64 .f32) (ix2 p g)
      = if b (ix2 p (0 : Fin 1)) = BitVec.ofNat 32 g.val then (1 : EReal) else 0 := by
  rw [sitofp_apply, extui_apply, pool_pay3_apply]
  by_cases hb : b (ix2 p (0 : Fin 1)) = BitVec.ofNat 32 g.val
  · rw [if_pos hb, if_pos hb]; exact onehot_one
  · rw [if_neg hb, if_neg hb]; exact onehot_zero

/-! ## The pooling product: the contraction runs over the rows of both operands -/

theorem lhs_pool_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs_pool_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs_pool_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs_pool_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- The product of two 10000×64 blocks contracted over their rows, into zero, at `(g, f)`: the sum over the rows `p` of
    the left block at `(p, g)` times the right block at `(p, f)`. -/
theorem pool_matmul_apply (l r : FVec Ideal S10000x64 .bf16) (g f : Fin 64) :
    matmul dot_S10000x64_S10000x64_S64x64_0_0_1_1_n_n none l r (constant (F := Ideal) S64x64 .f32 0x00000000#32) (ix2 g f)
      = ∑ p : Fin 10000, l (ix2 p g) * r (ix2 p f) := by
  simp only [matmul]
  rw [Ideal.matmul_constant_zero_apply, ← Equiv.sum_comp (contrEquiv1 dot_S10000x64_S10000x64_S64x64_0_0_1_1_n_n 10000 rfl rfl).symm]
  refine Finset.sum_congr rfl fun k _ => ?_
  have hk := contrEquiv1_symm_val dot_S10000x64_S10000x64_S64x64_0_0_1_1_n_n 10000 rfl rfl k
  have el : dot_S10000x64_S10000x64_S64x64_0_0_1_1_n_n.lhsIdx (ix2 g f) ((contrEquiv1 dot_S10000x64_S10000x64_S64x64_0_0_1_1_n_n 10000 rfl rfl).symm k) = ix2 k g := funext fun a => Fin.ext (by
    match a with
    | ⟨0, _⟩ => exact (lhs_pool_0 _ _).trans hk
    | ⟨1, _⟩ => exact lhs_pool_1 _ _)
  have er : dot_S10000x64_S10000x64_S64x64_0_0_1_1_n_n.rhsIdx (ix2 g f) ((contrEquiv1 dot_S10000x64_S10000x64_S64x64_0_0_1_1_n_n 10000 rfl rfl).symm k) = ix2 k f := funext fun a => Fin.ext (by
    match a with
    | ⟨0, _⟩ => exact (rhs_pool_0 _ _).trans hk
    | ⟨1, _⟩ => exact rhs_pool_1 _ _)
  rw [el, er]

/-- The accumulated pooled block at `(g, f)`: what was there plus the sum, over the block's rows whose id word is `g`,
    of channel `f`. -/
theorem pool_pay4_apply (b : Vec Ideal S10000x1 .i32) (h : Vec Ideal S10000x64 .f32) (a : Vec Ideal S64x64 .f32) (g f : Fin 64) :
    k3_pay4 (F := Ideal) b h a (ix2 g f)
      = a (ix2 g f) + ∑ p : Fin 10000, (if b (ix2 p (0 : Fin 1)) = BitVec.ofNat 32 g.val then h (ix2 p f) else 0) := by
  unfold k3_pay4
  rw [shapeCast_self, shapeCast_self, addf_apply, pool_matmul_apply]
  refine congrArg (a (ix2 g f) + ·) (Finset.sum_congr rfl fun p _ => ?_)
  rw [truncf_apply, truncf_apply, onehot_apply]
  by_cases hb : b (ix2 p (0 : Fin 1)) = BitVec.ofNat 32 g.val
  · rw [if_pos hb, if_pos hb, one_mul]
  · rw [if_neg hb, if_neg hb, zero_mul]

/-! ## The count column -/

/-- The accumulated count column at `(g, 0)`: what was there plus the number of the block's rows whose id word is `g`. -/
theorem pool_pay5_apply (b : Vec Ideal S10000x1 .i32) (n : Vec Ideal S64x1 .f32) (g : Fin 64) :
    k3_pay5 (F := Ideal) b n (ix2 g (0 : Fin 1))
      = n (ix2 g (0 : Fin 1)) + ∑ p : Fin 10000, (if b (ix2 p (0 : Fin 1)) = BitVec.ofNat 32 g.val then (1 : EReal) else 0) := by
  unfold k3_pay5
  rw [shapeCast_self, addf_apply, shapeCast_a_a1_apply]
  refine congrArg (n (ix2 g (0 : Fin 1)) + ·) ?_
  refine (Ideal.multiReduction_add_single (sitofp .f32 (extui 32 (k3_pay3 (F := Ideal) b) natLt_1_32)) 0x00000000#32
    reduces_S10000x64_S64 (.inl rfl) rfl (ix1 g)).trans ?_
  refine Finset.sum_congr rfl fun p _ => ?_
  have e : reduces_S10000x64_S64.lift (ix1 g) p = ix2 p g :=
    funext fun a => Fin.ext (by match a with | ⟨0, _⟩ => rfl | ⟨1, _⟩ => rfl)
  rw [e]
  exact onehot_apply b p g

/-! ## The head's two affine maps -/

theorem lhs_head1_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem lhs_head1_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem rhs_head1_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem rhs_head1_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- A 64×64 block times a 64×64 block, into zero, at `(g, j)`: row `g` of the left against column `j` of the right. -/
theorem head1_matmul_apply (l r : FVec Ideal S64x64 .bf16) (g j : Fin 64) :
    matmul dot_S64x64_S64x64_S64x64_1_0_0_1_n_n none l r (constant (F := Ideal) S64x64 .f32 0x00000000#32) (ix2 g j)
      = ∑ f : Fin 64, l (ix2 g f) * r (ix2 f j) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 g j) ((contrEquiv1 dot_S64x64_S64x64_S64x64_1_0_0_1_n_n 64 rfl rfl).symm k) = ix2 g k := funext fun a => Fin.ext (by
    match a with
    | ⟨0, _⟩ => exact lhs_head1_0 _ _
    | ⟨1, _⟩ => exact (lhs_head1_1 _ _).trans hk)
  have er : dot_S64x64_S64x64_S64x64_1_0_0_1_n_n.rhsIdx (ix2 g j) ((contrEquiv1 dot_S64x64_S64x64_S64x64_1_0_0_1_n_n 64 rfl rfl).symm k) = ix2 k j := funext fun a => Fin.ext (by
    match a with
    | ⟨0, _⟩ => exact (rhs_head1_0 _ _).trans hk
    | ⟨1, _⟩ => exact rhs_head1_1 _ _)
  rw [el, er]

theorem lhs_head2_0 (i : S64x1.Idx) (q : dot_S64x64_S64x1_S64x1_1_0_0_1_n_n.contr.Idx) :
    (dot_S64x64_S64x1_S64x1_1_0_0_1_n_n.lhsIdx i q 0).val = (i 0).val := by
  unfold DotDims.lhsIdx
  rw [dif_neg (show ¬(0 : Fin S64x64.rank) ∈ dot_S64x64_S64x1_S64x1_1_0_0_1_n_n.lhsBatch by decide), dif_pos (show (0 : Fin S64x64.rank) ∈ dot_S64x64_S64x1_S64x1_1_0_0_1_n_n.lhsNonContracting by decide)]
  rfl
theorem lhs_head2_1 (i : S64x1.Idx) (q : dot_S64x64_S64x1_S64x1_1_0_0_1_n_n.contr.Idx) :
    (dot_S64x64_S64x1_S64x1_1_0_0_1_n_n.lhsIdx i q 1).val = (q ⟨0, by decide⟩).val :=
  dot_S64x64_S64x1_S64x1_1_0_0_1_n_n.lhsIdx_val_of_single rfl i q
theorem rhs_head2_0 (i : S64x1.Idx) (q : dot_S64x64_S64x1_S64x1_1_0_0_1_n_n.contr.Idx) :
    (dot_S64x64_S64x1_S64x1_1_0_0_1_n_n.rhsIdx i q 0).val = (q ⟨0, by decide⟩).val :=
  dot_S64x64_S64x1_S64x1_1_0_0_1_n_n.rhsIdx_val_of_single rfl i q
theorem rhs_head2_1 (i : S64x1.Idx) (q : dot_S64x64_S64x1_S64x1_1_0_0_1_n_n.contr.Idx) :
    (dot_S64x64_S64x1_S64x1_1_0_0_1_n_n.rhsIdx i q 1).val = (i 1).val := by
  unfold DotDims.rhsIdx
  rw [dif_neg (show ¬(1 : Fin S64x1.rank) ∈ dot_S64x64_S64x1_S64x1_1_0_0_1_n_n.rhsBatch by decide), dif_pos (show (1 : Fin S64x1.rank) ∈ dot_S64x64_S64x1_S64x1_1_0_0_1_n_n.rhsNonContracting by decide)]
  rfl

/-- A 64×64 block times a 64×1 column, into zero, at `(g, 0)`: row `g` of the left against the column. -/
theorem head2_matmul_apply (l : FVec Ideal S64x64 .bf16) (r : FVec Ideal S64x1 .bf16) (g : Fin 64) :
    matmul dot_S64x64_S64x1_S64x1_1_0_0_1_n_n none l r (constant (F := Ideal) S64x1 .f32 0x00000000#32) (ix2 g (0 : Fin 1))
      = ∑ j : Fin 64, l (ix2 g j) * r (ix2 j (0 : Fin 1)) := by
  simp only [matmul]
  rw [Ideal.matmul_constant_zero_apply, ← Equiv.sum_comp (contrEquiv1 dot_S64x64_S64x1_S64x1_1_0_0_1_n_n 64 rfl rfl).symm]
  refine Finset.sum_congr rfl fun k _ => ?_
  have hk := contrEquiv1_symm_val dot_S64x64_S64x1_S64x1_1_0_0_1_n_n 64 rfl rfl k
  have el : dot_S64x64_S64x1_S64x1_1_0_0_1_n_n.lhsIdx (ix2 g (0 : Fin 1)) ((contrEquiv1 dot_S64x64_S64x1_S64x1_1_0_0_1_n_n 64 rfl rfl).symm k) = ix2 g k := funext fun a => Fin.ext (by
    match a with
    | ⟨0, _⟩ => exact lhs_head2_0 _ _
    | ⟨1, _⟩ => exact (lhs_head2_1 _ _).trans hk)
  have er : dot_S64x64_S64x1_S64x1_1_0_0_1_n_n.rhsIdx (ix2 g (0 : Fin 1)) ((contrEquiv1 dot_S64x64_S64x1_S64x1_1_0_0_1_n_n 64 rfl rfl).symm k) = ix2 k (0 : Fin 1) := funext fun a => Fin.ext (by
    match a with
    | ⟨0, _⟩ => exact (rhs_head2_0 _ _).trans hk
    | ⟨1, _⟩ => exact rhs_head2_1 _ _)
  rw [el, er]

/-- The head's result at `(g, 0)`: row `g` of the pooled sums over the larger of the count and one, through the two affine maps. -/
theorem pool_pay6_apply (s : Vec Ideal S64x64 .f32) (n : Vec Ideal S64x1 .f32) (w0 : Vec Ideal S64x64 .f32) (b0 : Vec Ideal S1x64 .f32)
    (w1 : Vec Ideal S64x1 .f32) (b1 : Vec Ideal S1x1 .f32) (g : Fin 64) :
    k3_pay6 (F := Ideal) s n w0 b0 w1 b1 (ix2 g (0 : Fin 1))
      = (∑ j : Fin 64, ((∑ f : Fin 64, Ideal.div (s (ix2 g f)) (max (n (ix2 g (0 : Fin 1))) (Ideal.ofBits .f32 0x3F800000#32)) * w0 (ix2 f j))
          + b0 (ix2 (0 : Fin 1) j)) * w1 (ix2 j (0 : Fin 1))) + b1 (ix2 (0 : Fin 1) (0 : Fin 1)) := by
  unfold k3_pay6
  simp only [shapeCast_self]
  rw [addf_apply, broadcastTo_11_a1_apply, head2_matmul_apply]
  refine congrArg (· + b1 (ix2 (0 : Fin 1) (0 : Fin 1))) (Finset.sum_congr rfl fun j _ => ?_)
  rw [truncf_apply, truncf_apply, addf_apply, broadcastTo_1b_ab_apply, head1_matmul_apply]
  refine congrArg (fun x => (x + b0 (ix2 (0 : Fin 1) j)) * w1 (ix2 j (0 : Fin 1))) (Finset.sum_congr rfl fun f _ => ?_)
  rw [truncf_apply, truncf_apply, divf_apply, broadcastTo_a1_ab_apply, maximumf_apply]
  rfl

/-! ## Sums over the 100000 rows, block by block -/

/-- Row `p` of block `t` is a row of the array. -/
theorem row_lt {t : ℕ} (ht : t < 10) (p : Fin 10000) : t * 10000 + p.val < 100000 := by
  have := p.isLt; omega

/-- The sum of `F` over the rows of block `t`. -/
def blockSum (F : Fin 100000 → EReal) (t : ℕ) (ht : t < 10) : EReal :=
  ∑ p : Fin 10000, F ⟨t * 10000 + p.val, row_lt ht p⟩

/-- The sum of `F` over the rows of the first `n` blocks. -/
def uptoSum (F : Fin 100000 → EReal) (n : ℕ) (hn : n ≤ 10) : EReal :=
  ∑ t : Fin n, blockSum F t.val (lt_of_lt_of_le t.isLt hn)

/-- No blocks, no sum. -/
theorem uptoSum_zero (F : Fin 100000 → EReal) : uptoSum F 0 (Nat.zero_le _) = 0 := by
  unfold uptoSum
  exact Finset.sum_empty

/-- One block more adds that block's sum. -/
theorem uptoSum_succ (F : Fin 100000 → EReal) (n : ℕ) (hn : n + 1 ≤ 10) :
    uptoSum F (n + 1) hn = uptoSum F n (Nat.le_of_succ_le hn) + blockSum F n hn := by
  unfold uptoSum
  rw [Fin.sum_univ_castSucc]
  rfl

/-- All ten blocks are the whole array. -/
theorem uptoSum_all (F : Fin 100000 → EReal) : uptoSum F 10 (Nat.le_refl _) = ∑ r : Fin 100000, F r := by
  unfold uptoSum blockSum
  exact Cert.LibSums.sum_blocks 10 10000 F

end Cert.KernelIdeal.Hand

end
-- ==== Proof.KI.Val3.lean ====
/-
  What the pooling head leaves in its 64×1 result array, for any contents V of the core's arrays when the region is
  entered. Each of the ten grid points reads one block of 10000 rows: row p of the block at point t is row t·10000 + p
  of the feature array and of the id column, and the four parameter windows always show their whole arrays. By
  induction over the points, the two accumulators after point n hold, at graph g, the sum of each channel over the rows
  of graph g in the first n + 1 blocks and the number of those rows; after the last point these are the pooled sums and
  the counts over all 100000 rows. The result window is written back at the last point only, its block is the whole
  array, and what is written there is the head applied to the final accumulators: the head of the network, entry by entry.
-/
import proofs.«412716_j76287209112018_2_alg».proof.Proof.KI.Reg3
import proofs.«412716_j76287209112018_2_alg».proof.Proof.KI.Val3Pay
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-! ## Where each window's block sits in its array -/

/-- The block indices over the grid: the feature rows and the id words move one block of 10000 rows per point; every
    other window stays on its one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The feature block at point `t`, at its literal shape. -/
def featBlk (c : Dev nD) (t : Fin cfg3.N) : Vec Ideal S10000x64 .f32 := blk3 V c 0 t
/-- The id block at point `t`, at its literal shape. -/
def idBlk (c : Dev nD) (t : Fin cfg3.N) : Vec Ideal S10000x1 .i32 := blk3 V c 1 t

/-- Row `p`, channel `f` of the feature block at point `t` is row `t·10000 + p` of the feature array. -/
theorem blk_feat (c : Dev nD) (t : Fin cfg3.N) (ht : t.val < 10) (p : Fin 10000) (f : Fin 64) :
    featBlk V c t (ix2 p f) = V c (Pipeline.arrRef spec3 0) (ix2 (⟨t.val * 10000 + p.val, row_lt ht p⟩ : Fin 100000) f) := by
  obtain ⟨e0, e1, -⟩ := idx_facts3 t
  show V c (Pipeline.arrRef spec3 0) (((cfg3.win 0).blk t).view.emb (ix2 p f)) = _
  refine congrArg (V c (Pipeline.arrRef spec3 0)) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * f.val = f.val; omega

/-- Row `p` of the id block at point `t` is row `t·10000 + p` of the id column. -/
theorem blk_ids (c : Dev nD) (t : Fin cfg3.N) (ht : t.val < 10) (p : Fin 10000) :
    idBlk V c t (ix2 p (0 : Fin 1)) = V c (Pipeline.arrRef spec3 1) (ix2 (⟨t.val * 10000 + p.val, row_lt ht p⟩ : Fin 100000) (0 : Fin 1)) := by
  obtain ⟨-, -, e0, e1, -⟩ := idx_facts3 t
  show V c (Pipeline.arrRef spec3 1) (((cfg3.win 1).blk t).view.emb (ix2 p (0 : Fin 1))) = _
  refine congrArg (V c (Pipeline.arrRef spec3 1)) (funext fun a => Fin.ext ?_)
  match a with
  | ⟨0, _⟩ => show win3_1.index t (0 : Fin 2) * 10000 + 1 * p.val = t.val * 10000 + p.val; omega
  | ⟨1, _⟩ => show win3_1.index t (1 : Fin 2) * 1 + 1 * 0 = 0; omega

/-- The first weight's block is the weight. -/
theorem blk_w0 (c : Dev nD) (t : Fin cfg3.N) (f j : Fin 64) :
    blk3 V c 2 t (ix2 f j) = V c (Pipeline.arrRef spec3 2) (ix2 f j) := by
  obtain ⟨-, -, -, -, e0, e1, -⟩ := idx_facts3 t
  show V c (Pipeline.arrRef spec3 2) (((cfg3.win 2).blk t).view.emb (ix2 f j)) = _
  refine congrArg (V c (Pipeline.arrRef spec3 2)) (funext fun a => Fin.ext ?_)
  match a with
  | ⟨0, _⟩ => show win3_2.index t (0 : Fin 2) * 64 + 1 * f.val = f.val; omega
  | ⟨1, _⟩ => show win3_2.index t (1 : Fin 2) * 64 + 1 * j.val = j.val; omega

/-- The first bias row's block is the row. -/
theorem blk_b0 (c : Dev nD) (t : Fin cfg3.N) (j : Fin 64) :
    blk3 V c 3 t (ix2 (0 : Fin 1) j) = V c (Pipeline.arrRef spec3 3) (ix2 (0 : Fin 1) j) := by
  obtain ⟨-, -, -, -, -, -, e0, e1, -⟩ := idx_facts3 t
  show V c (Pipeline.arrRef spec3 3) (((cfg3.win 3).blk t).view.emb (ix2 (0 : Fin 1) j)) = _
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 64 + 1 * j.val = j.val; omega

/-- The second weight's block is the weight column. -/
theorem blk_w1 (c : Dev nD) (t : Fin cfg3.N) (j : Fin 64) :
    blk3 V c 4 t (ix2 j (0 : Fin 1)) = V c (Pipeline.arrRef spec3 4) (ix2 j (0 : Fin 1)) := by
  obtain ⟨-, -, -, -, -, -, -, -, e0, e1, -⟩ := idx_facts3 t
  show V c (Pipeline.arrRef spec3 4) (((cfg3.win 4).blk t).view.emb (ix2 j (0 : Fin 1))) = _
  refine congrArg (V c (Pipeline.arrRef spec3 4)) (funext fun a => Fin.ext ?_)
  match a with
  | ⟨0, _⟩ => show win3_4.index t (0 : Fin 2) * 64 + 1 * j.val = j.val; omega
  | ⟨1, _⟩ => show win3_4.index t (1 : Fin 2) * 1 + 1 * 0 = 0; omega

/-- The second bias's block is the bias. -/
theorem blk_b1 (c : Dev nD) (t : Fin cfg3.N) :
    blk3 V c 5 t (ix2 (0 : Fin 1) (0 : Fin 1)) = V c (Pipeline.arrRef spec3 5) (ix2 (0 : Fin 1) (0 : Fin 1)) := by
  obtain ⟨-, -, -, -, -, -, -, -, -, -, e0, e1, -⟩ := idx_facts3 t
  show V c (Pipeline.arrRef spec3 5) (((cfg3.win 5).blk t).view.emb (ix2 (0 : Fin 1) (0 : Fin 1))) = _
  refine congrArg (V c (Pipeline.arrRef spec3 5)) (funext fun a => Fin.ext ?_)
  match a with
  | ⟨0, _⟩ => show win3_5.index t (0 : Fin 2) * 1 + 1 * 0 = 0; omega
  | ⟨1, _⟩ => show win3_5.index t (1 : Fin 2) * 1 + 1 * 0 = 0; omega

/-! ## The accumulators after each point -/

/-- Channel `f` of row `r` where the row belongs to graph `g`, zero elsewhere. -/
def poolF (c : Dev nD) (g f : Fin 64) : Fin 100000 → EReal :=
  fun r => if (V c (Pipeline.arrRef spec3 1) (ix2 r (0 : Fin 1)) : BitVec 32) = BitVec.ofNat 32 g.val then (V c (Pipeline.arrRef spec3 0)) (ix2 r f) else 0

/-- One where row `r` belongs to graph `g`, zero elsewhere. -/
def countF (c : Dev nD) (g : Fin 64) : Fin 100000 → EReal :=
  fun r => if (V c (Pipeline.arrRef spec3 1) (ix2 r (0 : Fin 1)) : BitVec 32) = BitVec.ofNat 32 g.val then (1 : EReal) else 0

/-- What the block at point `t` adds to the pooled sum at `(g, f)`. -/
theorem block_pool (c : Dev nD) (g f : Fin 64) (t : Fin cfg3.N) (ht : t.val < 10) :
    (∑ p : Fin 10000, (if idBlk V c t (ix2 p (0 : Fin 1)) = BitVec.ofNat 32 g.val then featBlk V c t (ix2 p f) else 0))
      = blockSum (poolF V c g f) t.val ht := by
  unfold blockSum poolF
  refine Finset.sum_congr rfl fun p _ => ?_
  rw [blk_feat V c t ht p f, blk_ids V c t ht p]

/-- What the block at point `t` adds to the count of graph `g`. -/
theorem block_count (c : Dev nD) (g : Fin 64) (t : Fin cfg3.N) (ht : t.val < 10) :
    (∑ p : Fin 10000, (if idBlk V c t (ix2 p (0 : Fin 1)) = BitVec.ofNat 32 g.val then (1 : EReal) else 0))
      = blockSum (countF V c g) t.val ht := by
  unfold blockSum countF
  refine Finset.sum_congr rfl fun p _ => ?_
  rw [blk_ids V c t ht p]

/-- After point `n` the pooled accumulator holds, at `(g, f)`, the sum of channel `f` over the rows of graph `g` in the
    first `n + 1` blocks. -/
theorem acc3_pooled (c : Dev nD) (g f : Fin 64) : ∀ (n : ℕ) (hn : n + 1 ≤ 10),
    (acc3 V c n).1 (ix2 g f) = uptoSum (poolF V c g f) (n + 1) hn
  | 0, hn => by
    rw [acc3_zero]
    refine (pool_pay4_apply _ _ _ g f).trans ?_
    rw [pool_pay1_apply, zero_add, uptoSum_succ, uptoSum_zero, zero_add]
    exact block_pool V c g f t3_0 (by decide)
  | n + 1, hn => by
    have hN : cfg3.N = 10 := N_3
    have h : n + 1 < cfg3.N := by omega
    rw [acc3_succ V c n h]
    refine (pool_pay4_apply _ _ _ g f).trans ?_
    rw [acc3_pooled c g f n (by omega), uptoSum_succ _ (n + 1) hn]
    exact congrArg (uptoSum (poolF V c g f) (n + 1) _ + ·) (block_pool V c g f ⟨n + 1, h⟩ (by omega))

/-- After point `n` the count column holds, at `g`, the number of rows of graph `g` in the first `n + 1` blocks. -/
theorem acc3_count (c : Dev nD) (g : Fin 64) : ∀ (n : ℕ) (hn : n + 1 ≤ 10),
    (acc3 V c n).2 (ix2 g (0 : Fin 1)) = uptoSum (countF V c g) (n + 1) hn
  | 0, hn => by
    rw [acc3_zero]
    refine (pool_pay5_apply _ _ g).trans ?_
    rw [pool_pay2_apply, zero_add, uptoSum_succ, uptoSum_zero, zero_add]
    exact block_count V c g t3_0 (by decide)
  | n + 1, hn => by
    have hN : cfg3.N = 10 := N_3
    have h : n + 1 < cfg3.N := by omega
    rw [acc3_succ V c n h]
    refine (pool_pay5_apply _ _ g).trans ?_
    rw [acc3_count c g n (by omega), uptoSum_succ _ (n + 1) hn]
    exact congrArg (uptoSum (countF V c g) (n + 1) _ + ·) (block_count V c g ⟨n + 1, h⟩ (by omega))

/-- After the last point the pooled accumulator is the pooled sum over all rows, -/
theorem acc3_last_pooled (c : Dev nD) (g f : Fin 64) :
    (acc3 V c 9).1 (ix2 g f)
      = Cert.Spec.pooled (V c (Pipeline.arrRef spec3 0)) (fun r => V c (Pipeline.arrRef spec3 1) (ix2 r (0 : Fin 1))) g f := by
  refine ((acc3_pooled V c g f 9 (by decide)).trans (uptoSum_all _)).trans ?_
  unfold Cert.Spec.pooled poolF
  exact Finset.sum_congr rfl fun r _ => if_congr Iff.rfl rfl rfl

/-- and the count column the count over all rows. -/
theorem acc3_last_count (c : Dev nD) (g : Fin 64) :
    (acc3 V c 9).2 (ix2 g (0 : Fin 1))
      = Cert.Spec.count (fun r => V c (Pipeline.arrRef spec3 1) (ix2 r (0 : Fin 1))) g := by
  refine ((acc3_count V c g 9 (by decide)).trans (uptoSum_all _)).trans ?_
  unfold Cert.Spec.count countF
  exact Finset.sum_congr rfl fun r _ => if_congr Iff.rfl rfl rfl

/-! ## The result array -/

/-- The head of the network on the arrays the region finds, as contents of the 64×1 result. -/
def head3 (c : Dev nD) : S64x1.Idx → EReal :=
  fun j => Cert.Spec.head (V c (Pipeline.arrRef spec3 0)) (fun r => V c (Pipeline.arrRef spec3 1) (ix2 r (0 : Fin 1)))
    (V c (Pipeline.arrRef spec3 2)) (V c (Pipeline.arrRef spec3 3)) (V c (Pipeline.arrRef spec3 4)) (V c (Pipeline.arrRef spec3 5)) (j 0)

/-- The head's payload on the final accumulators and the parameter blocks is the head of the network, entry by entry. -/
theorem head_last (c : Dev nD) (g : Fin 64) :
    headBlock3 (acc3 V c 9).1 (acc3 V c 9).2 (blk3 V c 2 t3_9) (blk3 V c 3 t3_9) (blk3 V c 4 t3_9) (blk3 V c 5 t3_9) (ix2 g (0 : Fin 1))
      = head3 V c (ix2 g (0 : Fin 1)) := by
  unfold headBlock3
  refine (pool_pay6_apply _ _ _ _ _ _ g).trans ?_
  show _ = Cert.Spec.head (V c (Pipeline.arrRef spec3 0)) (fun r => V c (Pipeline.arrRef spec3 1) (ix2 r (0 : Fin 1)))
    (V c (Pipeline.arrRef spec3 2)) (V c (Pipeline.arrRef spec3 3)) (V c (Pipeline.arrRef spec3 4)) (V c (Pipeline.arrRef spec3 5)) g
  unfold Cert.Spec.head
  refine congrArg₂ (· + ·) (Finset.sum_congr rfl fun j _ => ?_) (blk_b1 V c t3_9)
  refine congrArg₂ (· * ·) (congrArg₂ (· + ·) (Finset.sum_congr rfl fun f _ => ?_) (blk_b0 V c t3_9 j)) (blk_w1 V c t3_9 j)
  rw [acc3_last_pooled, acc3_last_count, blk_w0]

/-- The one write-back, at the last point, writes the head of the network: its block is the whole result. -/
theorem flushed3_of {c : Dev nD} (dat : Dat τ (Elt Ideal) Unit ℕ (UR sig nD τ) ℕ cfg3 c)
    (hlast : dat.after 6 t3_9 = headBlock3 (acc3 V c 9).1 (acc3 V c 9).2 (blk3 V c 2 t3_9) (blk3 V c 3 t3_9) (blk3 V c 4 t3_9) (blk3 V c 5 t3_9))
    (t : Fin cfg3.N) (hf : (cfg3.win 6).flush t = true) :
    dat.flushed 6 t = ((cfg3.win 6).blk t).view.read (Elt Ideal) (head3 V c) := by
  have hN : cfg3.N = 10 := N_3
  have h9 : t.val = 9 := by have := (flush3_6 t).mp hf; have := t.isLt; omega
  obtain rfl : t = t3_9 := Fin.ext h9
  show (cfg3.win 6).cut (grid3.coords t3_9) (dat.after 6 t3_9) = _
  rw [hlast]
  funext j
  obtain ⟨g, u, rfl⟩ : ∃ (g : Fin 64) (u : Fin 1), j = ix2 g u := ⟨j 0, j 1, @eq_ix2 64 1 j⟩
  obtain rfl : u = 0 := Subsingleton.elim _ _
  have hemb : ((cfg3.win 6).blk t3_9).view.emb (ix2 g (0 : Fin 1)) = ix2 g (0 : Fin 1) := funext fun a => Fin.ext (by
    obtain ⟨-, -, -, -, -, -, -, -, -, -, -, -, e0, e1⟩ := idx_facts3 t3_9
    match a with
    | ⟨0, _⟩ => show win3_6.index t3_9 (0 : Fin 2) * 64 + 1 * g.val = g.val; omega
    | ⟨1, _⟩ => show win3_6.index t3_9 (1 : Fin 2) * 1 + 1 * 0 = 0; omega)
  show headBlock3 (F := Ideal) _ _ _ _ _ _ (ix2 g (0 : Fin 1)) = head3 V c (((cfg3.win 6).blk t3_9).view.emb (ix2 g (0 : Fin 1)))
  rw [hemb]
  exact head_last V c g

/-- So the result array ends holding the head of the network: the last point's block covers it. -/
theorem value3_of {c : Dev nD} (dat : Dat τ (Elt Ideal) Unit ℕ (UR sig nD τ) ℕ cfg3 c)
    (hlast : dat.after 6 t3_9 = headBlock3 (acc3 V c 9).1 (acc3 V c 9).2 (blk3 V c 2 t3_9) (blk3 V c 3 t3_9) (blk3 V c 4 t3_9) (blk3 V c 5 t3_9)) :
    dat.arrAt 6 cfg3.N = head3 V c :=
  dat.arrAt_eq_of_cover 6 (head3 V c) (flushed3_of V dat hlast) fun i =>
    ⟨t3_9, (flush3_6 t3_9).mpr rfl, by
      show i ∈ ((View.whole main_v46).slice (win3_6.rect t3_9)).set
      rw [View.set_slice_whole, Rect.mem_set_unit]
      intro a
      have h0 : (i 0 : Nat) < 64 := (i 0).isLt
      have h1 : (i 1 : Nat) < 1 := (i 1).isLt
      match a with
      | ⟨0, _⟩ => show win3_6.index t3_9 0 * win3_6.size 0 ≤ (i 0 : Nat) ∧ (i 0 : Nat) < win3_6.index t3_9 0 * win3_6.size 0 + win3_6.xsize (grid3.coords t3_9) 0
                  rw [show win3_6.index t3_9 0 * win3_6.size 0 = 0 from by decide +kernel, show win3_6.xsize (grid3.coords t3_9) 0 = 64 from by decide +kernel]; omega
      | ⟨1, _⟩ => show win3_6.index t3_9 1 * win3_6.size 1 ≤ (i 1 : Nat) ∧ (i 1 : Nat) < win3_6.index t3_9 1 * win3_6.size 1 + win3_6.xsize (grid3.coords t3_9) 1
                  rw [show win3_6.index t3_9 1 * win3_6.size 1 = 0 from by decide +kernel, show win3_6.xsize (grid3.coords t3_9) 1 = 1 from by decide +kernel]; omega⟩

/-- The region's result array after the run: the head of the network on the arrays the region found. -/
theorem value3 (c : Dev nD) :
    (dat3 (F := Ideal) V c).arrAt 6 cfg3.N
      = fun j => Cert.Spec.head (V c (Pipeline.arrRef spec3 0)) (fun r => V c (Pipeline.arrRef spec3 1) (ix2 r 0)) (V c (Pipeline.arrRef spec3 2)) (V c (Pipeline.arrRef spec3 3)) (V c (Pipeline.arrRef spec3 4)) (V c (Pipeline.arrRef spec3 5)) (j 0) :=
  value3_of V (dat3 V c) (after3_6_last V c)

end Cert.KernelIdeal.Hand

end
-- ==== Proof.KI.Net.lean ====
/-
  The kernel program's result as the specification's network of the launch memory.  Each combine region's output is
  the specification's layer of what the region was entered with; what it was entered with is the launch memory's
  arrays, their reshapes, the layer before, and the neighbour aggregation of that layer; the pooling region's output
  is the specification's head of the last layer and the batch ids.  Composed, the result array ends at Spec.net.
-/
import proofs.«412716_j76287209112018_2_alg».proof.Proof.KI.Entry
import proofs.«412716_j76287209112018_2_alg».proof.Proof.KI.Casts
import proofs.«412716_j76287209112018_2_alg».proof.Proof.KI.Val0
import proofs.«412716_j76287209112018_2_alg».proof.Proof.KI.Val1
import proofs.«412716_j76287209112018_2_alg».proof.Proof.KI.Val2
import proofs.«412716_j76287209112018_2_alg».proof.Proof.KI.Val3

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The neighbour aggregation over the launched edge list. -/
abbrev aggK (c : Dev nD) : FVec Ideal S100000x64 .f32 → FVec Ideal S100000x64 .f32 :=
  aggOf (F := Ideal) (srcOf (m ((c : Thread nD τ).loc main_arg1))) (dstOf (m ((c : Thread nD τ).loc main_arg1)))

/-- The specification's three layers of the launch memory. -/
def L1 (c : Dev nD) : Cert.Spec.Nodes.Idx → EReal :=
  Cert.Spec.rectified (aggK m c (m ((c : Thread nD τ).loc main_arg0))) (m ((c : Thread nD τ).loc main_arg0)) (m ((c : Thread nD τ).loc main_arg3)) (m ((c : Thread nD τ).loc main_arg5))
    (Cert.Spec.rowOf (m ((c : Thread nD τ).loc main_arg4))) (Cert.Spec.oneOf (m ((c : Thread nD τ).loc main_arg12)))
def L2 (c : Dev nD) : Cert.Spec.Nodes.Idx → EReal :=
  Cert.Spec.rectified (aggK m c (L1 m c)) (L1 m c) (m ((c : Thread nD τ).loc main_arg6)) (m ((c : Thread nD τ).loc main_arg8))
    (Cert.Spec.rowOf (m ((c : Thread nD τ).loc main_arg7))) (Cert.Spec.oneOf (m ((c : Thread nD τ).loc main_arg13)))
def L3 (c : Dev nD) : Cert.Spec.Nodes.Idx → EReal :=
  Cert.Spec.linear (aggK m c (L2 m c)) (L2 m c) (m ((c : Thread nD τ).loc main_arg9)) (m ((c : Thread nD τ).loc main_arg11)) (Cert.Spec.rowOf (m ((c : Thread nD τ).loc main_arg10)))

/-- The first layer's output. -/
theorem h1_eq (c : Dev nD) : h1 m c = L1 m c := by
  refine (value0 (E0 m) c).trans ?_
  show Cert.Spec.rectified (E0 m c main_v13) (E0 m c main_arg0) (E0 m c main_arg3) (E0 m c main_arg5) (E0 m c main_v14) (E0 m c main_v15) = _
  rw [e0_agg, e0_x, e0_wr, e0_wo, e0_b, e0_a, cast_row, cast_scalar]
  rfl

/-- The second layer's output, over the first. -/
theorem h2_eq (c : Dev nD) : h2 m c = L2 m c := by
  refine (value1 (E1 m) c).trans ?_
  show Cert.Spec.rectified (E1 m c main_v26) (E1 m c main_v16) (E1 m c main_arg6) (E1 m c main_arg8) (E1 m c main_v27) (E1 m c main_v28) = _
  rw [e1_agg, e1_x, e1_wr, e1_wo, e1_b, e1_a, cast_row, cast_scalar, h1_eq]
  rfl

/-- The third layer's output, over the second. -/
theorem h3_eq (c : Dev nD) : h3 m c = L3 m c := by
  refine (value2 (E2 m) c).trans ?_
  show Cert.Spec.linear (E2 m c main_v39) (E2 m c main_v29) (E2 m c main_arg9) (E2 m c main_arg11) (E2 m c main_v40) = _
  rw [e2_agg, e2_x, e2_wr, e2_wo, e2_b, cast_row, h2_eq]
  rfl

/-- The head depends on its six arguments only. -/
theorem head_congr {h h' : Cert.Spec.Nodes.Idx → EReal} {ids ids' : Fin 100000 → BitVec 32} {W0 W0' : Cert.Spec.Sq.Idx → EReal}
    {b0 b0' : Cert.Spec.Row.Idx → EReal} {W1 W1' : Cert.Spec.Col.Idx → EReal} {b1 b1' : Cert.Spec.One.Idx → EReal}
    (eh : h = h') (ei : ids = ids') (e0 : W0 = W0') (eb0 : b0 = b0') (e1 : W1 = W1') (eb1 : b1 = b1') :
    (fun j : Cert.Spec.Col.Idx => Cert.Spec.head h ids W0 b0 W1 b1 (j 0)) = fun j => Cert.Spec.head h' ids' W0' b0' W1' b1' (j 0) := by
  subst eh ei e0 eb0 e1 eb1; rfl

/-- The batch ids the pooling region is entered with. -/
theorem ids_eq (c : Dev nD) : (fun r : Fin 100000 => E3 m c main_v43 (ix2 r 0)) = Cert.Spec.idsOf (m ((c : Thread nD τ).loc main_arg2)) :=
  (congrArg (fun v : IVec S100000x1 32 => fun r : Fin 100000 => v (ix2 r 0)) (e3_ids m c)).trans (cast_ids _)

/-- The result: the head of the third layer. -/
theorem kernel_value (c : Dev nD) :
    (dat3 (F := Ideal) (E3 m) c).arrAt 6 cfg3.N
      = Cert.Spec.net (aggK m c) (m ((c : Thread nD τ).loc main_arg0)) (Cert.Spec.idsOf (m ((c : Thread nD τ).loc main_arg2)))
          (m ((c : Thread nD τ).loc main_arg3)) (m ((c : Thread nD τ).loc main_arg5)) (Cert.Spec.rowOf (m ((c : Thread nD τ).loc main_arg4))) (Cert.Spec.oneOf (m ((c : Thread nD τ).loc main_arg12)))
          (m ((c : Thread nD τ).loc main_arg6)) (m ((c : Thread nD τ).loc main_arg8)) (Cert.Spec.rowOf (m ((c : Thread nD τ).loc main_arg7))) (Cert.Spec.oneOf (m ((c : Thread nD τ).loc main_arg13)))
          (m ((c : Thread nD τ).loc main_arg9)) (m ((c : Thread nD τ).loc main_arg11)) (Cert.Spec.rowOf (m ((c : Thread nD τ).loc main_arg10)))
          (m ((c : Thread nD τ).loc main_arg14)) (Cert.Spec.rowOf (m ((c : Thread nD τ).loc main_arg15))) (m ((c : Thread nD τ).loc main_arg16)) (Cert.Spec.oneOf1 (m ((c : Thread nD τ).loc main_arg17))) := by
  refine (value3 (E3 m) c).trans ?_
  refine (head_congr (h := E3 m c main_v42) (ids := fun r : Fin 100000 => E3 m c main_v43 (ix2 r 0)) (W0 := E3 m c main_arg14)
    (b0 := E3 m c main_v44) (W1 := E3 m c main_arg16) (b1 := E3 m c main_v45)
    ((e3_h m c).trans (h3_eq m c)) (ids_eq m c) (e3_w0 m c) ((e3_b0 m c).trans (cast_row _)) (e3_w1 m c) ((e3_b1 m c).trans (cast_single _))).trans ?_
  unfold L3 L2 L1 Cert.Spec.net
  rfl

end Cert.KernelIdeal.Hand

end
-- ==== Proof.Ref.Gen.lean ====
/-
  The reference network's run and its stages read at an index: every module of the reference side imports this one.
-/
import proofs.«412716_j76287209112018_2_alg».proof.Proof.Ref.Run
import proofs.«412716_j76287209112018_2_alg».proof.Proof.Ref.Read
-- ==== Proof.Ref.Layers.lean ====
/-
  The three combine layers of the reference are the specification's.  Each stage is read at a node r and a channel q:
  the two contractions are sums over the 64 input channels of the operand at (r, k) times the weight at (k, q), the bias
  row is read at q, the slope at its one index, and the rectifier's comparison is against the zero word.  The neighbour
  aggregation feeding a layer is, in every layer, the same host computation of the edge list and the layer's input:
  the function aggR.
-/
import proofs.«412716_j76287209112018_2_alg».proof.Proof.Ref.Gen
import proofs.«412716_j76287209112018_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- The neighbour aggregation as the reference computes it: a function of the edge list and the features. -/
def aggR (ei : (⟨S2x1000000, .i32⟩ : BufTy).Contents (Elt Ideal)) (feat : (⟨S100000x64, .f32⟩ : BufTy).Contents (Elt Ideal)) : (⟨S100000x64, .f32⟩ : BufTy).Contents (Elt Ideal) :=
  Read.val_main_v13 (F := Ideal) feat ei

/-! ## Index equations: the stages' index functions at coordinates -/

theorem lidx14 (r : Fin 100000) (q k : Fin 64) : lidx_main_v14 (ix2 r q) k = ix2 r k :=
  funext fun a => Fin.ext (by match a with | ⟨0, _⟩ => rfl | ⟨1, _⟩ => rfl)
theorem ridx14 (r : Fin 100000) (q k : Fin 64) : ridx_main_v14 (ix2 r q) k = ix2 k q :=
  funext fun a => Fin.ext (by match a with | ⟨0, _⟩ => rfl | ⟨1, _⟩ => rfl)
theorem lidx15 (r : Fin 100000) (q k : Fin 64) : lidx_main_v15 (ix2 r q) k = ix2 r k :=
  funext fun a => Fin.ext (by match a with | ⟨0, _⟩ => rfl | ⟨1, _⟩ => rfl)
theorem ridx15 (r : Fin 100000) (q k : Fin 64) : ridx_main_v15 (ix2 r q) k = ix2 k q :=
  funext fun a => Fin.ext (by match a with | ⟨0, _⟩ => rfl | ⟨1, _⟩ => rfl)
theorem lidx35 (r : Fin 100000) (q k : Fin 64) : lidx_main_v35 (ix2 r q) k = ix2 r k :=
  funext fun a => Fin.ext (by match a with | ⟨0, _⟩ => rfl | ⟨1, _⟩ => rfl)
theorem ridx35 (r : Fin 100000) (q k : Fin 64) : ridx_main_v35 (ix2 r q) k = ix2 k q :=
  funext fun a => Fin.ext (by match a with | ⟨0, _⟩ => rfl | ⟨1, _⟩ => rfl)
theorem lidx36 (r : Fin 100000) (q k : Fin 64) : lidx_main_v36 (ix2 r q) k = ix2 r k :=
  funext fun a => Fin.ext (by match a with | ⟨0, _⟩ => rfl | ⟨1, _⟩ => rfl)
theorem ridx36 (r : Fin 100000) (q k : Fin 64) : ridx_main_v36 (ix2 r q) k = ix2 k q :=
  funext fun a => Fin.ext (by match a with | ⟨0, _⟩ => rfl | ⟨1, _⟩ => rfl)
theorem lidx56 (r : Fin 100000) (q k : Fin 64) : lidx_main_v56 (ix2 r q) k = ix2 r k :=
  funext fun a => Fin.ext (by match a with | ⟨0, _⟩ => rfl | ⟨1, _⟩ => rfl)
theorem ridx56 (r : Fin 100000) (q k : Fin 64) : ridx_main_v56 (ix2 r q) k = ix2 k q :=
  funext fun a => Fin.ext (by match a with | ⟨0, _⟩ => rfl | ⟨1, _⟩ => rfl)
theorem lidx57 (r : Fin 100000) (q k : Fin 64) : lidx_main_v57 (ix2 r q) k = ix2 r k :=
  funext fun a => Fin.ext (by match a with | ⟨0, _⟩ => rfl | ⟨1, _⟩ => rfl)
theorem ridx57 (r : Fin 100000) (q k : Fin 64) : ridx_main_v57 (ix2 r q) k = ix2 k q :=
  funext fun a => Fin.ext (by match a with | ⟨0, _⟩ => rfl | ⟨1, _⟩ => rfl)
theorem bias18 (r : Fin 100000) (q : Fin 64) : idx_main_v17 (idx_main_v18 (ix2 r q)) = ix1 q :=
  funext fun a => Fin.ext (by match a with | ⟨0, _⟩ => rfl)
theorem bias39 (r : Fin 100000) (q : Fin 64) : idx_main_v38 (idx_main_v39 (ix2 r q)) = ix1 q :=
  funext fun a => Fin.ext (by match a with | ⟨0, _⟩ => rfl)
theorem bias60 (r : Fin 100000) (q : Fin 64) : idx_main_v59 (idx_main_v60 (ix2 r q)) = ix1 q :=
  funext fun a => Fin.ext (by match a with | ⟨0, _⟩ => rfl)

/-! ## The aggregation of the second and third layers is the first's, applied to that layer's input -/

theorem agg2_eq (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x12 : (⟨S_, .f32⟩ : BufTy).Contents (Elt Ideal)) :
    val_main_v34 (F := Ideal) x0 x1 x3 x4 x5 x12 = aggR x1 (val_main_v24 (F := Ideal) x0 x1 x3 x4 x5 x12) := rfl

theorem agg3_eq (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x12 x13 : (⟨S_, .f32⟩ : BufTy).Contents (Elt Ideal)) :
    val_main_v55 (F := Ideal) x0 x1 x3 x4 x5 x6 x7 x8 x12 x13 = aggR x1 (val_main_v45 (F := Ideal) x0 x1 x3 x4 x5 x6 x7 x8 x12 x13) := rfl

/-! ## The layers at a node and a channel -/

theorem layer1_at (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x12 : (⟨S_, .f32⟩ : BufTy).Contents (Elt Ideal)) (r : Fin 100000) (q : Fin 64) :
    val_main_v24 (F := Ideal) x0 x1 x3 x4 x5 x12 (ix2 r q)
      = Cert.Spec.leaky (x12 ix0) (Cert.Spec.lin (aggR x1 x0) x0 x3 x5 (Cert.Spec.rowOf x4) r q) := by
  rw [val_main_v24_apply, val_main_v21_apply, val_main_v23_apply, val_main_v19_apply, val_main_v16_apply, val_main_v14_apply,
    val_main_v15_apply, val_main_v18_apply, val_main_v17_apply, val_main_v20_apply, val_main_cst_1_apply, val_main_v22_apply]
  simp only [lidx14, ridx14, lidx15, ridx15, bias18]
  rfl

theorem layer2_at (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x12 x13 : (⟨S_, .f32⟩ : BufTy).Contents (Elt Ideal)) (r : Fin 100000) (q : Fin 64) :
    val_main_v45 (F := Ideal) x0 x1 x3 x4 x5 x6 x7 x8 x12 x13 (ix2 r q)
      = Cert.Spec.leaky (x13 ix0) (Cert.Spec.lin (aggR x1 (val_main_v24 (F := Ideal) x0 x1 x3 x4 x5 x12)) (val_main_v24 (F := Ideal) x0 x1 x3 x4 x5 x12) x6 x8 (Cert.Spec.rowOf x7) r q) := by
  rw [val_main_v45_apply, val_main_v42_apply, val_main_v44_apply, val_main_v40_apply, val_main_v37_apply, val_main_v35_apply,
    val_main_v36_apply, val_main_v39_apply, val_main_v38_apply, val_main_v41_apply, val_main_cst_5_apply, val_main_v43_apply, agg2_eq]
  simp only [lidx35, ridx35, lidx36, ridx36, bias39]
  rfl

theorem layer3_at (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) (r : Fin 100000) (q : Fin 64) :
    val_main_v61 (F := Ideal) x0 x1 x3 x4 x5 x6 x7 x8 x9 x10 x11 x12 x13 (ix2 r q)
      = Cert.Spec.lin (aggR x1 (val_main_v45 (F := Ideal) x0 x1 x3 x4 x5 x6 x7 x8 x12 x13)) (val_main_v45 (F := Ideal) x0 x1 x3 x4 x5 x6 x7 x8 x12 x13) x9 x11 (Cert.Spec.rowOf x10) r q := by
  rw [val_main_v61_apply, val_main_v58_apply, val_main_v56_apply, val_main_v57_apply, val_main_v60_apply, val_main_v59_apply, agg3_eq]
  simp only [lidx56, ridx56, lidx57, ridx57, bias60]
  rfl

/-! ## The layers as arrays -/

theorem layer1 (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x12 : (⟨S_, .f32⟩ : BufTy).Contents (Elt Ideal)) :
    val_main_v24 (F := Ideal) x0 x1 x3 x4 x5 x12
      = Cert.Spec.rectified (aggR x1 x0) x0 x3 x5 (Cert.Spec.rowOf x4) (Cert.Spec.oneOf x12) := by
  funext i
  obtain ⟨r, q, rfl⟩ : ∃ (r : Fin 100000) (q : Fin 64), i = ix2 r q := ⟨i 0, i 1, eq_ix2 i⟩
  exact layer1_at x0 x1 x3 x4 x5 x12 r q

theorem layer2 (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x12 x13 : (⟨S_, .f32⟩ : BufTy).Contents (Elt Ideal)) :
    val_main_v45 (F := Ideal) x0 x1 x3 x4 x5 x6 x7 x8 x12 x13
      = Cert.Spec.rectified (aggR x1 (val_main_v24 (F := Ideal) x0 x1 x3 x4 x5 x12)) (val_main_v24 (F := Ideal) x0 x1 x3 x4 x5 x12) x6 x8 (Cert.Spec.rowOf x7) (Cert.Spec.oneOf x13) := by
  funext i
  obtain ⟨r, q, rfl⟩ : ∃ (r : Fin 100000) (q : Fin 64), i = ix2 r q := ⟨i 0, i 1, eq_ix2 i⟩
  exact layer2_at x0 x1 x3 x4 x5 x6 x7 x8 x12 x13 r q

theorem layer3 (x0 : (⟨S100000x64, .f32⟩ : BufTy).Contents (Elt Ideal)) (x1 : (⟨S2x1000000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) :
    val_main_v61 (F := Ideal) x0 x1 x3 x4 x5 x6 x7 x8 x9 x10 x11 x12 x13
      = Cert.Spec.linear (aggR x1 (val_main_v45 (F := Ideal) x0 x1 x3 x4 x5 x6 x7 x8 x12 x13)) (val_main_v45 (F := Ideal) x0 x1 x3 x4 x5 x6 x7 x8 x12 x13) x9 x11 (Cert.Spec.rowOf x10) := by
  funext i
  obtain ⟨r, q, rfl⟩ : ∃ (r : Fin 100000) (q : Fin 64), i = ix2 r q := ⟨i 0, i 1, eq_ix2 i⟩
  exact layer3_at x0 x1 x3 x4 x5 x6 x7 x8 x9 x10 x11 x12 x13 r q

end Cert.ReferenceIdeal.RefValue

end
-- ==== Proof.Ref.Pool.lean ====
/-
  The two pooling scatters of the reference, read at an index.  Both scatter one update per node row along the
  graph axis: the update of row r starts at the SIGNED value of the row's id word and is dropped when that value is
  no graph number.  For a graph number g below 64 the signed value of a word is g exactly when the word is g's word,
  so the sum of the updates landing on graph g is the sum over the rows whose id word is g.  The rank-2 scatter keeps
  the channel: the update (r, f') lands on (g, f) exactly when row r's word is g and f' = f.
-/
import proofs.«412716_j76287209112018_2_alg».proof.Proof.Gen.ReferenceIdeal
import proofs.«412716_j76287209112018_2_alg».proof.Proof.Spec
import Idealize.ShloMosaic.Lib.ValueIdx
import Idealize.ShloMosaic.Lib.ValueIdxRank1
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The signed value of a graph number's word is the graph number. -/
theorem toInt_graph (g : Fin 64) : (BitVec.ofNat 32 g.val).toInt = (g.val : Int) := by
  revert g; decide

/-- A word's signed value is the graph number g exactly when the word is g's word. -/
theorem toInt_eq_graph (w : BitVec 32) (g : Fin 64) : w.toInt = (g.val : Int) ↔ w = BitVec.ofNat 32 g.val :=
  ⟨fun h => BitVec.eq_of_toInt_eq (h.trans (toInt_graph g).symm), fun h => h ▸ toInt_graph g⟩

/-! ## The rank-2 scatter: pooled rows -/

/-- The start of update (r, f) on the graph axis is the signed value of row r's id word. -/
theorem start2_0 (r : Fin 100000) (f : Fin 64) (idx : IVec S100000x1 32) :
    scatter_S64x64_S100000x1_S100000x64_1_0_0_1.start (ix2 r f) idx 0 = (idx (ix2 r 0)).toInt := by
  unfold ScatterDims.start
  rw [dif_pos (show (0 : Fin S64x64.rank) ∈ scatter_S64x64_S100000x1_S100000x64_1_0_0_1.scatterDimsToOperandDims by decide)]
  have hsi : scatter_S64x64_S100000x1_S100000x64_1_0_0_1.siIdx (ix2 r f)
      ⟨List.idxOf (0 : Fin S64x64.rank) scatter_S64x64_S100000x1_S100000x64_1_0_0_1.scatterDimsToOperandDims,
        List.idxOf_lt_length_iff.2 (by decide)⟩ = ix2 r 0 := by
    funext b; refine Fin.ext ?_
    match b with
    | ⟨0, _⟩ => rfl
    | ⟨1, _⟩ => rfl
  rw [hsi]

/-- The channel axis has no start index. -/
theorem start2_1 (r : Fin 100000) (f : Fin 64) (idx : IVec S100000x1 32) :
    scatter_S64x64_S100000x1_S100000x64_1_0_0_1.start (ix2 r f) idx 1 = 0 := by
  unfold ScatterDims.start
  rw [dif_neg (show ¬(1 : Fin S64x64.rank) ∈ scatter_S64x64_S100000x1_S100000x64_1_0_0_1.scatterDimsToOperandDims by decide)]

/-- The graph axis is inserted: no window coordinate. -/
theorem window2_0 (r : Fin 100000) (f : Fin 64) :
    scatter_S64x64_S100000x1_S100000x64_1_0_0_1.window (ix2 r f) 0 = 0 := by
  unfold ScatterDims.window
  rw [dif_neg (show ¬(0 : Fin S64x64.rank) ∈ scatter_S64x64_S100000x1_S100000x64_1_0_0_1.sKept by decide)]

/-- The channel axis carries the update's channel. -/
theorem window2_1 (r : Fin 100000) (f : Fin 64) :
    scatter_S64x64_S100000x1_S100000x64_1_0_0_1.window (ix2 r f) 1 = f.val := by
  unfold ScatterDims.window
  rw [dif_pos (show (1 : Fin S64x64.rank) ∈ scatter_S64x64_S100000x1_S100000x64_1_0_0_1.sKept by decide)]
  rfl

/-- Update (r, f') lands on (g, f) exactly when row r's word has the signed value g and the channels agree. -/
theorem lands2 (r : Fin 100000) (f' : Fin 64) (idx : IVec S100000x1 32) (g f : Fin 64) :
    scatter_S64x64_S100000x1_S100000x64_1_0_0_1.resultIdx? (ix2 r f') idx = some (ix2 g f)
      ↔ (idx (ix2 r 0)).toInt = (g.val : Int) ∧ f' = f := by
  have hs0 := start2_0 r f' idx
  have hs1 := start2_1 r f' idx
  have hw0 := window2_0 r f'
  have hw1 := window2_1 r f'
  have hg := g.isLt
  have hf' := f'.isLt
  unfold ScatterDims.resultIdx?
  split
  · rename_i h
    rw [Option.some.injEq]
    constructor
    · intro e
      have e0 : (scatter_S64x64_S100000x1_S100000x64_1_0_0_1.start (ix2 r f') idx 0
          + scatter_S64x64_S100000x1_S100000x64_1_0_0_1.window (ix2 r f') 0).toNat = g.val :=
        congrArg (fun i : S64x64.Idx => (i 0).val) e
      have e1 : (scatter_S64x64_S100000x1_S100000x64_1_0_0_1.start (ix2 r f') idx 1
          + scatter_S64x64_S100000x1_S100000x64_1_0_0_1.window (ix2 r f') 1).toNat = f.val :=
        congrArg (fun i : S64x64.Idx => (i 1).val) e
      have h0 := (h 0).1
      rw [hs0, hw0] at e0 h0
      rw [hs1, hw1] at e1
      exact ⟨by omega, Fin.ext (by omega)⟩
    · rintro ⟨e0, rfl⟩
      funext a; refine Fin.ext ?_
      match a with
      | ⟨0, _⟩ =>
        show (scatter_S64x64_S100000x1_S100000x64_1_0_0_1.start (ix2 r f') idx 0
          + scatter_S64x64_S100000x1_S100000x64_1_0_0_1.window (ix2 r f') 0).toNat = g.val
        rw [hs0, hw0]; omega
      | ⟨1, _⟩ =>
        show (scatter_S64x64_S100000x1_S100000x64_1_0_0_1.start (ix2 r f') idx 1
          + scatter_S64x64_S100000x1_S100000x64_1_0_0_1.window (ix2 r f') 1).toNat = f'.val
        rw [hs1, hw1]; omega
  · rename_i h
    constructor
    · intro e; cases e
    · rintro ⟨e0, rfl⟩
      refine absurd (fun a => ?_) h
      match a with
      | ⟨0, _⟩ =>
        show 0 ≤ scatter_S64x64_S100000x1_S100000x64_1_0_0_1.start (ix2 r f') idx 0
            + scatter_S64x64_S100000x1_S100000x64_1_0_0_1.window (ix2 r f') 0
          ∧ scatter_S64x64_S100000x1_S100000x64_1_0_0_1.start (ix2 r f') idx 0
            + scatter_S64x64_S100000x1_S100000x64_1_0_0_1.window (ix2 r f') 0 < ((64 : Nat) : Int)
        rw [hs0, hw0]; omega
      | ⟨1, _⟩ =>
        show 0 ≤ scatter_S64x64_S100000x1_S100000x64_1_0_0_1.start (ix2 r f') idx 1
            + scatter_S64x64_S100000x1_S100000x64_1_0_0_1.window (ix2 r f') 1
          ∧ scatter_S64x64_S100000x1_S100000x64_1_0_0_1.start (ix2 r f') idx 1
            + scatter_S64x64_S100000x1_S100000x64_1_0_0_1.window (ix2 r f') 1 < ((64 : Nat) : Int)
        rw [hs1, hw1]; omega

/-- The rank-2 scatter at (g, f): the operand there plus channel f of the rows whose id word is g. -/
theorem scatter_rows (z : S64x64.Idx → EReal) (idx : IVec S100000x1 32) (h : S100000x64.Idx → EReal) (g f : Fin 64) :
    Ideal.hostScatterAdd scatter_S64x64_S100000x1_S100000x64_1_0_0_1 z idx h (ix2 g f)
      = z (ix2 g f) + ∑ r : Fin 100000, if idx (ix2 r 0) = BitVec.ofNat 32 g.val then h (ix2 r f) else 0 := by
  unfold Ideal.hostScatterAdd
  refine congrArg (z (ix2 g f) + ·) ?_
  rw [Finset.sum_filter, sum_idx2]
  refine Finset.sum_congr rfl fun r _ => ?_
  simp only [lands2, toInt_eq_graph]
  by_cases hr : idx (ix2 r 0) = BitVec.ofNat 32 g.val
  · simp only [hr, true_and, if_true]
    rw [Finset.sum_ite_eq' Finset.univ f fun f' => h (ix2 r f'), if_pos (Finset.mem_univ f)]
  · simp only [hr, false_and, if_false, Finset.sum_const_zero]

/-! ## The rank-1 scatter: node counts -/

/-- The start of update r on the graph axis is the signed value of row r's id word. -/
theorem start1_0 (r : Fin 100000) (idx : IVec S100000x1 32) :
    scatter_S64_S100000x1_S100000_n_0_0_1.start (ix1 r) idx 0 = (idx (ix2 r 0)).toInt := by
  unfold ScatterDims.start
  rw [dif_pos (show (0 : Fin S64.rank) ∈ scatter_S64_S100000x1_S100000_n_0_0_1.scatterDimsToOperandDims by decide)]
  have hsi : scatter_S64_S100000x1_S100000_n_0_0_1.siIdx (ix1 r)
      ⟨List.idxOf (0 : Fin S64.rank) scatter_S64_S100000x1_S100000_n_0_0_1.scatterDimsToOperandDims,
        List.idxOf_lt_length_iff.2 (by decide)⟩ = ix2 r 0 := by
    funext b; refine Fin.ext ?_
    match b with
    | ⟨0, _⟩ => rfl
    | ⟨1, _⟩ => rfl
  rw [hsi]

/-- The graph axis is inserted: no window coordinate. -/
theorem window1_0 (r : Fin 100000) :
    scatter_S64_S100000x1_S100000_n_0_0_1.window (ix1 r) 0 = 0 := by
  unfold ScatterDims.window
  rw [dif_neg (show ¬(0 : Fin S64.rank) ∈ scatter_S64_S100000x1_S100000_n_0_0_1.sKept by decide)]

/-- Update r lands on graph g exactly when row r's word has the signed value g. -/
theorem lands1 (r : Fin 100000) (idx : IVec S100000x1 32) (g : Fin 64) :
    scatter_S64_S100000x1_S100000_n_0_0_1.resultIdx? (ix1 r) idx = some (ix1 g)
      ↔ (idx (ix2 r 0)).toInt = (g.val : Int) := by
  have hs0 := start1_0 r idx
  have hw0 := window1_0 r
  have hg := g.isLt
  unfold ScatterDims.resultIdx?
  split
  · rename_i h
    rw [Option.some.injEq]
    constructor
    · intro e
      have e0 : (scatter_S64_S100000x1_S100000_n_0_0_1.start (ix1 r) idx 0
          + scatter_S64_S100000x1_S100000_n_0_0_1.window (ix1 r) 0).toNat = g.val :=
        congrArg (fun i : S64.Idx => (i 0).val) e
      have h0 := (h 0).1
      rw [hs0, hw0] at e0 h0
      omega
    · intro e0
      funext a; refine Fin.ext ?_
      match a with
      | ⟨0, _⟩ =>
        show (scatter_S64_S100000x1_S100000_n_0_0_1.start (ix1 r) idx 0
          + scatter_S64_S100000x1_S100000_n_0_0_1.window (ix1 r) 0).toNat = g.val
        rw [hs0, hw0]; omega
  · rename_i h
    constructor
    · intro e; cases e
    · intro e0
      refine absurd (fun a => ?_) h
      match a with
      | ⟨0, _⟩ =>
        show 0 ≤ scatter_S64_S100000x1_S100000_n_0_0_1.start (ix1 r) idx 0
            + scatter_S64_S100000x1_S100000_n_0_0_1.window (ix1 r) 0
          ∧ scatter_S64_S100000x1_S100000_n_0_0_1.start (ix1 r) idx 0
            + scatter_S64_S100000x1_S100000_n_0_0_1.window (ix1 r) 0 < ((64 : Nat) : Int)
        rw [hs0, hw0]; omega

/-- The rank-1 scatter at g: the operand there plus the updates of the rows whose id word is g. -/
theorem scatter_ones (z : S64.Idx → EReal) (idx : IVec S100000x1 32) (u : S100000.Idx → EReal) (g : Fin 64) :
    Ideal.hostScatterAdd scatter_S64_S100000x1_S100000_n_0_0_1 z idx u (ix1 g)
      = z (ix1 g) + ∑ r : Fin 100000, if idx (ix2 r 0) = BitVec.ofNat 32 g.val then u (ix1 r) else 0 := by
  unfold Ideal.hostScatterAdd
  refine congrArg (z (ix1 g) + ·) ?_
  rw [Finset.sum_filter, ← Equiv.sum_comp (idxEquiv1 (n := 100000)).symm]
  refine Finset.sum_congr rfl fun r _ => ?_
  show (if scatter_S64_S100000x1_S100000_n_0_0_1.resultIdx? (ix1 r) idx = some (ix1 g) then u (ix1 r) else 0) = _
  simp only [lands1, toInt_eq_graph]

/-! ## The two scatters in the specification's words -/

/-- The rank-2 scatter at (g, f), the id words named: the operand there plus the pooled channel. -/
theorem scatter_rows_spec (z : S64x64.Idx → EReal) (idx : IVec S100000x1 32) (ids : Fin 100000 → BitVec 32)
    (hids : ∀ r, idx (ix2 r 0) = ids r) (h : S100000x64.Idx → EReal) (g f : Fin 64) :
    Ideal.hostScatterAdd scatter_S64x64_S100000x1_S100000x64_1_0_0_1 z idx h (ix2 g f)
      = z (ix2 g f) + Cert.Spec.pooled h ids g f := by
  rw [scatter_rows]
  refine congrArg (z (ix2 g f) + ·) ?_
  unfold Cert.Spec.pooled
  refine Finset.sum_congr rfl fun r _ => ?_
  rw [hids r]
  by_cases hr : ids r = BitVec.ofNat 32 g.val
  · rw [if_pos hr, if_pos (show Cert.Spec.inGraph ids r g from hr)]
  · rw [if_neg hr, if_neg (show ¬Cert.Spec.inGraph ids r g from hr)]

/-- The rank-1 scatter of ones at g, the id words named: the operand there plus the graph's node count. -/
theorem scatter_ones_spec (z : S64.Idx → EReal) (idx : IVec S100000x1 32) (ids : Fin 100000 → BitVec 32)
    (hids : ∀ r, idx (ix2 r 0) = ids r) (u : S100000.Idx → EReal) (hu : ∀ r : Fin 100000, u (ix1 r) = 1) (g : Fin 64) :
    Ideal.hostScatterAdd scatter_S64_S100000x1_S100000_n_0_0_1 z idx u (ix1 g)
      = z (ix1 g) + Cert.Spec.count ids g := by
  rw [scatter_ones]
  refine congrArg (z (ix1 g) + ·) ?_
  unfold Cert.Spec.count
  refine Finset.sum_congr rfl fun r _ => ?_
  rw [hids r, hu r]
  by_cases hr : ids r = BitVec.ofNat 32 g.val
  · rw [if_pos hr, if_pos (show Cert.Spec.inGraph ids r g from hr)]
  · rw [if_neg hr, if_neg (show ¬Cert.Spec.inGraph ids r g from hr)]

/-- The word of 1.0 is the extended real one. -/
theorem ofBits_one_f32 : Ideal.ofBits .f32 0x3F800000#32 = 1 :=
  IdealRules.sign_bit.ideal_onePat .f32

end Cert.ReferenceIdeal.RefValue

end
-- ==== Proof.Ref.Value.lean ====
/-
  The reference is the specification.  The head is read at a graph g: the pooled row is the rank-2 scatter of the last
  layer's rows by id word, the count the rank-1 scatter of ones, their quotient goes through the two affine maps; with
  the three layers this is the network of the specification at the argument arrays.
-/
import proofs.«412716_j76287209112018_2_alg».proof.Proof.Ref.Layers
import proofs.«412716_j76287209112018_2_alg».proof.Proof.Ref.Pool

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-! ## Index equations of the head's stages -/

theorem ids63 (r : Fin 100000) : idx_main_v63 (ix2 r (0 : Fin 1)) = ix1 r :=
  funext fun a => Fin.ext (by match a with | ⟨0, _⟩ => rfl)
theorem ids67 (r : Fin 100000) : idx_main_v67 (ix2 r (0 : Fin 1)) = ix1 r :=
  funext fun a => Fin.ext (by match a with | ⟨0, _⟩ => rfl)
theorem den72 (g f : Fin 64) : idx_main_v71 (idx_main_v72 (ix2 g f)) = ix1 g :=
  funext fun a => Fin.ext (by match a with | ⟨0, _⟩ => rfl)
theorem lidx74 (g j k : Fin 64) : lidx_main_v74 (ix2 g j) k = ix2 g k :=
  funext fun a => Fin.ext (by match a with | ⟨0, _⟩ => rfl | ⟨1, _⟩ => rfl)
theorem ridx74 (g j k : Fin 64) : ridx_main_v74 (ix2 g j) k = ix2 k j :=
  funext fun a => Fin.ext (by match a with | ⟨0, _⟩ => rfl | ⟨1, _⟩ => rfl)
theorem bias76 (g j : Fin 64) : idx_main_v75 (idx_main_v76 (ix2 g j)) = ix1 j :=
  funext fun a => Fin.ext (by match a with | ⟨0, _⟩ => rfl)
theorem lidx78 (g k : Fin 64) : lidx_main_v78 (ix2 g (0 : Fin 1)) k = ix2 g k :=
  funext fun a => Fin.ext (by match a with | ⟨0, _⟩ => rfl | ⟨1, _⟩ => rfl)
theorem ridx78 (g k : Fin 64) : ridx_main_v78 (ix2 g (0 : Fin 1)) k = ix2 k (0 : Fin 1) :=
  funext fun a => Fin.ext (by match a with | ⟨0, _⟩ => rfl | ⟨1, _⟩ => rfl)
theorem bias80 (g : Fin 64) : idx_main_v79 (idx_main_v80 (ix2 g (0 : Fin 1))) = ix1 (0 : Fin 1) :=
  funext fun a => Fin.ext (by match a with | ⟨0, _⟩ => rfl)

/-! ## The pooling stages at a graph -/

/-- The node count of graph g. -/
theorem count_at (x2 : (⟨S100000, .i32⟩ : BufTy).Contents (Elt Ideal)) (g : Fin 64) :
    val_main_v68 (F := Ideal) x2 (ix1 g) = Cert.Spec.count (Cert.Spec.idsOf x2) g := by
  unfold val_main_v68
  show Ideal.hostScatterAdd scatter_S64_S100000x1_S100000_n_0_0_1 (val_main_v66 (F := Ideal)) (val_main_v67 (F := Ideal) x2)
    (val_main_v65 (F := Ideal)) (ix1 g) = _
  refine (scatter_ones_spec _ _ (Cert.Spec.idsOf x2) (fun r => ?_) _ (fun r => ?_) g).trans ?_
  · rw [val_main_v67_apply]; exact congrArg x2 (ids67 r)
  · rw [val_main_v65_apply, val_main_cst_10_apply]; exact ofBits_one_f32
  · rw [val_main_v66_apply, val_main_cst_11_apply]
    show Ideal.ofBits .f32 0x00000000#32 + _ = _
    rw [Ideal.ofBits_zero_f32, zero_add]

/-- The pooled row of graph g at channel f. -/
theorem pooled_at (x0 : (⟨S100000x64, .f32⟩ : BufTy).Contents (Elt Ideal)) (x1 : (⟨S2x1000000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) (g f : Fin 64) :
    val_main_v64 (F := Ideal) x0 x1 x2 x3 x4 x5 x6 x7 x8 x9 x10 x11 x12 x13 (ix2 g f) = Cert.Spec.pooled (val_main_v61 (F := Ideal) x0 x1 x3 x4 x5 x6 x7 x8 x9 x10 x11 x12 x13) (Cert.Spec.idsOf x2) g f := by
  unfold val_main_v64
  generalize val_main_v61 (F := Ideal) x0 x1 x3 x4 x5 x6 x7 x8 x9 x10 x11 x12 x13 = h
  show Ideal.hostScatterAdd scatter_S64x64_S100000x1_S100000x64_1_0_0_1 (val_main_v62 (F := Ideal)) (val_main_v63 (F := Ideal) x2)
    h (ix2 g f) = _
  refine (scatter_rows_spec _ _ (Cert.Spec.idsOf x2) (fun r => ?_) h g f).trans ?_
  · rw [val_main_v63_apply]; exact congrArg x2 (ids63 r)
  · rw [val_main_v62_apply, val_main_cst_9_apply]
    show Ideal.ofBits .f32 0x00000000#32 + _ = _
    rw [Ideal.ofBits_zero_f32, zero_add]

/-- The divisor of graph g: the larger of its node count and one. -/
theorem denom_at (x2 : (⟨S100000, .i32⟩ : BufTy).Contents (Elt Ideal)) (g f : Fin 64) :
    val_main_v72 (F := Ideal) x2 (ix2 g f) = max (Cert.Spec.count (Cert.Spec.idsOf x2) g) (Ideal.ofBits .f32 0x3F800000#32) := by
  rw [val_main_v72_apply, val_main_v71_apply, val_main_v70_apply, val_main_v69_apply, val_main_cst_12_apply, den72 g f, count_at]
  rfl

/-- The mean row of graph g at channel f. -/
theorem quot_at (x0 : (⟨S100000x64, .f32⟩ : BufTy).Contents (Elt Ideal)) (x1 : (⟨S2x1000000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) (g f : Fin 64) :
    val_main_v73 (F := Ideal) x0 x1 x2 x3 x4 x5 x6 x7 x8 x9 x10 x11 x12 x13 (ix2 g f)
      = Ideal.div (Cert.Spec.pooled (val_main_v61 (F := Ideal) x0 x1 x3 x4 x5 x6 x7 x8 x9 x10 x11 x12 x13) (Cert.Spec.idsOf x2) g f) (max (Cert.Spec.count (Cert.Spec.idsOf x2) g) (Ideal.ofBits .f32 0x3F800000#32)) := by
  rw [val_main_v73_apply, pooled_at, denom_at]
  rfl

/-! ## The two affine maps -/

theorem hidden_at (x0 : (⟨S100000x64, .f32⟩ : BufTy).Contents (Elt Ideal)) (x1 : (⟨S2x1000000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) (x14 : (⟨S64x64, .f32⟩ : BufTy).Contents (Elt Ideal)) (x15 : (⟨S64, .f32⟩ : BufTy).Contents (Elt Ideal)) (g j : Fin 64) :
    val_main_v77 (F := Ideal) x0 x1 x2 x3 x4 x5 x6 x7 x8 x9 x10 x11 x12 x13 x14 x15 (ix2 g j)
      = (∑ f : Fin 64, Ideal.div (Cert.Spec.pooled (val_main_v61 (F := Ideal) x0 x1 x3 x4 x5 x6 x7 x8 x9 x10 x11 x12 x13) (Cert.Spec.idsOf x2) g f) (max (Cert.Spec.count (Cert.Spec.idsOf x2) g) (Ideal.ofBits .f32 0x3F800000#32)) * x14 (ix2 f j))
        + Cert.Spec.rowOf x15 (ix2 0 j) := by
  rw [val_main_v77_apply, val_main_v74_apply, val_main_v76_apply, val_main_v75_apply]
  simp only [lidx74, ridx74, quot_at, bias76]
  rfl

theorem head_at (x0 : (⟨S100000x64, .f32⟩ : BufTy).Contents (Elt Ideal)) (x1 : (⟨S2x1000000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) (x14 : (⟨S64x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal)) (g : Fin 64) :
    val_main_v81 (F := Ideal) x0 x1 x2 x3 x4 x5 x6 x7 x8 x9 x10 x11 x12 x13 x14 x15 x16 x17 (ix2 g (0 : Fin 1))
      = Cert.Spec.head (val_main_v61 (F := Ideal) x0 x1 x3 x4 x5 x6 x7 x8 x9 x10 x11 x12 x13) (Cert.Spec.idsOf x2) x14 (Cert.Spec.rowOf x15) x16 (Cert.Spec.oneOf1 x17) g := by
  rw [val_main_v81_apply, val_main_v78_apply, val_main_v80_apply, val_main_v79_apply]
  simp only [lidx78, ridx78, hidden_at, bias80]
  rfl

/-! ## The network -/

/-- The last stage of the reference, over the argument arrays, is the specification's network. -/
theorem net_eq (x0 : (⟨S100000x64, .f32⟩ : BufTy).Contents (Elt Ideal)) (x1 : (⟨S2x1000000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 : (⟨S64x64, .f32⟩ : BufTy).Contents (Elt Ideal)) (x12 x13 : (⟨S_, .f32⟩ : BufTy).Contents (Elt Ideal)) (x14 : (⟨S64x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal)) :
    val_main_v81 (F := Ideal) x0 x1 x2 x3 x4 x5 x6 x7 x8 x9 x10 x11 x12 x13 x14 x15 x16 x17
      = Cert.Spec.net (aggR x1) x0 (Cert.Spec.idsOf x2) x3 x5 (Cert.Spec.rowOf x4) (Cert.Spec.oneOf x12)
          x6 x8 (Cert.Spec.rowOf x7) (Cert.Spec.oneOf x13) x9 x11 (Cert.Spec.rowOf x10)
          x14 (Cert.Spec.rowOf x15) x16 (Cert.Spec.oneOf1 x17) := by
  funext j
  obtain ⟨g, z, rfl⟩ : ∃ (g : Fin 64) (z : Fin 1), j = ix2 g z := ⟨j 0, j 1, eq_ix2 j⟩
  obtain rfl : z = 0 := Subsingleton.elim _ _
  rw [head_at, layer3, layer2, layer1]
  rfl

/-- The reference's result is the specification's network at the argument arrays, the aggregation the reference's own. -/
theorem ref_value (m : (ℓ : Loc nD τ sig) → Buf (Elt Ideal) ℓ) (c : Dev nD) :
    Cert.ReferenceIdeal.Value.res_out0 (F := Ideal) m c
      = Cert.Spec.net (aggR (m ((c.tc : Thread nD τ).loc main_arg1))) (m ((c.tc : Thread nD τ).loc main_arg0)) (Cert.Spec.idsOf (m ((c.tc : Thread nD τ).loc main_arg2)))
          (m ((c.tc : Thread nD τ).loc main_arg3)) (m ((c.tc : Thread nD τ).loc main_arg5)) (Cert.Spec.rowOf (m ((c.tc : Thread nD τ).loc main_arg4))) (Cert.Spec.oneOf (m ((c.tc : Thread nD τ).loc main_arg12)))
          (m ((c.tc : Thread nD τ).loc main_arg6)) (m ((c.tc : Thread nD τ).loc main_arg8)) (Cert.Spec.rowOf (m ((c.tc : Thread nD τ).loc main_arg7))) (Cert.Spec.oneOf (m ((c.tc : Thread nD τ).loc main_arg13)))
          (m ((c.tc : Thread nD τ).loc main_arg9)) (m ((c.tc : Thread nD τ).loc main_arg11)) (Cert.Spec.rowOf (m ((c.tc : Thread nD τ).loc main_arg10)))
          (m ((c.tc : Thread nD τ).loc main_arg14)) (Cert.Spec.rowOf (m ((c.tc : Thread nD τ).loc main_arg15))) (m ((c.tc : Thread nD τ).loc main_arg16)) (Cert.Spec.oneOf1 (m ((c.tc : Thread nD τ).loc main_arg17))) :=
  (Read.val_main_v81_eq (F := Ideal) m c).trans (net_eq _ _ _ _ _ _ _ _ _ _ _ _ _ _ _ _ _ _)

end Cert.ReferenceIdeal.RefValue

end
-- ==== Proof.Bridge.lean ====
/-
  The neighbour aggregation is the same host computation in both programs: the source ids taken from row 0 of the
  edge list and a negative one counted from the end, the source rows of the features gathered, and those rows added at
  the destination ids (row 1 of the edge list) into zeros.  The two programs spell the shapes and the gather and
  scatter-add dimension records as constants of their own with the same contents, so the two terms agree once the
  stages' names are opened; no stage is evaluated.
-/
import proofs.«412716_j76287209112018_2_alg».proof.Proof.KI.Host
import proofs.«412716_j76287209112018_2_alg».proof.Proof.Ref.Layers

noncomputable section

namespace Cert.Proof

open Idealize.ShloMosaic

/-- The kernel program's aggregation is the reference's stage that holds it, in any float model. -/
theorem agg_same_gen {F : FTy → Type} [FloatOps F] (ei : IVec Cert.KernelIdeal.S2x1000000 32) (feat : FVec F Cert.KernelIdeal.S100000x64 .f32) :
    Cert.KernelIdeal.Hand.aggOf (F := F) (Cert.KernelIdeal.Hand.srcOf ei) (Cert.KernelIdeal.Hand.dstOf ei) feat
      = Cert.ReferenceIdeal.Read.val_main_v13 (F := F) feat ei := by
  unfold Cert.ReferenceIdeal.Read.val_main_v13 Cert.ReferenceIdeal.Read.val_main_v12 Cert.ReferenceIdeal.Read.val_main_v11 Cert.ReferenceIdeal.Read.val_main_cst Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v3 Cert.ReferenceIdeal.Read.val_main_v2 Cert.ReferenceIdeal.Read.val_main_v1 Cert.ReferenceIdeal.Read.val_main_v0
    Cert.KernelIdeal.Hand.aggOf Cert.KernelIdeal.Hand.srcOf Cert.KernelIdeal.Hand.dstOf
  rfl

/-- On the extended reals: the function the reference's layers are stated over. -/
theorem agg_same (ei : IVec Cert.KernelIdeal.S2x1000000 32) (feat : FVec Ideal Cert.KernelIdeal.S100000x64 .f32) :
    Cert.KernelIdeal.Hand.aggOf (F := Ideal) (Cert.KernelIdeal.Hand.srcOf ei) (Cert.KernelIdeal.Hand.dstOf ei) feat = Cert.ReferenceIdeal.RefValue.aggR ei feat := by
  unfold Cert.ReferenceIdeal.RefValue.aggR
  exact agg_same_gen (F := Ideal) ei feat

end Cert.Proof

end
-- ==== Proof.lean ====
/-
  The certificate.  The word-level kernel program and its idealization are one text read at two float instances; each
  runs as four stretches of host operations and four kernel regions, and both frames come from that run.  The reference
  is a straight line of host operations.  At the ideal instance both results are the same network of the argument
  arrays: three combine layers over the neighbour aggregation (the same host computation in both programs), then the
  pooling head, where the kernel's one-hot products summed block by block are the reference's scatter-add, row by row.
-/
import proofs.«412716_j76287209112018_2_alg».proof.Defs
import proofs.«412716_j76287209112018_2_alg».proof.Proof.Gen.Kernel
import proofs.«412716_j76287209112018_2_alg».proof.Proof.Gen.KernelIdeal
import proofs.«412716_j76287209112018_2_alg».proof.Proof.Gen.ReferenceIdeal
import proofs.«412716_j76287209112018_2_alg».proof.Proof.Gen.Pre_finite_inputs
import proofs.«412716_j76287209112018_2_alg».proof.Proof.K.Run
import proofs.«412716_j76287209112018_2_alg».proof.Proof.KI.Run
import proofs.«412716_j76287209112018_2_alg».proof.Proof.KI.Net
import proofs.«412716_j76287209112018_2_alg».proof.Proof.Ref.Value
import proofs.«412716_j76287209112018_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

set_option maxHeartbeats 8000000 in
/-- Both programs end with the specification's network of the (agreeing) argument arrays. -/
theorem algebraic : Cert.algebraic_KernelIdeal_ReferenceIdeal := by
  intro m ρ m' ρ' _ hagree
  refine ⟨fun c => (Cert.KernelIdeal.Hand.dat3 (F := Ideal) (Cert.KernelIdeal.Hand.E3 m) c).arrAt 6 Cert.KernelIdeal.cfg3.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  refine (Cert.ReferenceIdeal.RefValue.ref_value m' c).trans ?_
  refine Eq.trans ?_ (Cert.KernelIdeal.Hand.kernel_value m c).symm
  rw [e0, e1, e2, e3, e4, e5, e6, e7, e8, e9, e10, e11, e12, e13, e14, e15, e16, e17]
  exact congrArg (fun a => Cert.Spec.net a _ _ _ _ _ _ _ _ _ _ _ _ _ _ _ _ _) (funext fun feat => (agg_same _ feat).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
